-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x2 : Shape := ⟨3, ![128, 2048, 2]⟩
abbrev S4x256x32 : Shape := ⟨3, ![4, 256, 32]⟩
abbrev S32x128 : Shape := ⟨2, ![32, 128]⟩
abbrev S32 : Shape := ⟨1, ![32]⟩
abbrev S_ : Shape := ⟨0, ![]⟩

class Facts : Prop where
  bcast_S_S4x256x32 : S_.BroadcastsInDim S4x256x32 (![] : Fin 0 → Fin S4x256x32.rank)
  reducesTo_S4x256x32_S_d0_1_2 : S4x256x32.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : IVec S128x2048x2 32) (main_arg1 : FVec F S4x256x32 .f32) (main_arg2 : FVec F S4x256x32 .f32) (main_arg3 : FVec F S32x128 .f32) (main_arg4 : FVec F S32 .f32) : IVec S_ 1 :=
  let main_v0 : FVec F S4x256x32 .f32 := Host.absf main_arg1
  let main_cst : FVec F S_ .f32 := constant S_ .f32 0x7F800000#32
  let main_v1 : FVec F S4x256x32 .f32 := broadcastInDim S4x256x32 ![] bcast_S_S4x256x32 main_cst
  let main_v2 : IVec S4x256x32 1 := cmpf .olt main_v0 main_v1
  let main_c : IVec S_ 1 := constantI S_ 1 1#1
  let main_v3 : IVec S_ 1 := (fun x v => Host.reduce IntOp.andi x v reducesTo_S4x256x32_S_d0_1_2 h_S_) main_v2 main_c
  let main_v4 : FVec F S4x256x32 .f32 := Host.absf main_arg2
  let main_cst_0 : FVec F S_ .f32 := constant S_ .f32 0x7F800000#32
  let main_v5 : FVec F S4x256x32 .f32 := broadcastInDim S4x256x32 ![] bcast_S_S4x256x32 main_cst_0
  let main_v6 : IVec S4x256x32 1 := cmpf .olt main_v4 main_v5
  let main_c_1 : IVec S_ 1 := constantI S_ 1 1#1
  let main_v7 : IVec S_ 1 := (fun x v => Host.reduce IntOp.andi x v reducesTo_S4x256x32_S_d0_1_2 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S128x2048x2 : Shape := ⟨3, ![128, 2048, 2]⟩
abbrev S4x256x32 : Shape := ⟨3, ![4, 256, 32]⟩
abbrev S32x128 : Shape := ⟨2, ![32, 128]⟩
abbrev S32 : Shape := ⟨1, ![32]⟩
abbrev S128x2048x1 : Shape := ⟨3, ![128, 2048, 1]⟩
abbrev S128x2048 : Shape := ⟨2, ![128, 2048]⟩
abbrev S262144 : Shape := ⟨1, ![262144]⟩
abbrev S1x262144 : Shape := ⟨2, ![1, 262144]⟩
abbrev S2x262144 : Shape := ⟨2, ![2, 262144]⟩
abbrev S32x32 : Shape := ⟨2, ![32, 32]⟩
abbrev S1x256x32 : Shape := ⟨3, ![1, 256, 32]⟩
abbrev S256x32 : Shape := ⟨2, ![256, 32]⟩
abbrev S32x256 : Shape := ⟨2, ![32, 256]⟩
abbrev S1x32x256 : Shape := ⟨3, ![1, 32, 256]⟩
abbrev S4x32x256 : Shape := ⟨3, ![4, 32, 256]⟩
abbrev S32x1 : Shape := ⟨2, ![32, 1]⟩
abbrev S262144x64 : Shape := ⟨2, ![262144, 64]⟩
abbrev S2x8192 : Shape := ⟨2, ![2, 8192]⟩
abbrev S8192x64 : Shape := ⟨2, ![8192, 64]⟩
abbrev S256x8192 : Shape := ⟨2, ![256, 8192]⟩
abbrev S1x8192 : Shape := ⟨2, ![1, 8192]⟩
abbrev S32x8192 : Shape := ⟨2, ![32, 8192]⟩
abbrev S64x8192 : Shape := ⟨2, ![64, 8192]⟩
abbrev S128x2048x64 : Shape := ⟨3, ![128, 2048, 64]⟩

abbrev nBuf : Space → Nat
  | .hbm => 77
  | .vmem => 7
  | .smem => 0
  | _ => 0

abbrev bufTy : (tb : Table) → Fin (tcTables nBuf tb) → BufTy
  | .hbm, ⟨0, _⟩ => ⟨S128x2048x2, .i32⟩
  | .hbm, ⟨1, _⟩ => ⟨S4x256x32, .f32⟩
  | .hbm, ⟨2, _⟩ => ⟨S4x256x32, .f32⟩
  | .hbm, ⟨3, _⟩ => ⟨S32x128, .f32⟩
  | .hbm, ⟨4, _⟩ => ⟨S32, .f32⟩
  | .hbm, ⟨5, _⟩ => ⟨S128x2048x1, .i32⟩
  | .hbm, ⟨6, _⟩ => ⟨S128x2048, .i32⟩
  | .hbm, ⟨7, _⟩ => ⟨S262144, .i32⟩
  | .hbm, ⟨8, _⟩ => ⟨S128x2048x1, .i32⟩
  | .hbm, ⟨9, _⟩ => ⟨S128x2048, .i32⟩
  | .hbm, ⟨10, _⟩ => ⟨S262144, .i32⟩
  | .hbm, ⟨11, _⟩ => ⟨S1x262144, .i32⟩
  | .hbm, ⟨12, _⟩ => ⟨S1x262144, .i32⟩
  | .hbm, ⟨13, _⟩ => ⟨S2x262144, .i32⟩
  | .hbm, ⟨14, _⟩ => ⟨S32x32, .f32⟩
  | .hbm, ⟨15, _⟩ => ⟨S1x256x32, .f32⟩
  | .hbm, ⟨16, _⟩ => ⟨S256x32, .f32⟩
  | .hbm, ⟨17, _⟩ => ⟨S32x32, .f32⟩
  | .hbm, ⟨18, _⟩ => ⟨S256x32, .f32⟩
  | .hbm, ⟨19, _⟩ => ⟨S32x256, .f32⟩
  | .hbm, ⟨20, _⟩ => ⟨S32x32, .f32⟩
  | .hbm, ⟨21, _⟩ => ⟨S1x256x32, .f32⟩
  | .hbm, ⟨22, _⟩ => ⟨S256x32, .f32⟩
  | .hbm, ⟨23, _⟩ => ⟨S32x32, .f32⟩
  | .hbm, ⟨24, _⟩ => ⟨S256x32, .f32⟩
  | .hbm, ⟨25, _⟩ => ⟨S32x256, .f32⟩
  | .hbm, ⟨26, _⟩ => ⟨S32x32, .f32⟩
  | .hbm, ⟨27, _⟩ => ⟨S1x256x32, .f32⟩
  | .hbm, ⟨28, _⟩ => ⟨S256x32, .f32⟩
  | .hbm, ⟨29, _⟩ => ⟨S32x32, .f32⟩
  | .hbm, ⟨30, _⟩ => ⟨S256x32, .f32⟩
  | .hbm, ⟨31, _⟩ => ⟨S32x256, .f32⟩
  | .hbm, ⟨32, _⟩ => ⟨S32x32, .f32⟩
  | .hbm, ⟨33, _⟩ => ⟨S1x256x32, .f32⟩
  | .hbm, ⟨34, _⟩ => ⟨S256x32, .f32⟩
  | .hbm, ⟨35, _⟩ => ⟨S32x32, .f32⟩
  | .hbm, ⟨36, _⟩ => ⟨S256x32, .f32⟩
  | .hbm, ⟨37, _⟩ => ⟨S32x256, .f32⟩
  | .hbm, ⟨38, _⟩ => ⟨S1x32x256, .f32⟩
  | .hbm, ⟨39, _⟩ => ⟨S1x32x256, .f32⟩
  | .hbm, ⟨40, _⟩ => ⟨S1x32x256, .f32⟩
  | .hbm, ⟨41, _⟩ => ⟨S1x32x256, .f32⟩
  | .hbm, ⟨42, _⟩ => ⟨S4x32x256, .f32⟩
  | .hbm, ⟨43, _⟩ => ⟨S4x32x256, .bf16⟩
  | .hbm, ⟨44, _⟩ => ⟨S32x32, .f32⟩
  | .hbm, ⟨45, _⟩ => ⟨S1x256x32, .f32⟩
  | .hbm, ⟨46, _⟩ => ⟨S256x32, .f32⟩
  | .hbm, ⟨47, _⟩ => ⟨S32x32, .f32⟩
  | .hbm, ⟨48, _⟩ => ⟨S256x32, .f32⟩
  | .hbm, ⟨49, _⟩ => ⟨S32x256, .f32⟩
  | .hbm, ⟨50, _⟩ => ⟨S32x32, .f32⟩
  | .hbm, ⟨51, _⟩ => ⟨S1x256x32, .f32⟩
  | .hbm, ⟨52, _⟩ => ⟨S256x32, .f32⟩
  | .hbm, ⟨53, _⟩ => ⟨S32x32, .f32⟩
  | .hbm, ⟨54, _⟩ => ⟨S256x32, .f32⟩
  | .hbm, ⟨55, _⟩ => ⟨S32x256, .f32⟩
  | .hbm, ⟨56, _⟩ => ⟨S32x32, .f32⟩
  | .hbm, ⟨57, _⟩ => ⟨S1x256x32, .f32⟩
  | .hbm, ⟨58, _⟩ => ⟨S256x32, .f32⟩
  | .hbm, ⟨59, _⟩ => ⟨S32x32, .f32⟩
  | .hbm, ⟨60, _⟩ => ⟨S256x32, .f32⟩
  | .hbm, ⟨61, _⟩ => ⟨S32x256, .f32⟩
  | .hbm, ⟨62, _⟩ => ⟨S32x32, .f32⟩
  | .hbm, ⟨63, _⟩ => ⟨S1x256x32, .f32⟩
  | .hbm, ⟨64, _⟩ => ⟨S256x32, .f32⟩
  | .hbm, ⟨65, _⟩ => ⟨S32x32, .f32⟩
  | .hbm, ⟨66, _⟩ => ⟨S256x32, .f32⟩
  | .hbm, ⟨67, _⟩ => ⟨S32x256, .f32⟩
  | .hbm, ⟨68, _⟩ => ⟨S1x32x256, .f32⟩
  | .hbm, ⟨69, _⟩ => ⟨S1x32x256, .f32⟩
  | .hbm, ⟨70, _⟩ => ⟨S1x32x256, .f32⟩
  | .hbm, ⟨71, _⟩ => ⟨S1x32x256, .f32⟩
  | .hbm, ⟨72, _⟩ => ⟨S4x32x256, .f32⟩
  | .hbm, ⟨73, _⟩ => ⟨S4x32x256, .bf16⟩
  | .hbm, ⟨74, _⟩ => ⟨S32x1, .f32⟩
  | .hbm, ⟨75, _⟩ => ⟨S262144x64, .f32⟩
  | .hbm, ⟨76, _⟩ => ⟨S128x2048x64, .f32⟩
  | .local _ .vmem, ⟨0, _⟩ => ⟨S2x8192, .i32⟩
  | .local _ .vmem, ⟨1, _⟩ => ⟨S2x8192, .i32⟩
  | .local _ .vmem, ⟨2, _⟩ => ⟨S4x32x256, .bf16⟩
  | .local _ .vmem, ⟨3, _⟩ => ⟨S4x32x256, .bf16⟩
  | .local _ .vmem, ⟨4, _⟩ => ⟨S32x1, .f32⟩
  | .local _ .vmem, ⟨5, _⟩ => ⟨S8192x64, .f32⟩
  | .local _ .vmem, ⟨6, _⟩ => ⟨S8192x64, .f32⟩
  | _, _ => ⟨S128x2048x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v33 : Index := Scalar.indexCast arg6
  let c0_12 : Index := 0#32
  let c0_13 : Index := 0#32
  ![v33.toNat, 0, 0]
@[reducible] def k0_t2_loop : Scf.Loop 32 :=
  let c0_i32_6 : BitVec 32 := 0#32
  let c4_i32_7 : BitVec 32 := 4#32
  let v14 : BitVec 32 := Scalar.addi c0_i32_6 c4_i32_7
  let c1_i32_8 : BitVec 32 := 1#32
  ⟨c0_i32_6, v14, c1_i32_8⟩
def k0_off2 (k0_t2 : Fin k0_t2_loop.trips) : Fin 3 → Nat :=
  let c0_i32_6 : BitVec 32 := 0#32
  let c1_i32_8 : BitVec 32 := 1#32
  let arg6 : BitVec 32 := Scf.iv c0_i32_6 c1_i32_8 k0_t2
  let v33 : Index := Scalar.indexCast arg6
  let c0_12 : Index := 0#32
  let c0_13 : Index := 0#32
  ![v33.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S128x2048x2_S128x2048x1_0_0_0 : S128x2048x2.Slices ![0, 0, 0] S128x2048x1
  shapeCasts_S128x2048x1_S128x2048 : S128x2048x1.ShapeCasts S128x2048
  shapeCasts_S128x2048_S262144 : S128x2048.ShapeCasts S262144
  slices_S128x2048x2_S128x2048x1_0_0_1 : S128x2048x2.Slices ![0, 0, 1] S128x2048x1
  bcast_S262144_S1x262144_1 : S262144.BroadcastsInDim S1x262144 (![1] : Fin 1 → Fin S1x262144.rank)
  concatenates_S1x262144_S1x262144_S2x262144_d0 : Shape.Concatenates [S1x262144, S1x262144] S2x262144 0
  slices_S32x128_S32x32_0_0 : S32x128.Slices ![0, 0] S32x32
  slices_S4x256x32_S1x256x32_0_0_0 : S4x256x32.Slices ![0, 0, 0] S1x256x32
  shapeCasts_S1x256x32_S256x32 : S1x256x32.ShapeCasts S256x32
  transposes_S32x32_S32x32_1_0 : S32x32.Transposes [1, 0] S32x32
  transposes_S256x32_S32x256_1_0 : S256x32.Transposes [1, 0] S32x256
  slices_S32x128_S32x32_0_32 : S32x128.Slices ![0, 32] S32x32
  slices_S4x256x32_S1x256x32_1_0_0 : S4x256x32.Slices ![1, 0, 0] S1x256x32
  slices_S32x128_S32x32_0_64 : S32x128.Slices ![0, 64] S32x32
  slices_S4x256x32_S1x256x32_2_0_0 : S4x256x32.Slices ![2, 0, 0] S1x256x32
  slices_S32x128_S32x32_0_96 : S32x128.Slices ![0, 96] S32x32
  slices_S4x256x32_S1x256x32_3_0_0 : S4x256x32.Slices ![3, 0, 0] S1x256x32
  bcast_S32x256_S1x32x256_1_2 : S32x256.BroadcastsInDim S1x32x256 (![1, 2] : Fin 2 → Fin S1x32x256.rank)
  concatenates_S1x32x256_S1x32x256_S1x32x256_S1x32x256_S4x32x256_d0 : Shape.Concatenates [S1x32x256, S1x32x256, S1x32x256, S1x32x256] S4x32x256 0
  bitsLt_bf16_f32 : FTy.bits .bf16 < FTy.bits .f32
  shapeCasts_S32_S32x1 : S32.ShapeCasts S32x1
  iota_S256x8192_d0_w32 : S256x8192.Iotas .tc 32 [0]
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S2x8192_S1x8192_0_0 : ∀ a, (![0, 0] : Fin 2 → Nat) a + S1x8192.size a ≤ S2x8192.size a
  h_S1x8192 : 0 < S1x8192.numel
  shapeCasts_S1x8192_S1x8192 : S1x8192.ShapeCasts S1x8192
  inb_S2x8192_S1x8192_1_0 : ∀ a, (![1, 0] : Fin 2 → Nat) a + S1x8192.size a ≤ S2x8192.size a
  broadcasts_S1x8192_S256x8192 : S1x8192.Broadcasts S256x8192
  natLt_1_32 : 1 < 32
  h_S1x32x256 : 0 < S1x32x256.numel
  shapeCasts_S1x32x256_S32x256 : S1x32x256.ShapeCasts S32x256
  broadcasts_S32x1_S32x8192 : S32x1.Broadcasts S32x8192
  concatenates_S32x8192_S32x8192_S64x8192_d0 : Shape.Concatenates [S32x8192, S32x8192] S64x8192 0
  transposes_S64x8192_p1_0_S8192x64 : S64x8192.Transposes [1, 0] S8192x64
  inb_S8192x64_S8192x64_0_0 : ∀ a, (![0, 0] : Fin 2 → Nat) a + S8192x64.size a ≤ S8192x64.size a
  h_S8192x64 : 0 < S8192x64.numel
  shapeCasts_S262144x64_S128x2048x64 : S262144x64.ShapeCasts S128x2048x64
  dot_S256x32_S32x32_S256x32_1_0_0_1_n_n_wf : DotDims.WF S256x32 S32x32 S256x32 [1] [0] [0] [1] [] []
  dot_S32x256_S256x8192_S32x8192_1_0_0_1_n_n_wf : DotDims.WF S32x256 S256x8192 S32x8192 [1] [0] [0] [1] [] []
  hrank0 : 0 < grid0.rank
  k0_t1_ok : k0_t1_loop.OK
  k0_off1_inb : ∀ k0_t1 : Fin k0_t1_loop.trips, ∀ a, (k0_off1 k0_t1) a + S1x32x256.size a ≤ S4x32x256.size a
  k0_t2_ok : k0_t2_loop.OK
  k0_off2_inb : ∀ k0_t2 : Fin k0_t2_loop.trips, ∀ a, (k0_off2 k0_t2) a + S1x32x256.size a ≤ S4x32x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8192.size a ≤ S2x262144.size a
  hwx0_0 : ∀ i : grid0.Coords, EltTy.bits .i32 = 32 ∨ (Rect.block (s := S2x262144) S2x8192.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x32x256.size a ≤ S4x32x256.size a
  hwx0_1 : ∀ i : grid0.Coords, EltTy.bits .bf16 = 32 ∨ (Rect.block (s := S4x32x256) S4x32x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x32x256.size a ≤ S4x32x256.size a
  hwx0_2 : ∀ i : grid0.Coords, EltTy.bits .bf16 = 32 ∨ (Rect.block (s := S4x32x256) S4x32x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x64.size a ≤ S262144x64.size a
  hwx0_4 : ∀ i : grid0.Coords, EltTy.bits .f32 = 32 ∨ (Rect.block (s := S262144x64) S8192x64.size (cc0_transform_4 i) (hinb0_4 i)).WholeWords (EltTy.packing .f32)

variable [Facts₀]

def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S32x256_S256x8192_S32x8192_1_0_0_1_n_n : DotDims S32x256 S256x8192 S32x8192 where
  lhsContracting := [1]
  rhsContracting := [0]
  lhsNonContracting := [0]
  rhsNonContracting := [1]
  lhsBatch := []
  rhsBatch := []
  wf := dot_S32x256_S256x8192_S32x8192_1_0_0_1_n_n_wf

abbrev win0_0 : Pipeline.Window sig grid0 :=
  Pipeline.Window.ofSpec (Memref.whole main_v8) S2x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S4x32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v68) S4x32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v69) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v70) S8192x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x2048x2 : Shape := ⟨3, ![128, 2048, 2]⟩
abbrev S4x256x32 : Shape := ⟨3, ![4, 256, 32]⟩
abbrev S32x128 : Shape := ⟨2, ![32, 128]⟩
abbrev S32 : Shape := ⟨1, ![32]⟩
abbrev S4 : Shape := ⟨1, ![4]⟩
abbrev S128x2048x1 : Shape := ⟨3, ![128, 2048, 1]⟩
abbrev S128x2048 : Shape := ⟨2, ![128, 2048]⟩
abbrev S262144 : Shape := ⟨1, ![262144]⟩
abbrev S262144x1 : Shape := ⟨2, ![262144, 1]⟩
abbrev S1x4 : Shape := ⟨2, ![1, 4]⟩
abbrev S262144x4 : Shape := ⟨2, ![262144, 4]⟩
abbrev S_ : Shape := ⟨0, ![]⟩
abbrev S4x262144 : Shape := ⟨2, ![4, 262144]⟩
abbrev S4x262144x1 : Shape := ⟨3, ![4, 262144, 1]⟩
abbrev S4x262144x32 : Shape := ⟨3, ![4, 262144, 32]⟩
abbrev S262144x4x32 : Shape := ⟨3, ![262144, 4, 32]⟩
abbrev S262144x128 : Shape := ⟨2, ![262144, 128]⟩
abbrev S128x32 : Shape := ⟨2, ![128, 32]⟩
abbrev S262144x32 : Shape := ⟨2, ![262144, 32]⟩
abbrev S1x32 : Shape := ⟨2, ![1, 32]⟩
abbrev S262144x64 : Shape := ⟨2, ![262144, 64]⟩
abbrev S128x2048x64 : Shape := ⟨3, ![128, 2048, 64]⟩

abbrev nBuf : Space → Nat
  | .hbm => 81
  | .vmem => 0
  | .smem => 0
  | _ => 0

abbrev bufTy : (tb : Table) → Fin (tcTables nBuf tb) → BufTy
  | .hbm, ⟨0, _⟩ => ⟨S128x2048x2, .i32⟩
  | .hbm, ⟨1, _⟩ => ⟨S4x256x32, .f32⟩
  | .hbm, ⟨2, _⟩ => ⟨S4x256x32, .f32⟩
  | .hbm, ⟨3, _⟩ => ⟨S32x128, .f32⟩
  | .hbm, ⟨4, _⟩ => ⟨S32, .f32⟩
  | .hbm, ⟨5, _⟩ => ⟨S4, .i32⟩
  | .hbm, ⟨6, _⟩ => ⟨S4, .i32⟩
  | .hbm, ⟨7, _⟩ => ⟨S128x2048x1, .i32⟩
  | .hbm, ⟨8, _⟩ => ⟨S128x2048, .i32⟩
  | .hbm, ⟨9, _⟩ => ⟨S262144, .i32⟩
  | .hbm, ⟨10, _⟩ => ⟨S128x2048x1, .i32⟩
  | .hbm, ⟨11, _⟩ => ⟨S128x2048, .i32⟩
  | .hbm, ⟨12, _⟩ => ⟨S262144, .i32⟩
  | .hbm, ⟨13, _⟩ => ⟨S262144x1, .i32⟩
  | .hbm, ⟨14, _⟩ => ⟨S1x4, .i32⟩
  | .hbm, ⟨15, _⟩ => ⟨S262144x4, .i32⟩
  | .hbm, ⟨16, _⟩ => ⟨S262144x4, .i32⟩
  | .hbm, ⟨17, _⟩ => ⟨S262144x4, .i32⟩
  | .hbm, ⟨18, _⟩ => ⟨S_, .i32⟩
  | .hbm, ⟨19, _⟩ => ⟨S262144x4, .i32⟩
  | .hbm, ⟨20, _⟩ => ⟨S262144x4, .i32⟩
  | .hbm, ⟨21, _⟩ => ⟨S_, .i32⟩
  | .hbm, ⟨22, _⟩ => ⟨S262144x4, .i32⟩
  | .hbm, ⟨23, _⟩ => ⟨S262144x4, .i1⟩
  | .hbm, ⟨24, _⟩ => ⟨S_, .i32⟩
  | .hbm, ⟨25, _⟩ => ⟨S262144x4, .i32⟩
  | .hbm, ⟨26, _⟩ => ⟨S262144x4, .i32⟩
  | .hbm, ⟨27, _⟩ => ⟨S262144x4, .i32⟩
  | .hbm, ⟨28, _⟩ => ⟨S4x262144, .i32⟩
  | .hbm, ⟨29, _⟩ => ⟨S4x262144x1, .i32⟩
  | .hbm, ⟨30, _⟩ => ⟨S4x262144x32, .f32⟩
  | .hbm, ⟨31, _⟩ => ⟨S262144x4x32, .f32⟩
  | .hbm, ⟨32, _⟩ => ⟨S262144x128, .f32⟩
  | .hbm, ⟨33, _⟩ => ⟨S262144x1, .i32⟩
  | .hbm, ⟨34, _⟩ => ⟨S1x4, .i32⟩
  | .hbm, ⟨35, _⟩ => ⟨S262144x4, .i32⟩
  | .hbm, ⟨36, _⟩ => ⟨S262144x4, .i32⟩
  | .hbm, ⟨37, _⟩ => ⟨S262144x4, .i32⟩
  | .hbm, ⟨38, _⟩ => ⟨S_, .i32⟩
  | .hbm, ⟨39, _⟩ => ⟨S262144x4, .i32⟩
  | .hbm, ⟨40, _⟩ => ⟨S262144x4, .i32⟩
  | .hbm, ⟨41, _⟩ => ⟨S_, .i32⟩
  | .hbm, ⟨42, _⟩ => ⟨S262144x4, .i32⟩
  | .hbm, ⟨43, _⟩ => ⟨S262144x4, .i1⟩
  | .hbm, ⟨44, _⟩ => ⟨S_, .i32⟩
  | .hbm, ⟨45, _⟩ => ⟨S262144x4, .i32⟩
  | .hbm, ⟨46, _⟩ => ⟨S262144x4, .i32⟩
  | .hbm, ⟨47, _⟩ => ⟨S262144x4, .i32⟩
  | .hbm, ⟨48, _⟩ => ⟨S4x262144, .i32⟩
  | .hbm, ⟨49, _⟩ => ⟨S4x262144x1, .i32⟩
  | .hbm, ⟨50, _⟩ => ⟨S4x262144x32, .f32⟩
  | .hbm, ⟨51, _⟩ => ⟨S262144x4x32, .f32⟩
  | .hbm, ⟨52, _⟩ => ⟨S262144x128, .f32⟩
  | .hbm, ⟨53, _⟩ => ⟨S128x32, .f32⟩
  | .hbm, ⟨54, _⟩ => ⟨S262144x32, .f32⟩
  | .hbm, ⟨55, _⟩ => ⟨S1x32, .f32⟩
  | .hbm, ⟨56, _⟩ => ⟨S262144x32, .f32⟩
  | .hbm, ⟨57, _⟩ => ⟨S262144x32, .f32⟩
  | .hbm, ⟨58, _⟩ => ⟨S262144x32, .f32⟩
  | .hbm, ⟨59, _⟩ => ⟨S262144x32, .f32⟩
  | .hbm, ⟨60, _⟩ => ⟨S_, .f32⟩
  | .hbm, ⟨61, _⟩ => ⟨S262144x32, .f32⟩
  | .hbm, ⟨62, _⟩ => ⟨S262144x32, .f32⟩
  | .hbm, ⟨63, _⟩ => ⟨S_, .f32⟩
  | .hbm, ⟨64, _⟩ => ⟨S262144x32, .f32⟩
  | .hbm, ⟨65, _⟩ => ⟨S262144x32, .f32⟩
  | .hbm, ⟨66, _⟩ => ⟨S128x32, .f32⟩
  | .hbm, ⟨67, _⟩ => ⟨S262144x32, .f32⟩
  | .hbm, ⟨68, _⟩ => ⟨S1x32, .f32⟩
  | .hbm, ⟨69, _⟩ => ⟨S262144x32, .f32⟩
  | .hbm, ⟨70, _⟩ => ⟨S262144x32, .f32⟩
  | .hbm, ⟨71, _⟩ => ⟨S262144x32, .f32⟩
  | .hbm, ⟨72, _⟩ => ⟨S262144x32, .f32⟩
  | .hbm, ⟨73, _⟩ => ⟨S_, .f32⟩
  | .hbm, ⟨74, _⟩ => ⟨S262144x32, .f32⟩
  | .hbm, ⟨75, _⟩ => ⟨S262144x32, .f32⟩
  | .hbm, ⟨76, _⟩ => ⟨S_, .f32⟩
  | .hbm, ⟨77, _⟩ => ⟨S262144x32, .f32⟩
  | .hbm, ⟨78, _⟩ => ⟨S262144x32, .f32⟩
  | .hbm, ⟨79, _⟩ => ⟨S262144x64, .f32⟩
  | .hbm, ⟨80, _⟩ => ⟨S128x2048x64, .f32⟩
  | _, _ => ⟨S128x2048x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]

class Facts₀ : Prop where
  slices_S128x2048x2_S128x2048x1_0_0_0 : S128x2048x2.Slices ![0, 0, 0] S128x2048x1
  shapeCasts_S128x2048x1_S128x2048 : S128x2048x1.ShapeCasts S128x2048
  shapeCasts_S128x2048_S262144 : S128x2048.ShapeCasts S262144
  slices_S128x2048x2_S128x2048x1_0_0_1 : S128x2048x2.Slices ![0, 0, 1] S128x2048x1
  bcast_S262144_S262144x1_0 : S262144.BroadcastsInDim S262144x1 (![0] : Fin 1 → Fin S262144x1.rank)
  bcast_S4_S1x4_1 : S4.BroadcastsInDim S1x4 (![1] : Fin 1 → Fin S1x4.rank)
  bcast_S262144x1_S262144x4_0_1 : S262144x1.BroadcastsInDim S262144x4 (![0, 1] : Fin 2 → Fin S262144x4.rank)
  bcast_S1x4_S262144x4_0_1 : S1x4.BroadcastsInDim S262144x4 (![0, 1] : Fin 2 → Fin S262144x4.rank)
  bcast_S_S262144x4 : S_.BroadcastsInDim S262144x4 (![] : Fin 0 → Fin S262144x4.rank)
  transposes_S262144x4_S4x262144_1_0 : S262144x4.Transposes [1, 0] S4x262144
  bcast_S4x262144_S4x262144x1_0_1 : S4x262144.BroadcastsInDim S4x262144x1 (![0, 1] : Fin 2 → Fin S4x262144x1.rank)
  transposes_S4x262144x32_S262144x4x32_1_0_2 : S4x262144x32.Transposes [1, 0, 2] S262144x4x32
  shapeCasts_S262144x4x32_S262144x128 : S262144x4x32.ShapeCasts S262144x128
  transposes_S32x128_S128x32_1_0 : S32x128.Transposes [1, 0] S128x32
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  concatenates_S262144x32_S262144x32_S262144x64_d1 : Shape.Concatenates [S262144x32, S262144x32] S262144x64 1
  shapeCasts_S262144x64_S128x2048x64 : S262144x64.ShapeCasts S128x2048x64
  gather_S4x256x32_S4x262144x1_S4x262144x32_2_1_0_0_1_2_1132_wf : GatherDims.WF S4x256x32 S4x262144x1 S4x262144x32 [2] [1] [0] [1] [0] 2 ![1, 1, 32]
  dot_S262144x128_S128x32_S262144x32_1_0_0_1_n_n_wf : DotDims.WF S262144x128 S128x32 S262144x32 [1] [0] [0] [1] [] []

variable [Facts₀]

def gather_S4x256x32_S4x262144x1_S4x262144x32_2_1_0_0_1_2_1132 : GatherDims S4x256x32 S4x262144x1 S4x262144x32 where
  offsetDims := [2]
  collapsedSliceDims := [1]
  operandBatchingDims := [0]
  startIndicesBatchingDims := [0]
  startIndexMap := [1]
  indexVectorDim := 2
  sliceSizes := ![1, 1, 32]
  wf := gather_S4x256x32_S4x262144x1_S4x262144x32_2_1_0_0_1_2_1132_wf
def dot_S262144x128_S128x32_S262144x32_1_0_0_1_n_n : DotDims S262144x128 S128x32 S262144x32 where
  lhsContracting := [1]
  rhsContracting := [0]
  lhsNonContracting := [0]
  rhsNonContracting := [1]
  lhsBatch := []
  rhsBatch := []
  wf := dot_S262144x128_S128x32_S262144x32_1_0_0_1_n_n_wf

class Facts : Prop extends Facts₀ where

variable [Facts]
-- ==== Proof.BlockDefB.lean ====
/-
  What one grid step leaves in its output block, as a pure function of the four input blocks it is handed.

  A step is handed 8192 rows' packed words (two lanes-rows of 8192 words: the first words, the second words), the two
  stacks of four pre-projected byte tables (each table 32 × 256: output feature by byte value), and the bias as a
  column.  For each of the two words it runs four trips, one per byte: trip `k` adds, to an accumulator that starts
  at zero, the product of table `k` with the 256 × 8192 zero-one matrix that marks each row's byte `k`.  The two
  accumulators plus the bias go through the logistic function, are stacked to 64 × 8192 and transposed to the block.

  The trips' accumulators are written here as plain recursions on the trip number over the per-trip arithmetic.
-/
import proofs.«410108_j44813688766883_3_alg».proof.Proof.Gen.Kernel.Skeleton
import Idealize.ShloMosaic.Lib.Pipeline.FrameBody

noncomputable section

namespace Cert.Kernel.Hand

open Cert.Kernel Cert.Kernel.Gen
open Idealize.ShloMosaic Idealize.ShloMosaic.TcCoe

variable {F : FTy → Type} [FloatOps F]

/-- The bias column, whole. -/
abbrev rBias : Rect S32x1 := Rect.unit (s := S32x1) ![0, 0] S32x1.size inb_S32x1_S32x1_0_0
/-- The first words of the step's rows: row 0 of the packed block. -/
abbrev rRow0 : Rect S2x8192 := Rect.unit (s := S2x8192) ![0, 0] S1x8192.size inb_S2x8192_S1x8192_0_0
/-- The second words: row 1. -/
abbrev rRow1 : Rect S2x8192 := Rect.unit (s := S2x8192) ![1, 0] S1x8192.size inb_S2x8192_S1x8192_1_0
/-- Table `k` of the first stack. -/
abbrev rTab1 (k : Fin k0_t1_loop.trips) : Rect S4x32x256 := Rect.unit (s := S4x32x256) (k0_off1 k) S1x32x256.size (k0_off1_inb k)
/-- Table `k` of the second stack. -/
abbrev rTab2 (k : Fin k0_t2_loop.trips) : Rect S4x32x256 := Rect.unit (s := S4x32x256) (k0_off2 k) S1x32x256.size (k0_off2_inb k)
/-- The output block, whole. -/
abbrev rOut : Rect S8192x64 := Rect.unit (s := S8192x64) ![0, 0] S8192x64.size inb_S8192x64_S8192x64_0_0

/-- The first word's accumulator before trip `k`: zero, then one table's contribution per trip. -/
def acc1 (v : Vec F S1x8192 .i32) (x1 : Vec F S4x32x256 .bf16) : ℕ → FVec F S32x8192 .f32
  | 0 => k0_pay1
  | k + 1 => if h : k < k0_t1_loop.trips then k0_pay2 v ⟨k, h⟩ (acc1 v x1 k) (View.ld x1 (rTab1 ⟨k, h⟩)) else acc1 v x1 k

/-- The second word's accumulator before trip `k`. -/
def acc2 (v : Vec F S1x8192 .i32) (x2 : Vec F S4x32x256 .bf16) : ℕ → FVec F S32x8192 .f32
  | 0 => k0_pay3
  | k + 1 => if h : k < k0_t2_loop.trips then k0_pay4 v ⟨k, h⟩ (acc2 v x2 k) (View.ld x2 (rTab2 ⟨k, h⟩)) else acc2 v x2 k

/-- Both loops make four trips. -/
theorem trips1 : k0_t1_loop.trips = 4 := by decide
theorem trips2 : k0_t2_loop.trips = 4 := by decide

/-- The output block after the step: one whole-block store of the transposed, stacked, encoded accumulators. -/
def out4 (x0 : Vec F S2x8192 .i32) (x1 x2 : Vec F S4x32x256 .bf16) (x3 : Vec F S32x1 .f32) : Vec F S8192x64 .f32 :=
  View.canon [⟨rOut, k0_pay5 (View.ld x3 rBias) (acc1 (View.ld x0 rRow0) x1 k0_t1_loop.trips) (acc2 (View.ld x0 rRow1) x2 k0_t2_loop.trips)⟩]

/-- The store covers the block. -/
theorem cover4 (p : Vec F S8192x64 .f32) (y : S8192x64.Idx) :
    ∃ pc ∈ ([⟨rOut, p⟩] : List (View.Piece (Elt F) S8192x64 .f32)), y ∈ pc.1.set :=
  View.cover_of_tiled [⟨rOut, p⟩] S8192x64.size (by rfl) y

end Cert.Kernel.Hand

end
-- ==== Proof.FrameB.lean ====
/-
  The program's frame: it runs to the end without a fault and leaves its five argument arrays as it found them — and, on
  the way, what its one result array holds afterwards.

  The program is seventy host operations that prepare four arrays (the packed words, two stacks of pre-projected byte
  tables, the bias as a column), one pipelined call over a grid of 32 steps, and one reshape of the call's result.  A
  step is handed block `t` of the packed words (columns 8192 t … 8192 t + 8191), the two stacks and the bias whole, and
  writes rows 8192 t … 8192 t + 8191 of the result.  The step's body runs two counted loops of four trips each; a trip
  reads one table and adds to a carried accumulator, so the accumulator before trip `k` is the plain recursion of
  the block-value module, and the body's single store writes the whole output block.

  Stated for any float instance, so that the same text serves the bit-level and the idealized reading.
-/
import proofs.«410108_j44813688766883_3_alg».proof.Proof.BlockDefB
import proofs.«410108_j44813688766883_3_alg».proof.Proof.Gen.Kernel.Launch
import proofs.«410108_j44813688766883_3_alg».proof.Proof.Gen.Kernel.Skeleton
import proofs.«410108_j44813688766883_3_alg».proof.Proof.Gen.Kernel.Points
import proofs.«410108_j44813688766883_3_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the call -/

/-- Core `c`'s buffers when the call is entered: the seventy host operations applied to the launch memory. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host prefix, the call, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the call touches only the call's result array and its own result. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the five arrays the call stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the call writes argument `b`: the call finds it as launched. -/
theorem V_arg_of (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using hb))

set_option maxHeartbeats 4000000 in
theorem hostOps0_keeps_arg0 : (hostOps0 : List (HloOp τ sig (Elt F))).Forall fun op => Proc.devRef .tc main_arg0 ∉ op.writes := by
  simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals exact StableHlo.devRef_ne_of_ne (by decide)
set_option maxHeartbeats 4000000 in
theorem hostOps0_keeps_arg1 : (hostOps0 : List (HloOp τ sig (Elt F))).Forall fun op => Proc.devRef .tc main_arg1 ∉ op.writes := by
  simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals exact StableHlo.devRef_ne_of_ne (by decide)
set_option maxHeartbeats 4000000 in
theorem hostOps0_keeps_arg2 : (hostOps0 : List (HloOp τ sig (Elt F))).Forall fun op => Proc.devRef .tc main_arg2 ∉ op.writes := by
  simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals exact StableHlo.devRef_ne_of_ne (by decide)
set_option maxHeartbeats 4000000 in
theorem hostOps0_keeps_arg3 : (hostOps0 : List (HloOp τ sig (Elt F))).Forall fun op => Proc.devRef .tc main_arg3 ∉ op.writes := by
  simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals exact StableHlo.devRef_ne_of_ne (by decide)
set_option maxHeartbeats 4000000 in
theorem hostOps0_keeps_arg4 : (hostOps0 : List (HloOp τ sig (Elt F))).Forall fun op => Proc.devRef .tc main_arg4 ∉ op.writes := by
  simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals exact StableHlo.devRef_ne_of_ne (by decide)

/-- The reshape after the call writes no argument either, and no argument is one of the call's arrays: argument `b`
    ends as launched. -/
theorem W_arg_of (dats : (p : Fin _) → (c : Dev nD) → Dat τ (Elt F) Unit ℕ (UR sig nD τ) ℕ (cfgs p) c) (c : Dev nD) (b : Ref sig .tc)
    (hb : (hostOps0 : List (HloOp τ sig (Elt F))).Forall fun op => Proc.devRef .tc b ∉ op.writes)
    (hb1 : Proc.devRef (τ := τ) .tc b ≠ Proc.devRef .tc main_v71) (hbw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact hb1)),
    Pipeline.withArrays_of_ne _ c (V0 m c) _ b hbw]
  exact V_arg_of m c b hb

/-! ## The windows' blocks -/

/-- Window `w`'s block at step `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every step, fetched there or not (a block whose index
    does not move between two steps is not fetched again and is still there). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run whose final state has every other buffer as the reshape after the call leaves it: the five arguments end
    as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_arg_of m dats c main_arg0 hostOps0_keeps_arg0 (StableHlo.devRef_ne_of_ne (by decide)) (by decide)),
     ((h c).2 main_arg1 (Pipeline.mem_restRefs_of main_arg1 (by decide) (by decide))).trans (W_arg_of m dats c main_arg1 hostOps0_keeps_arg1 (StableHlo.devRef_ne_of_ne (by decide)) (by decide)),
     ((h c).2 main_arg2 (Pipeline.mem_restRefs_of main_arg2 (by decide) (by decide))).trans (W_arg_of m dats c main_arg2 hostOps0_keeps_arg2 (StableHlo.devRef_ne_of_ne (by decide)) (by decide)),
     ((h c).2 main_arg3 (Pipeline.mem_restRefs_of main_arg3 (by decide) (by decide))).trans (W_arg_of m dats c main_arg3 hostOps0_keeps_arg3 (StableHlo.devRef_ne_of_ne (by decide)) (by decide)),
     ((h c).2 main_arg4 (Pipeline.mem_restRefs_of main_arg4 (by decide) (by decide))).trans (W_arg_of m dats c main_arg4 hostOps0_keeps_arg4 (StableHlo.devRef_ne_of_ne (by decide)) (by decide))⟩) h

/-! ## The loops' accumulators -/

unseal trip_k0_t1 in
/-- One trip of the first loop yields the trip's arithmetic on the carried value and the table it loads. -/
theorem tripR1_eq (𝒱 : Variants) (c : Dev nD) (bd : Option 𝒱.V) (i : grid0.Coords) (arg1 : Memref sig .tc .vmem S2x8192 .i32) (harg1 : arg1.IsWhole) (arg2 : Memref sig .tc .vmem S4x32x256 .bf16) (harg2 : arg2.IsWhole) (arg3 : Memref sig .tc .vmem S4x32x256 .bf16) (harg3 : arg3.IsWhole) (arg4 : Memref sig .tc .vmem S32x1 .f32) (harg4 : arg4.IsWhole) (arg5 : Memref sig .tc .vmem S8192x64 .f32) (harg5 : arg5.IsWhole) (v : Vec F S1x8192 .i32) (X : BufTy.Contents (Elt F) arg2.view.ty) (k : Fin k0_t1_loop.trips) (acc : FVec F S32x8192 .f32) :
    tripR_k0_t1 (F := F) 𝒱 c bd i arg1 harg1 arg2 harg2 arg3 harg3 arg4 harg4 arg5 harg5 v X k acc
      = k0_pay2 v k acc (View.ld (arg2.view.read (Elt F) X) (rTab1 k)) := rfl

unseal trip_k0_t2 in
theorem tripR2_eq (𝒱 : Variants) (c : Dev nD) (bd : Option 𝒱.V) (i : grid0.Coords) (arg1 : Memref sig .tc .vmem S2x8192 .i32) (harg1 : arg1.IsWhole) (arg2 : Memref sig .tc .vmem S4x32x256 .bf16) (harg2 : arg2.IsWhole) (arg3 : Memref sig .tc .vmem S4x32x256 .bf16) (harg3 : arg3.IsWhole) (arg4 : Memref sig .tc .vmem S32x1 .f32) (harg4 : arg4.IsWhole) (arg5 : Memref sig .tc .vmem S8192x64 .f32) (harg5 : arg5.IsWhole) (v : Vec F S1x8192 .i32) (X : BufTy.Contents (Elt F) arg3.view.ty) (k : Fin k0_t2_loop.trips) (acc : FVec F S32x8192 .f32) :
    tripR_k0_t2 (F := F) 𝒱 c bd i arg1 harg1 arg2 harg2 arg3 harg3 arg4 harg4 arg5 harg5 v X k acc
      = k0_pay4 v k acc (View.ld (arg3.view.read (Elt F) X) (rTab2 k)) := rfl

/-- The first loop's carried value before trip `k` is the accumulator's recursion. -/
theorem st1_eq (𝒱 : Variants) (c : Dev nD) (bd : Option 𝒱.V) (i : grid0.Coords) (arg1 : Memref sig .tc .vmem S2x8192 .i32) (harg1 : arg1.IsWhole) (arg2 : Memref sig .tc .vmem S4x32x256 .bf16) (harg2 : arg2.IsWhole) (arg3 : Memref sig .tc .vmem S4x32x256 .bf16) (harg3 : arg3.IsWhole) (arg4 : Memref sig .tc .vmem S32x1 .f32) (harg4 : arg4.IsWhole) (arg5 : Memref sig .tc .vmem S8192x64 .f32) (harg5 : arg5.IsWhole) (v : Vec F S1x8192 .i32) (X : BufTy.Contents (Elt F) arg2.view.ty) :
    ∀ k : ℕ, st_k0_t1 (F := F) 𝒱 c bd i arg1 harg1 arg2 harg2 arg3 harg3 arg4 harg4 arg5 harg5 v X k0_pay1 k = acc1 v (arg2.view.read (Elt F) X) k
  | 0 => rfl
  | k + 1 => by
    have ih := st1_eq 𝒱 c bd i arg1 harg1 arg2 harg2 arg3 harg3 arg4 harg4 arg5 harg5 v X k
    rw [st_k0_t1.eq_2, acc1.eq_2]; unfold st_k0_t1Step
    by_cases h : k < k0_t1_loop.trips
    · rw [dif_pos h, dif_pos h, tripR1_eq, ih]
    · rw [dif_neg h, dif_neg h, ih]

theorem st2_eq (𝒱 : Variants) (c : Dev nD) (bd : Option 𝒱.V) (i : grid0.Coords) (arg1 : Memref sig .tc .vmem S2x8192 .i32) (harg1 : arg1.IsWhole) (arg2 : Memref sig .tc .vmem S4x32x256 .bf16) (harg2 : arg2.IsWhole) (arg3 : Memref sig .tc .vmem S4x32x256 .bf16) (harg3 : arg3.IsWhole) (arg4 : Memref sig .tc .vmem S32x1 .f32) (harg4 : arg4.IsWhole) (arg5 : Memref sig .tc .vmem S8192x64 .f32) (harg5 : arg5.IsWhole) (v : Vec F S1x8192 .i32) (X : BufTy.Contents (Elt F) arg3.view.ty) :
    ∀ k : ℕ, st_k0_t2 (F := F) 𝒱 c bd i arg1 harg1 arg2 harg2 arg3 harg3 arg4 harg4 arg5 harg5 v X k0_pay3 k = acc2 v (arg3.view.read (Elt F) X) k
  | 0 => rfl
  | k + 1 => by
    have ih := st2_eq 𝒱 c bd i arg1 harg1 arg2 harg2 arg3 harg3 arg4 harg4 arg5 harg5 v X k
    rw [st_k0_t2.eq_2, acc2.eq_2]; unfold st_k0_t2Step
    by_cases h : k < k0_t2_loop.trips
    · rw [dif_pos h, dif_pos h, tripR2_eq, ih]
    · rw [dif_neg h, dif_neg h, ih]

/-! ## The body's triple -/

set_option maxHeartbeats 4000000 in
/-- The body on whole staging buffers, the four inputs' at read contents and the output's at anything, runs to the
    continuation holding the inputs' as they were and the output's at the block value of the inputs'. -/
theorem sound_kernel (c : Dev nD) (E : Set ℕ) (i : grid0.Coords) (arg1 : Memref sig .tc .vmem S2x8192 .i32) (harg1 : arg1.IsWhole) (arg2 : Memref sig .tc .vmem S4x32x256 .bf16) (harg2 : arg2.IsWhole) (arg3 : Memref sig .tc .vmem S4x32x256 .bf16) (harg3 : arg3.IsWhole) (arg4 : Memref sig .tc .vmem S32x1 .f32) (harg4 : arg4.IsWhole) (arg5 : Memref sig .tc .vmem S8192x64 .f32) (harg5 : arg5.IsWhole)
    (x0 : Vec F S2x8192 .i32) (x1 x2 : Vec F S4x32x256 .bf16) (x3 : Vec F S32x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3)) -∗ K ⟨⟩))
      ⊢ wp frame (wpE (defs₀ (F := F)) Variants.none c none) E (cc0__embed_kernel i arg1 harg1 arg2 harg2 arg3 harg3 arg4 harg4 arg5 harg5) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [st1_eq, st2_eq]
  exact View.read_writes_eq_canon _ _ _ (cover4 _)

/-! ## The call's proof data -/

/-- On core `c`: the arrays as the call finds them; after the body at step `t` each input's buffer at its block and the
    output's at the block value of the four input blocks; nothing else touched, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic step -/

/-- What the body is called with at step `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
/-- The body at any step: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every step. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each of the call's arrays at what
    the library computes from the proof data and every other buffer as the reshape after the call leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Hand

end
-- ==== Proof.BlockDefI.lean ====
/-
  What one grid step leaves in its output block, as a pure function of the four input blocks it is handed.

  A step is handed 8192 rows' packed words (two lanes-rows of 8192 words: the first words, the second words), the two
  stacks of four pre-projected byte tables (each table 32 × 256: output feature by byte value), and the bias as a
  column.  For each of the two words it runs four trips, one per byte: trip `k` adds, to an accumulator that starts
  at zero, the product of table `k` with the 256 × 8192 zero-one matrix that marks each row's byte `k`.  The two
  accumulators plus the bias go through the logistic function, are stacked to 64 × 8192 and transposed to the block.

  The trips' accumulators are written here as plain recursions on the trip number over the per-trip arithmetic.
-/
import proofs.«410108_j44813688766883_3_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe

variable {F : FTy → Type} [FloatOps F]

/-- The bias column, whole. -/
abbrev rBias : Rect S32x1 := Rect.unit (s := S32x1) ![0, 0] S32x1.size inb_S32x1_S32x1_0_0
/-- The first words of the step's rows: row 0 of the packed block. -/
abbrev rRow0 : Rect S2x8192 := Rect.unit (s := S2x8192) ![0, 0] S1x8192.size inb_S2x8192_S1x8192_0_0
/-- The second words: row 1. -/
abbrev rRow1 : Rect S2x8192 := Rect.unit (s := S2x8192) ![1, 0] S1x8192.size inb_S2x8192_S1x8192_1_0
/-- Table `k` of the first stack. -/
abbrev rTab1 (k : Fin k0_t1_loop.trips) : Rect S4x32x256 := Rect.unit (s := S4x32x256) (k0_off1 k) S1x32x256.size (k0_off1_inb k)
/-- Table `k` of the second stack. -/
abbrev rTab2 (k : Fin k0_t2_loop.trips) : Rect S4x32x256 := Rect.unit (s := S4x32x256) (k0_off2 k) S1x32x256.size (k0_off2_inb k)
/-- The output block, whole. -/
abbrev rOut : Rect S8192x64 := Rect.unit (s := S8192x64) ![0, 0] S8192x64.size inb_S8192x64_S8192x64_0_0

/-- The first word's accumulator before trip `k`: zero, then one table's contribution per trip. -/
def acc1 (v : Vec F S1x8192 .i32) (x1 : Vec F S4x32x256 .bf16) : ℕ → FVec F S32x8192 .f32
  | 0 => k0_pay1
  | k + 1 => if h : k < k0_t1_loop.trips then k0_pay2 v ⟨k, h⟩ (acc1 v x1 k) (View.ld x1 (rTab1 ⟨k, h⟩)) else acc1 v x1 k

/-- The second word's accumulator before trip `k`. -/
def acc2 (v : Vec F S1x8192 .i32) (x2 : Vec F S4x32x256 .bf16) : ℕ → FVec F S32x8192 .f32
  | 0 => k0_pay3
  | k + 1 => if h : k < k0_t2_loop.trips then k0_pay4 v ⟨k, h⟩ (acc2 v x2 k) (View.ld x2 (rTab2 ⟨k, h⟩)) else acc2 v x2 k

/-- Both loops make four trips. -/
theorem trips1 : k0_t1_loop.trips = 4 := by decide
theorem trips2 : k0_t2_loop.trips = 4 := by decide

/-- The output block after the step: one whole-block store of the transposed, stacked, encoded accumulators. -/
def out4 (x0 : Vec F S2x8192 .i32) (x1 x2 : Vec F S4x32x256 .bf16) (x3 : Vec F S32x1 .f32) : Vec F S8192x64 .f32 :=
  View.canon [⟨rOut, k0_pay5 (View.ld x3 rBias) (acc1 (View.ld x0 rRow0) x1 k0_t1_loop.trips) (acc2 (View.ld x0 rRow1) x2 k0_t2_loop.trips)⟩]

/-- The store covers the block. -/
theorem cover4 (p : Vec F S8192x64 .f32) (y : S8192x64.Idx) :
    ∃ pc ∈ ([⟨rOut, p⟩] : List (View.Piece (Elt F) S8192x64 .f32)), y ∈ pc.1.set :=
  View.cover_of_tiled [⟨rOut, p⟩] S8192x64.size (by rfl) y

end Cert.KernelIdeal.Hand

end
-- ==== Proof.FrameI.lean ====
/-
  The program's frame: it runs to the end without a fault and leaves its five argument arrays as it found them — and, on
  the way, what its one result array holds afterwards.

  The program is seventy host operations that prepare four arrays (the packed words, two stacks of pre-projected byte
  tables, the bias as a column), one pipelined call over a grid of 32 steps, and one reshape of the call's result.  A
  step is handed block `t` of the packed words (columns 8192 t … 8192 t + 8191), the two stacks and the bias whole, and
  writes rows 8192 t … 8192 t + 8191 of the result.  The step's body runs two counted loops of four trips each; a trip
  reads one table and adds to a carried accumulator, so the accumulator before trip `k` is the plain recursion of
  the block-value module, and the body's single store writes the whole output block.

  Stated for any float instance, so that the same text serves the bit-level and the idealized reading.
-/
import proofs.«410108_j44813688766883_3_alg».proof.Proof.BlockDefI
import proofs.«410108_j44813688766883_3_alg».proof.Proof.Gen.KernelIdeal.Launch
import proofs.«410108_j44813688766883_3_alg».proof.Proof.Gen.KernelIdeal.Skeleton
import proofs.«410108_j44813688766883_3_alg».proof.Proof.Gen.KernelIdeal.Points
import proofs.«410108_j44813688766883_3_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the call -/

/-- Core `c`'s buffers when the call is entered: the seventy host operations applied to the launch memory. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host prefix, the call, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the call touches only the call's result array and its own result. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the five arrays the call stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the call writes argument `b`: the call finds it as launched. -/
theorem V_arg_of (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using hb))

set_option maxHeartbeats 4000000 in
theorem hostOps0_keeps_arg0 : (hostOps0 : List (HloOp τ sig (Elt F))).Forall fun op => Proc.devRef .tc main_arg0 ∉ op.writes := by
  simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals exact StableHlo.devRef_ne_of_ne (by decide)
set_option maxHeartbeats 4000000 in
theorem hostOps0_keeps_arg1 : (hostOps0 : List (HloOp τ sig (Elt F))).Forall fun op => Proc.devRef .tc main_arg1 ∉ op.writes := by
  simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals exact StableHlo.devRef_ne_of_ne (by decide)
set_option maxHeartbeats 4000000 in
theorem hostOps0_keeps_arg2 : (hostOps0 : List (HloOp τ sig (Elt F))).Forall fun op => Proc.devRef .tc main_arg2 ∉ op.writes := by
  simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals exact StableHlo.devRef_ne_of_ne (by decide)
set_option maxHeartbeats 4000000 in
theorem hostOps0_keeps_arg3 : (hostOps0 : List (HloOp τ sig (Elt F))).Forall fun op => Proc.devRef .tc main_arg3 ∉ op.writes := by
  simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals exact StableHlo.devRef_ne_of_ne (by decide)
set_option maxHeartbeats 4000000 in
theorem hostOps0_keeps_arg4 : (hostOps0 : List (HloOp τ sig (Elt F))).Forall fun op => Proc.devRef .tc main_arg4 ∉ op.writes := by
  simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals exact StableHlo.devRef_ne_of_ne (by decide)

/-- The reshape after the call writes no argument either, and no argument is one of the call's arrays: argument `b`
    ends as launched. -/
theorem W_arg_of (dats : (p : Fin _) → (c : Dev nD) → Dat τ (Elt F) Unit ℕ (UR sig nD τ) ℕ (cfgs p) c) (c : Dev nD) (b : Ref sig .tc)
    (hb : (hostOps0 : List (HloOp τ sig (Elt F))).Forall fun op => Proc.devRef .tc b ∉ op.writes)
    (hb1 : Proc.devRef (τ := τ) .tc b ≠ Proc.devRef .tc main_v71) (hbw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact hb1)),
    Pipeline.withArrays_of_ne _ c (V0 m c) _ b hbw]
  exact V_arg_of m c b hb

/-! ## The windows' blocks -/

/-- Window `w`'s block at step `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every step, fetched there or not (a block whose index
    does not move between two steps is not fetched again and is still there). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run whose final state has every other buffer as the reshape after the call leaves it: the five arguments end
    as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_arg_of m dats c main_arg0 hostOps0_keeps_arg0 (StableHlo.devRef_ne_of_ne (by decide)) (by decide)),
     ((h c).2 main_arg1 (Pipeline.mem_restRefs_of main_arg1 (by decide) (by decide))).trans (W_arg_of m dats c main_arg1 hostOps0_keeps_arg1 (StableHlo.devRef_ne_of_ne (by decide)) (by decide)),
     ((h c).2 main_arg2 (Pipeline.mem_restRefs_of main_arg2 (by decide) (by decide))).trans (W_arg_of m dats c main_arg2 hostOps0_keeps_arg2 (StableHlo.devRef_ne_of_ne (by decide)) (by decide)),
     ((h c).2 main_arg3 (Pipeline.mem_restRefs_of main_arg3 (by decide) (by decide))).trans (W_arg_of m dats c main_arg3 hostOps0_keeps_arg3 (StableHlo.devRef_ne_of_ne (by decide)) (by decide)),
     ((h c).2 main_arg4 (Pipeline.mem_restRefs_of main_arg4 (by decide) (by decide))).trans (W_arg_of m dats c main_arg4 hostOps0_keeps_arg4 (StableHlo.devRef_ne_of_ne (by decide)) (by decide))⟩) h

/-! ## The loops' accumulators -/

unseal trip_k0_t1 in
/-- One trip of the first loop yields the trip's arithmetic on the carried value and the table it loads. -/
theorem tripR1_eq (𝒱 : Variants) (c : Dev nD) (bd : Option 𝒱.V) (i : grid0.Coords) (arg1 : Memref sig .tc .vmem S2x8192 .i32) (harg1 : arg1.IsWhole) (arg2 : Memref sig .tc .vmem S4x32x256 .bf16) (harg2 : arg2.IsWhole) (arg3 : Memref sig .tc .vmem S4x32x256 .bf16) (harg3 : arg3.IsWhole) (arg4 : Memref sig .tc .vmem S32x1 .f32) (harg4 : arg4.IsWhole) (arg5 : Memref sig .tc .vmem S8192x64 .f32) (harg5 : arg5.IsWhole) (v : Vec F S1x8192 .i32) (X : BufTy.Contents (Elt F) arg2.view.ty) (k : Fin k0_t1_loop.trips) (acc : FVec F S32x8192 .f32) :
    tripR_k0_t1 (F := F) 𝒱 c bd i arg1 harg1 arg2 harg2 arg3 harg3 arg4 harg4 arg5 harg5 v X k acc
      = k0_pay2 v k acc (View.ld (arg2.view.read (Elt F) X) (rTab1 k)) := rfl

unseal trip_k0_t2 in
theorem tripR2_eq (𝒱 : Variants) (c : Dev nD) (bd : Option 𝒱.V) (i : grid0.Coords) (arg1 : Memref sig .tc .vmem S2x8192 .i32) (harg1 : arg1.IsWhole) (arg2 : Memref sig .tc .vmem S4x32x256 .bf16) (harg2 : arg2.IsWhole) (arg3 : Memref sig .tc .vmem S4x32x256 .bf16) (harg3 : arg3.IsWhole) (arg4 : Memref sig .tc .vmem S32x1 .f32) (harg4 : arg4.IsWhole) (arg5 : Memref sig .tc .vmem S8192x64 .f32) (harg5 : arg5.IsWhole) (v : Vec F S1x8192 .i32) (X : BufTy.Contents (Elt F) arg3.view.ty) (k : Fin k0_t2_loop.trips) (acc : FVec F S32x8192 .f32) :
    tripR_k0_t2 (F := F) 𝒱 c bd i arg1 harg1 arg2 harg2 arg3 harg3 arg4 harg4 arg5 harg5 v X k acc
      = k0_pay4 v k acc (View.ld (arg3.view.read (Elt F) X) (rTab2 k)) := rfl

/-- The first loop's carried value before trip `k` is the accumulator's recursion. -/
theorem st1_eq (𝒱 : Variants) (c : Dev nD) (bd : Option 𝒱.V) (i : grid0.Coords) (arg1 : Memref sig .tc .vmem S2x8192 .i32) (harg1 : arg1.IsWhole) (arg2 : Memref sig .tc .vmem S4x32x256 .bf16) (harg2 : arg2.IsWhole) (arg3 : Memref sig .tc .vmem S4x32x256 .bf16) (harg3 : arg3.IsWhole) (arg4 : Memref sig .tc .vmem S32x1 .f32) (harg4 : arg4.IsWhole) (arg5 : Memref sig .tc .vmem S8192x64 .f32) (harg5 : arg5.IsWhole) (v : Vec F S1x8192 .i32) (X : BufTy.Contents (Elt F) arg2.view.ty) :
    ∀ k : ℕ, st_k0_t1 (F := F) 𝒱 c bd i arg1 harg1 arg2 harg2 arg3 harg3 arg4 harg4 arg5 harg5 v X k0_pay1 k = acc1 v (arg2.view.read (Elt F) X) k
  | 0 => rfl
  | k + 1 => by
    have ih := st1_eq 𝒱 c bd i arg1 harg1 arg2 harg2 arg3 harg3 arg4 harg4 arg5 harg5 v X k
    rw [st_k0_t1.eq_2, acc1.eq_2]; unfold st_k0_t1Step
    by_cases h : k < k0_t1_loop.trips
    · rw [dif_pos h, dif_pos h, tripR1_eq, ih]
    · rw [dif_neg h, dif_neg h, ih]

theorem st2_eq (𝒱 : Variants) (c : Dev nD) (bd : Option 𝒱.V) (i : grid0.Coords) (arg1 : Memref sig .tc .vmem S2x8192 .i32) (harg1 : arg1.IsWhole) (arg2 : Memref sig .tc .vmem S4x32x256 .bf16) (harg2 : arg2.IsWhole) (arg3 : Memref sig .tc .vmem S4x32x256 .bf16) (harg3 : arg3.IsWhole) (arg4 : Memref sig .tc .vmem S32x1 .f32) (harg4 : arg4.IsWhole) (arg5 : Memref sig .tc .vmem S8192x64 .f32) (harg5 : arg5.IsWhole) (v : Vec F S1x8192 .i32) (X : BufTy.Contents (Elt F) arg3.view.ty) :
    ∀ k : ℕ, st_k0_t2 (F := F) 𝒱 c bd i arg1 harg1 arg2 harg2 arg3 harg3 arg4 harg4 arg5 harg5 v X k0_pay3 k = acc2 v (arg3.view.read (Elt F) X) k
  | 0 => rfl
  | k + 1 => by
    have ih := st2_eq 𝒱 c bd i arg1 harg1 arg2 harg2 arg3 harg3 arg4 harg4 arg5 harg5 v X k
    rw [st_k0_t2.eq_2, acc2.eq_2]; unfold st_k0_t2Step
    by_cases h : k < k0_t2_loop.trips
    · rw [dif_pos h, dif_pos h, tripR2_eq, ih]
    · rw [dif_neg h, dif_neg h, ih]

/-! ## The body's triple -/

set_option maxHeartbeats 4000000 in
/-- The body on whole staging buffers, the four inputs' at read contents and the output's at anything, runs to the
    continuation holding the inputs' as they were and the output's at the block value of the inputs'. -/
theorem sound_kernel (c : Dev nD) (E : Set ℕ) (i : grid0.Coords) (arg1 : Memref sig .tc .vmem S2x8192 .i32) (harg1 : arg1.IsWhole) (arg2 : Memref sig .tc .vmem S4x32x256 .bf16) (harg2 : arg2.IsWhole) (arg3 : Memref sig .tc .vmem S4x32x256 .bf16) (harg3 : arg3.IsWhole) (arg4 : Memref sig .tc .vmem S32x1 .f32) (harg4 : arg4.IsWhole) (arg5 : Memref sig .tc .vmem S8192x64 .f32) (harg5 : arg5.IsWhole)
    (x0 : Vec F S2x8192 .i32) (x1 x2 : Vec F S4x32x256 .bf16) (x3 : Vec F S32x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3)) -∗ K ⟨⟩))
      ⊢ wp frame (wpE (defs₀ (F := F)) Variants.none c none) E (cc0__embed_kernel i arg1 harg1 arg2 harg2 arg3 harg3 arg4 harg4 arg5 harg5) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [st1_eq, st2_eq]
  exact View.read_writes_eq_canon _ _ _ (cover4 _)

/-! ## The call's proof data -/

/-- On core `c`: the arrays as the call finds them; after the body at step `t` each input's buffer at its block and the
    output's at the block value of the four input blocks; nothing else touched, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic step -/

/-- What the body is called with at step `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
/-- The body at any step: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every step. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each of the call's arrays at what
    the library computes from the proof data and every other buffer as the reshape after the call leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Hand

end
-- ==== Proof.Spec.lean ====
/-
  The mathematics both programs compute, as one function of the five argument arrays.

  A row of the input is a pair of 32-bit words (a program counter and an address).  Each word is cut into its four
  bytes, most significant first; byte `j` selects row `byte` of table `j` (a 256 × 32 table of reals), and the four
  selected rows, laid side by side, are a vector of 128 reals.  That vector goes through one linear layer (a 32 × 128
  matrix and a bias) and the logistic function.  The result for a row is the 32 encoded reals of its first word
  followed by the 32 of its second.

  Nothing here mentions a program: the module states the function index by index over the extended reals, and the
  few facts about it that both sides use.
-/
import Idealize.ShloMosaic.PureOps.Ideal
import Idealize.ShloMosaic.Lib.ValueIdx

noncomputable section

open scoped BigOperators

namespace Cert.Embed

open Idealize.ShloMosaic Idealize.ShloMosaic.ValueIdx

/-- The input rows: 128 × 2048 pairs of words. -/
abbrev SX : Shape := ⟨3, ![128, 2048, 2]⟩
/-- A stack of four byte tables, each 256 rows of 32 reals. -/
abbrev STab : Shape := ⟨3, ![4, 256, 32]⟩
/-- The linear layer's matrix: 32 outputs by 128 inputs. -/
abbrev SW : Shape := ⟨2, ![32, 128]⟩
/-- The bias. -/
abbrev SB : Shape := ⟨1, ![32]⟩
/-- The result: per row, 64 reals. -/
abbrev SOut : Shape := ⟨3, ![128, 2048, 64]⟩

/-- The right shift that brings byte `j` (counted from the most significant) down to the low eight bits. -/
def shiftOf (j : Fin 4) : BitVec 32 := BitVec.ofNat 32 (24 - 8 * j.val)

/-- Byte `j` of a word, still as a word: arithmetic shift, then the low eight bits. -/
def byteWord (v : BitVec 32) (j : Fin 4) : BitVec 32 := (v.sshiftRight' (shiftOf j)) &&& 255#32

/-- A word masked to eight bits is below 256. -/
theorem byteWord_lt (v : BitVec 32) (j : Fin 4) : (byteWord v j).toNat < 256 := by
  unfold byteWord
  rw [BitVec.toNat_and]
  exact Nat.lt_of_le_of_lt Nat.and_le_right (by decide)

/-- Byte `j` of a word as a row number of a 256-row table. -/
def byteOf (v : BitVec 32) (j : Fin 4) : Fin 256 := ⟨(byteWord v j).toNat, byteWord_lt v j⟩

/-- Column `32 j + d` of the layer's 128 inputs: feature `d` of the row selected from table `j`. -/
def col (j : Fin 4) (d : Fin 32) : Fin 128 := ⟨32 * j.val + d.val, by have := j.isLt; have := d.isLt; omega⟩

/-- The linear layer before the bias, for one word and one output feature: over the four bytes and the 32 features of
    each selected row, the feature times its weight. -/
def pre (tab : FVec Ideal STab .f32) (W : FVec Ideal SW .f32) (v : BitVec 32) (e : Fin 32) : EReal :=
  ∑ j : Fin 4, ∑ d : Fin 32, tab (ix3 j (byteOf v j) d) * W (ix2 e (col j d))

/-- One encoded real: the logistic function of the layer's output. -/
def enc (tab : FVec Ideal STab .f32) (W : FVec Ideal SW .f32) (b : FVec Ideal SB .f32) (v : BitVec 32) (e : Fin 32) : EReal :=
  Ideal.logistic (pre tab W v e + b (ix1 e))

/-- The result at explicit coordinates: columns 0–31 encode the row's first word through the first stack of tables,
    columns 32–63 its second word through the second stack. -/
def Gat (x : IVec SX 32) (pc ad : FVec Ideal STab .f32) (W : FVec Ideal SW .f32) (b : FVec Ideal SB .f32)
    (r : Fin 128) (s : Fin 2048) (c : Fin 64) : EReal :=
  if h : c.val < 32 then enc pc W b (x (ix3 r s (0 : Fin 2))) ⟨c.val, h⟩
  else enc ad W b (x (ix3 r s (1 : Fin 2))) ⟨c.val - 32, by have := c.isLt; omega⟩

/-- The result array. -/
def G (x : IVec SX 32) (pc ad : FVec Ideal STab .f32) (W : FVec Ideal SW .f32) (b : FVec Ideal SB .f32) :
    FVec Ideal SOut .f32 :=
  fun i => Gat x pc ad W b (i 0) (i 1) (i 2)

theorem G_apply (x : IVec SX 32) (pc ad : FVec Ideal STab .f32) (W : FVec Ideal SW .f32) (b : FVec Ideal SB .f32)
    (r : Fin 128) (s : Fin 2048) (c : Fin 64) : G x pc ad W b (ix3 r s c) = Gat x pc ad W b r s c := rfl

end Cert.Embed

end
-- ==== Proof.HostFold.lean ====
import proofs.«410108_j44813688766883_3_alg».proof.Proof.Gen.KernelIdeal.Launch
import proofs.«410108_j44813688766883_3_alg».proof.Proof.Spec
import Idealize.ShloMosaic.Lib.ValueIdx
import Idealize.ShloMosaic.Lib.Pipeline.Value
import Idealize.ShloMosaic.PureOps.Ideal.Laws
import Idealize.ShloMosaic.Lib.StackMember

/-!
  The host's table folding, as mathematics over an arbitrary stack of four 256 × 32 byte tables and an arbitrary
  32 × 128 matrix: table `j` times the transpose of the matrix's columns `32 j … 32 j + 31`, transposed, the four
  results stacked. Read at an entry `(j, e, r)` the stack is `∑ d, tab (j, r, d) * W (e, 32 j + d)`.
-/

set_option maxRecDepth 8192

noncomputable section

open scoped BigOperators

namespace Cert.KernelIdeal.Hand

open Cert.KernelIdeal Cert.KernelIdeal.Gen Idealize.ShloMosaic Idealize.ShloMosaic.TcCoe Idealize.ShloMosaic.ValueIdx Idealize.SL.Sem

/-! ## One pre-projected table -/

/-- One pre-projected table under a leading unit axis: a 256 × 32 byte table (one slab of the stack `tab`) times the
    transpose of a 32 × 32 block of columns of the layer's matrix `W`, the product transposed to 32 × 256. -/
def foldPiece (tab : FVec Ideal S4x256x32 .f32) (W : FVec Ideal S32x128 .f32)
    (offT : Fin 3 → Nat) (hT : S4x256x32.Slices offT S1x256x32) (offW : Fin 2 → Nat) (hW : S32x128.Slices offW S32x32) :
    FVec Ideal S1x32x256 .f32 :=
  broadcastInDim S1x32x256 ![1, 2] bcast_S32x256_S1x32x256_1_2
    (transpose S32x256 [1, 0]
      (Host.dotGeneral dot_S256x32_S32x32_S256x32_1_0_0_1_n_n none
        (shapeCast S256x32 (extractStridedSlice S1x256x32 offT tab hT) shapeCasts_S1x256x32_S256x32)
        (transpose S32x32 [1, 0] (extractStridedSlice S32x32 offW W hW) transposes_S32x32_S32x32_1_0))
      transposes_S256x32_S32x256_1_0)

/-- The 256 × 32 by 32 × 32 product read at an entry: the sum over the contracted coordinate. -/
theorem dot_apply (A : FVec Ideal S256x32 .f32) (B : FVec Ideal S32x32 .f32) (r : Fin 256) (e : Fin 32) :
    Host.dotGeneral dot_S256x32_S32x32_S256x32_1_0_0_1_n_n none A B (ix2 r e) = ∑ d : Fin 32, A (ix2 r d) * B (ix2 d e) :=
  StackMember.dotGeneral_plain_apply (m := 256) (n := 32) (k := 32) none A B r e

/-- Entry `(e, r)` of pre-projected table `j`: row `r` of byte table `j` against row `e` of the matrix restricted to the
    columns `32 j … 32 j + 31`. The two transposes cancel against the product's own index order, the slab's unit axis
    drops out of the row-major position, and the column block starts at `32 j`. -/
theorem foldPiece_apply (tab : FVec Ideal S4x256x32 .f32) (W : FVec Ideal S32x128 .f32) (j : Fin 4)
    (offT : Fin 3 → Nat) (hoffT : offT = ![j.val, 0, 0]) (hT : S4x256x32.Slices offT S1x256x32)
    (offW : Fin 2 → Nat) (hoffW : offW = ![0, 32 * j.val]) (hW : S32x128.Slices offW S32x32) (e : Fin 32) (r : Fin 256) :
    foldPiece tab W offT hT offW hW (ix3 (0 : Fin 1) e r)
      = ∑ d : Fin 32, tab (ix3 j r d) * W (ix2 e (Cert.Embed.col j d)) := by
  subst hoffT; subst hoffW
  unfold foldPiece
  refine (broadcastInDim_apply _ _ _ (ix3 (0 : Fin 1) e r) (ix2 e r) ?_).trans ?_
  · intro a
    match a with
    | ⟨0, _⟩ => rfl
    | ⟨1, _⟩ => rfl
  refine (transpose_apply _ _ _ (ix2 e r) (ix2 r e) ?_).trans ?_
  · intro b
    match b with
    | ⟨0, _⟩ => rfl
    | ⟨1, _⟩ => rfl
  refine (dot_apply _ _ r e).trans ?_
  refine Finset.sum_congr rfl fun d _ => ?_
  refine congrArg₂ (· * ·) ?_ ?_
  · refine (shapeCast_apply _ _ (ix2 r d) (ix3 (0 : Fin 1) r d) ?_).trans ?_
    · rw [Shape.rowMajor_val_three, Shape.rowMajor_val_two]
      show (0 * 256 + r.val) * 32 + d.val = r.val * 32 + d.val
      omega
    refine extractStridedSlice_apply _ _ _ (ix3 (0 : Fin 1) r d) (ix3 j r d) ?_
    intro a
    match a with
    | ⟨0, _⟩ => show j.val = j.val + 0; omega
    | ⟨1, _⟩ => show r.val = 0 + r.val; omega
    | ⟨2, _⟩ => show d.val = 0 + d.val; omega
  · refine (transpose_apply _ _ _ (ix2 d e) (ix2 e d) ?_).trans ?_
    · intro b
      match b with
      | ⟨0, _⟩ => rfl
      | ⟨1, _⟩ => rfl
    refine extractStridedSlice_apply _ _ _ (ix2 e d) (ix2 e (Cert.Embed.col j d)) ?_
    intro a
    match a with
    | ⟨0, _⟩ => show e.val = 0 + e.val; omega
    | ⟨1, _⟩ => show 32 * j.val + d.val = 32 * j.val + d.val; rfl

/-! ## The stack of four -/

/-- The four pre-projected tables stacked along a new leading axis, in the narrow float format (a format change is the
    identity on extended reals). -/
def foldStack (tab : FVec Ideal S4x256x32 .f32) (W : FVec Ideal S32x128 .f32) : FVec Ideal S4x32x256 .bf16 :=
  truncf .bf16
    (concatenate S4x32x256 0
      [⟨S1x32x256, foldPiece tab W ![0, 0, 0] slices_S4x256x32_S1x256x32_0_0_0 ![0, 0] slices_S32x128_S32x32_0_0⟩,
       ⟨S1x32x256, foldPiece tab W ![1, 0, 0] slices_S4x256x32_S1x256x32_1_0_0 ![0, 32] slices_S32x128_S32x32_0_32⟩,
       ⟨S1x32x256, foldPiece tab W ![2, 0, 0] slices_S4x256x32_S1x256x32_2_0_0 ![0, 64] slices_S32x128_S32x32_0_64⟩,
       ⟨S1x32x256, foldPiece tab W ![3, 0, 0] slices_S4x256x32_S1x256x32_3_0_0 ![0, 96] slices_S32x128_S32x32_0_96⟩]
      concatenates_S1x32x256_S1x32x256_S1x32x256_S1x32x256_S4x32x256_d0)
    bitsLt_bf16_f32

/-- Slab `j` of the stack is pre-projected table `j`: the four pieces have unit height, so the leading coordinate names
    the piece. -/
theorem foldStack_apply (tab : FVec Ideal S4x256x32 .f32) (W : FVec Ideal S32x128 .f32) (j : Fin 4) (e : Fin 32) (r : Fin 256) :
    foldStack tab W (ix3 j e r) = ∑ d : Fin 32, tab (ix3 j r d) * W (ix2 e (Cert.Embed.col j d)) := by
  unfold foldStack
  rw [truncf_apply]
  have hi : ∀ (j : Fin 4) (b : Fin S1x32x256.rank), b.cast (rfl : S1x32x256.rank = S4x32x256.rank) ≠ (0 : Fin 3) →
      ((ix3 (0 : Fin 1) e r : S1x32x256.Idx) b).val = ((ix3 j e r : S4x32x256.Idx) (b.cast rfl)).val := by
    intro j b hb
    match b with
    | ⟨0, _⟩ => exact absurd rfl hb
    | ⟨1, _⟩ => rfl
    | ⟨2, _⟩ => rfl
  match j with
  | ⟨0, _⟩ =>
    refine (concatenate_apply_piece (t := S4x32x256) (0 : Fin 3) _ _ (ix3 (0 : Fin 4) e r) 0 (by show 0 < 4; omega) S1x32x256 _ rfl rfl 0 rfl
      (ix3 (0 : Fin 1) e r) (hi 0) rfl).trans ?_
    exact foldPiece_apply tab W (0 : Fin 4) _ rfl _ _ rfl _ e r
  | ⟨1, _⟩ =>
    refine (concatenate_apply_piece (t := S4x32x256) (0 : Fin 3) _ _ (ix3 (1 : Fin 4) e r) 1 (by show 1 < 4; omega) S1x32x256 _ rfl rfl 1 rfl
      (ix3 (0 : Fin 1) e r) (hi 1) rfl).trans ?_
    exact foldPiece_apply tab W (1 : Fin 4) _ rfl _ _ rfl _ e r
  | ⟨2, _⟩ =>
    refine (concatenate_apply_piece (t := S4x32x256) (0 : Fin 3) _ _ (ix3 (2 : Fin 4) e r) 2 (by show 2 < 4; omega) S1x32x256 _ rfl rfl 2 rfl
      (ix3 (0 : Fin 1) e r) (hi 2) rfl).trans ?_
    exact foldPiece_apply tab W (2 : Fin 4) _ rfl _ _ rfl _ e r
  | ⟨3, _⟩ =>
    refine (concatenate_apply_piece (t := S4x32x256) (0 : Fin 3) _ _ (ix3 (3 : Fin 4) e r) 3 (by show 3 < 4; omega) S1x32x256 _ rfl rfl 3 rfl
      (ix3 (0 : Fin 1) e r) (hi 3) rfl).trans ?_
    exact foldPiece_apply tab W (3 : Fin 4) _ rfl _ _ rfl _ e r

end Cert.KernelIdeal.Hand

end
-- ==== Proof.HostPrefix.lean ====
import proofs.«410108_j44813688766883_3_alg».proof.Proof.Gen.KernelIdeal.Launch
import proofs.«410108_j44813688766883_3_alg».proof.Proof.Spec
import Idealize.ShloMosaic.Lib.StableHlo.Run
import Idealize.ShloMosaic.Lib.ValueIdx
import Idealize.ShloMosaic.Lib.Pipeline.Value
import Idealize.ShloMosaic.PureOps.Ideal.Laws
import proofs.«410108_j44813688766883_3_alg».proof.Proof.HostFold

/-!
  What the host operations before the kernel call leave in the four arrays the call reads, each read at an index:
  the two word columns of the input rows flattened and stacked; the two stacks of byte tables, each table multiplied
  into its block of columns of the layer's matrix; the bias as a column.
-/

set_option maxRecDepth 8192

noncomputable section

open scoped BigOperators

namespace Cert.KernelIdeal.Hand

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The input rows as launched: 128 × 2048 pairs of words. -/
abbrev argX : IVec S128x2048x2 32 := m ((c : Thread nD τ).loc main_arg0)
/-- The first stack of four byte tables as launched. -/
abbrev argPc : FVec Ideal S4x256x32 .f32 := m ((c : Thread nD τ).loc main_arg1)
/-- The second stack of four byte tables as launched. -/
abbrev argAd : FVec Ideal S4x256x32 .f32 := m ((c : Thread nD τ).loc main_arg2)
/-- The layer's matrix as launched. -/
abbrev argW : FVec Ideal S32x128 .f32 := m ((c : Thread nD τ).loc main_arg3)
/-- The bias as launched. -/
abbrev argB : FVec Ideal S32 .f32 := m ((c : Thread nD τ).loc main_arg4)

/-- Core c's contents of buffer b when the kernel call is entered: the 70 host operations applied to the launch memory. -/
abbrev entry (b : Ref sig .tc) : Buf (Elt Ideal) ((c : Thread nD τ).loc b) :=
  StableHlo.after (hostOps0 (F := Ideal)) (fun b => m (c, b)) (Proc.devRef .tc b)
/-- The packed words at entry. -/
abbrev entryWords : IVec S2x262144 32 := entry m c main_v8
/-- The first stack of pre-projected tables at entry. -/
abbrev entryTab1 : FVec Ideal S4x32x256 .bf16 := entry m c main_v38
/-- The second stack of pre-projected tables at entry. -/
abbrev entryTab2 : FVec Ideal S4x32x256 .bf16 := entry m c main_v68
/-- The bias column at entry. -/
abbrev entryBias : FVec Ideal S32x1 .f32 := entry m c main_v69

/-! ## The bias column -/

set_option maxHeartbeats 4000000 in
/-- The bias column is the bias vector given a trailing unit axis. -/
theorem bias_term : entryBias m c = shapeCast S32x1 (argB m c) shapeCasts_S32_S32x1 := by
  dsimp only [entryBias, entry, hostOps0]
  after_results
  rfl

/-- The bias as a column. -/
theorem bias_apply (e : Fin 32) : entryBias m c (ix2 e (0 : Fin 1)) = argB m c (ix1 e) := by
  rw [bias_term]
  refine shapeCast_apply _ _ (ix2 e (0 : Fin 1)) (ix1 e) ?_
  rw [Shape.rowMajor_val_one, Shape.rowMajor_val_two]
  show e.val = e.val * 1 + 0
  omega

/-! ## The packed words -/

/-- One word column of the input rows (column `off 2` of the last axis), the rows flattened row-major, under a leading
    unit axis. -/
def wordRow (x : IVec S128x2048x2 32) (off : Fin 3 → Nat) (h : S128x2048x2.Slices off S128x2048x1) : IVec S1x262144 32 :=
  broadcastInDim S1x262144 ![1] bcast_S262144_S1x262144_1
    (shapeCast S262144 (shapeCast S128x2048 (extractStridedSlice S128x2048x1 off x h) shapeCasts_S128x2048x1_S128x2048) shapeCasts_S128x2048_S262144)

/-- Position `n` of the flattened word column `r` is word `r` of input row `(n / 2048, n % 2048)`: the row-major
    position of `(p, q)` in a 128 × 2048 array is `2048 p + q`. -/
theorem wordRow_apply (x : IVec S128x2048x2 32) (r : Fin 2) (off : Fin 3 → Nat) (hoff : off = ![0, 0, r.val])
    (h : S128x2048x2.Slices off S128x2048x1) (n : Fin 262144) :
    wordRow x off h (ix2 (0 : Fin 1) n)
      = x (ix3 (⟨n.val / 2048, by have := n.isLt; omega⟩ : Fin 128) (⟨n.val % 2048, Nat.mod_lt _ (by decide)⟩ : Fin 2048) r) := by
  subst hoff
  unfold wordRow
  refine (broadcastInDim_apply _ _ _ (ix2 (0 : Fin 1) n) (ix1 n) ?_).trans ?_
  · intro a
    match a with
    | ⟨0, _⟩ => rfl
  refine (shapeCast_apply _ _ (ix1 n)
    (ix2 (⟨n.val / 2048, by have := n.isLt; omega⟩ : Fin 128) (⟨n.val % 2048, Nat.mod_lt _ (by decide)⟩ : Fin 2048)) ?_).trans ?_
  · rw [Shape.rowMajor_val_two, Shape.rowMajor_val_one]
    show n.val / 2048 * 2048 + n.val % 2048 = n.val
    omega
  refine (shapeCast_apply _ _
    (ix2 (⟨n.val / 2048, by have := n.isLt; omega⟩ : Fin 128) (⟨n.val % 2048, Nat.mod_lt _ (by decide)⟩ : Fin 2048))
    (ix3 (⟨n.val / 2048, by have := n.isLt; omega⟩ : Fin 128) (⟨n.val % 2048, Nat.mod_lt _ (by decide)⟩ : Fin 2048) (0 : Fin 1)) ?_).trans ?_
  · rw [Shape.rowMajor_val_three, Shape.rowMajor_val_two]
    show (n.val / 2048 * 2048 + n.val % 2048) * 1 + 0 = n.val / 2048 * 2048 + n.val % 2048
    omega
  refine extractStridedSlice_apply _ _ _
    (ix3 (⟨n.val / 2048, by have := n.isLt; omega⟩ : Fin 128) (⟨n.val % 2048, Nat.mod_lt _ (by decide)⟩ : Fin 2048) (0 : Fin 1))
    (ix3 (⟨n.val / 2048, by have := n.isLt; omega⟩ : Fin 128) (⟨n.val % 2048, Nat.mod_lt _ (by decide)⟩ : Fin 2048) r) ?_
  intro a
  match a with
  | ⟨0, _⟩ => show n.val / 2048 = 0 + n.val / 2048; omega
  | ⟨1, _⟩ => show n.val % 2048 = 0 + n.val % 2048; omega
  | ⟨2, _⟩ => show r.val = r.val + 0; omega

set_option maxHeartbeats 4000000 in
/-- The packed array is the two flattened word columns, one per row. -/
theorem pcaddr_term : entryWords m c
    = concatenate S2x262144 0 [⟨S1x262144, wordRow (argX m c) ![0, 0, 0] slices_S128x2048x2_S128x2048x1_0_0_0⟩,
        ⟨S1x262144, wordRow (argX m c) ![0, 0, 1] slices_S128x2048x2_S128x2048x1_0_0_1⟩] concatenates_S1x262144_S1x262144_S2x262144_d0 := by
  dsimp only [entryWords, entry, hostOps0]
  after_results
  rfl

/-- The packed words: row r of the 2 × 262144 array is word r of every input row, rows flattened row-major. -/
theorem pcaddr_apply (r : Fin 2) (n : Fin 262144) :
    entryWords m c (ix2 r n)
      = argX m c (ix3 (⟨n.val / 2048, by have := n.isLt; omega⟩ : Fin 128) (⟨n.val % 2048, Nat.mod_lt _ (by decide)⟩ : Fin 2048) r) := by
  rw [pcaddr_term]
  match r with
  | ⟨0, _⟩ =>
    refine (concatenate_pair_apply_left (t := S2x262144) (s₁ := S1x262144) (s₂ := S1x262144) (0 : Fin 2) _ _ _ (ix2 (0 : Fin 2) n) rfl (ix2 (0 : Fin 1) n) ?_).trans ?_
    · intro b
      match b with
      | ⟨0, _⟩ => rfl
      | ⟨1, _⟩ => rfl
    exact wordRow_apply _ (0 : Fin 2) _ rfl _ n
  | ⟨1, _⟩ =>
    refine (concatenate_pair_apply_right (t := S2x262144) (s₁ := S1x262144) (s₂ := S1x262144) (0 : Fin 2) _ _ _ (ix2 (1 : Fin 2) n) rfl rfl (ix2 (0 : Fin 1) n) ?_ ?_).trans ?_
    · intro b hb
      match b with
      | ⟨0, _⟩ => exact absurd rfl hb
      | ⟨1, _⟩ => rfl
    · rfl
    exact wordRow_apply _ (1 : Fin 2) _ rfl _ n

/-! ## The two stacks of pre-projected tables -/

set_option maxHeartbeats 40000000 in
/-- The first stack is the folding of the first stack of byte tables into the matrix. -/
theorem tab1_term : entryTab1 m c = foldStack (argPc m c) (argW m c) := by
  dsimp only [entryTab1, entry, hostOps0]
  after_results
  rfl

/-- The first stack of pre-projected tables: table j, output feature e, byte value r is the row r of byte table j times
    the 32 columns 32 j … 32 j + 31 of the layer's matrix. -/
theorem tab1_apply (j : Fin 4) (e : Fin 32) (r : Fin 256) :
    entryTab1 m c (ix3 j e r) = ∑ d : Fin 32, argPc m c (ix3 j r d) * argW m c (ix2 e (Cert.Embed.col j d)) := by
  rw [tab1_term]
  exact foldStack_apply (argPc m c) (argW m c) j e r

set_option maxHeartbeats 40000000 in
/-- The second stack is the same folding of the second stack of byte tables. -/
theorem tab2_term : entryTab2 m c = foldStack (argAd m c) (argW m c) := by
  dsimp only [entryTab2, entry, hostOps0]
  after_results
  rfl

/-- The second stack, from the second table argument. -/
theorem tab2_apply (j : Fin 4) (e : Fin 32) (r : Fin 256) :
    entryTab2 m c (ix3 j e r) = ∑ d : Fin 32, argAd m c (ix3 j r d) * argW m c (ix2 e (Cert.Embed.col j d)) := by
  rw [tab2_term]
  exact foldStack_apply (argAd m c) (argW m c) j e r

end Cert.KernelIdeal.Hand

end
-- ==== Proof.BlockValue.lean ====
/-
  What one grid step writes into its output block, read at an index, over the extended reals.

  One trip of a loop multiplies a 32 × 256 table by the 256 × 8192 zero-one matrix whose column n has its single one in the
  row numbered by one byte of row n's word, so the product at (e, n) is the table's entry at feature e and that byte: a sum
  over the 256 byte values against a row that is one at a single place keeps the term there.  Four trips from a zero
  accumulator add the four bytes' entries (addition of extended reals is associative and zero is its unit).  The tail adds
  the bias column along the rows, applies the logistic function, stacks the two words' 32-row halves to 64 rows and
  transposes, so the block at (n, c) is the first half at (c, n) for c < 32 and the second half at (c − 32, n) otherwise.
-/
import proofs.«410108_j44813688766883_3_alg».proof.Proof.BlockDefI
import proofs.«410108_j44813688766883_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx

/-- A sum over the 256 byte values against the zero-one row that marks the value `b` keeps the term at `b`. -/
theorem sum_onehot (g : Fin 256 → EReal) (b : Fin 256) :
    ∑ r : Fin 256, g r * (if b.val = r.val then (1 : EReal) else 0) = g b := by
  rw [Finset.sum_eq_single b]
  · rw [if_pos rfl, mul_one]
  · intro r _ hr
    rw [if_neg (fun h => hr (Fin.ext h.symm)), mul_zero]
  · intro h; exact absurd (Finset.mem_univ b) h

/-- The comparison bit of a word with a row number, widened and converted, is one where they agree and zero elsewhere. -/
theorem onehot_word (bw : BitVec 32) (r : Fin 256) :
    (FloatOps.sitofp (F := Ideal) .f32 ((IntOp.cmpi .eq bw (BitVec.ofNat 32 r.val)).setWidth 32) : EReal)
      = if bw.toNat = r.val then (1 : EReal) else 0 := by
  show ((((IntOp.cmpi .eq bw (BitVec.ofNat 32 r.val)).setWidth 32).toInt : ℝ) : EReal) = _
  have hr : r.val < 2 ^ 32 := lt_trans r.isLt (by decide)
  by_cases h : bw.toNat = r.val
  · have hb : bw = BitVec.ofNat 32 r.val := by
      apply BitVec.eq_of_toNat_eq; rw [BitVec.toNat_ofNat, Nat.mod_eq_of_lt hr]; exact h
    rw [if_pos h, ← hb]
    have e : ((IntOp.cmpi .eq bw bw).setWidth 32).toInt = 1 := by
      unfold IntOp.cmpi
      simp
    rw [e]; simp
  · have hb : ¬ bw = BitVec.ofNat 32 r.val := by
      intro hb; apply h; rw [hb, BitVec.toNat_ofNat, Nat.mod_eq_of_lt hr]
    rw [if_neg h]
    have e : ((IntOp.cmpi .eq bw (BitVec.ofNat 32 r.val)).setWidth 32).toInt = 0 := by
      unfold IntOp.cmpi
      have hbeq : (bw == BitVec.ofNat 32 r.val) = false := beq_eq_false_iff_ne.mpr hb
      simp [hbeq]
    rw [e]; simp

/-- The shift amount trip `k` computes is the one that brings byte `k` down. -/
theorem shift1 : ∀ k : Fin k0_t1_loop.trips,
    Scalar.subi 24#32 (Scalar.muli 8#32 (Scf.iv 0#32 1#32 k)) = Cert.Embed.shiftOf (Fin.cast trips1 k) := by decide +kernel
theorem shift2 : ∀ k : Fin k0_t2_loop.trips,
    Scalar.subi 24#32 (Scalar.muli 8#32 (Scf.iv 0#32 1#32 k)) = Cert.Embed.shiftOf (Fin.cast trips2 k) := by decide +kernel

/-- Every such amount is below the word width. -/
theorem shiftOf_lt : ∀ j : Fin 4, (Cert.Embed.shiftOf j).toNat < 32 := by decide

/-- The lane-wise arithmetic shift and mask of a word by byte `j`'s amount is that byte, as a word. -/
theorem byteWord_eq (w : BitVec 32) (j : Fin 4) :
    IntOp.andi (IntOp.shrsi .vector w (Cert.Embed.shiftOf j)) 255#32 = Cert.Embed.byteWord w j := by
  unfold IntOp.shrsi IntOp.andi Cert.Embed.byteWord
  rw [if_pos (shiftOf_lt j)]

/-! The product's operand indices at output index `i` and contraction position `q`: the table operand at (row of `i`, `q`), the
    zero-one operand at (`q`, column of `i`). -/
theorem lhs_dot_0 (i : S32x8192.Idx) (q : dot_S32x256_S256x8192_S32x8192_1_0_0_1_n_n.contr.Idx) :
    (dot_S32x256_S256x8192_S32x8192_1_0_0_1_n_n.lhsIdx i q 0).val = (i 0).val := by
  unfold DotDims.lhsIdx
  rw [dif_neg (show ¬(0 : Fin S32x256.rank) ∈ dot_S32x256_S256x8192_S32x8192_1_0_0_1_n_n.lhsBatch by decide),
    dif_pos (show (0 : Fin S32x256.rank) ∈ dot_S32x256_S256x8192_S32x8192_1_0_0_1_n_n.lhsNonContracting by decide)]
  rfl
theorem lhs_dot_1 (i : S32x8192.Idx) (q : dot_S32x256_S256x8192_S32x8192_1_0_0_1_n_n.contr.Idx) :
    (dot_S32x256_S256x8192_S32x8192_1_0_0_1_n_n.lhsIdx i q 1).val = (q ⟨0, by decide⟩).val :=
  dot_S32x256_S256x8192_S32x8192_1_0_0_1_n_n.lhsIdx_val_of_single rfl i q
theorem rhs_dot_0 (i : S32x8192.Idx) (q : dot_S32x256_S256x8192_S32x8192_1_0_0_1_n_n.contr.Idx) :
    (dot_S32x256_S256x8192_S32x8192_1_0_0_1_n_n.rhsIdx i q 0).val = (q ⟨0, by decide⟩).val :=
  dot_S32x256_S256x8192_S32x8192_1_0_0_1_n_n.rhsIdx_val_of_single rfl i q
theorem rhs_dot_1 (i : S32x8192.Idx) (q : dot_S32x256_S256x8192_S32x8192_1_0_0_1_n_n.contr.Idx) :
    (dot_S32x256_S256x8192_S32x8192_1_0_0_1_n_n.rhsIdx i q 1).val = (i 1).val := by
  unfold DotDims.rhsIdx
  rw [dif_neg (show ¬(1 : Fin S256x8192.rank) ∈ dot_S32x256_S256x8192_S32x8192_1_0_0_1_n_n.rhsBatch by decide),
    dif_pos (show (1 : Fin S256x8192.rank) ∈ dot_S32x256_S256x8192_S32x8192_1_0_0_1_n_n.rhsNonContracting by decide)]
  rfl

/-- The 32 × 256 by 256 × 8192 product into the zero accumulator, at (e, n): the sum over the 256 middle positions. -/
theorem tripDot_apply (L : FVec Ideal S32x256 .bf16) (R : FVec Ideal S256x8192 .bf16) (e : Fin 32) (n : Fin 8192) :
    matmul dot_S32x256_S256x8192_S32x8192_1_0_0_1_n_n none L R (constant (F := Ideal) S32x8192 .f32 0x00000000#32) (ix2 e n)
      = ∑ r : Fin 256, L (ix2 e r) * R (ix2 r n) := by
  simp only [matmul]
  rw [Ideal.matmul_constant_zero_apply,
    ← Equiv.sum_comp (contrEquiv1 dot_S32x256_S256x8192_S32x8192_1_0_0_1_n_n 256 rfl rfl).symm]
  refine Finset.sum_congr rfl fun r _ => ?_
  have hk := contrEquiv1_symm_val dot_S32x256_S256x8192_S32x8192_1_0_0_1_n_n 256 rfl rfl r
  have el : dot_S32x256_S256x8192_S32x8192_1_0_0_1_n_n.lhsIdx (ix2 e n)
      ((contrEquiv1 dot_S32x256_S256x8192_S32x8192_1_0_0_1_n_n 256 rfl rfl).symm r) = ix2 e r := funext fun a => Fin.ext (by
    match a with
    | ⟨0, _⟩ => exact lhs_dot_0 _ _
    | ⟨1, _⟩ => exact (lhs_dot_1 _ _).trans hk)
  have er : dot_S32x256_S256x8192_S32x8192_1_0_0_1_n_n.rhsIdx (ix2 e n)
      ((contrEquiv1 dot_S32x256_S256x8192_S32x8192_1_0_0_1_n_n 256 rfl rfl).symm r) = ix2 r n := funext fun a => Fin.ext (by
    match a with
    | ⟨0, _⟩ => exact (rhs_dot_0 _ _).trans hk
    | ⟨1, _⟩ => exact rhs_dot_1 _ _)
  rw [el, er]

/-- The zero-one operand of a trip at (r, n): one where the byte of row n's word that the shift amount brings down is r. -/
theorem onehot_apply (v : Vec Ideal S1x8192 .i32) (sh : BitVec 32) (j : Fin 4) (hs : sh = Cert.Embed.shiftOf j)
    (r : Fin 256) (n : Fin 8192) :
    (truncf .bf16 (sitofp (F := Ideal) .f32 (extui 32 (cmpi .eq
        (broadcastTo S256x8192 (andi (shrsi (shapeCast S1x8192 v shapeCasts_S1x8192_S1x8192) (broadcast S1x8192 sh))
          (broadcast S1x8192 255#32)) broadcasts_S1x8192_S256x8192)
        (iota .tc S256x8192 32 [0] iota_S256x8192_d0_w32)) natLt_1_32)) bitsLt_bf16_f32 : FVec Ideal S256x8192 .bf16) (ix2 r n)
      = if (Cert.Embed.byteOf (v (ix2 (0 : Fin 1) n)) j).val = r.val then (1 : EReal) else 0 := by
  rw [truncf_apply, sitofp_apply, extui_apply]
  show FloatOps.sitofp .f32 ((IntOp.cmpi .eq
      (broadcastTo S256x8192 (andi (shrsi (shapeCast S1x8192 v shapeCasts_S1x8192_S1x8192) (broadcast S1x8192 sh))
          (broadcast S1x8192 255#32)) broadcasts_S1x8192_S256x8192 (ix2 r n))
      (iota .tc S256x8192 32 [0] iota_S256x8192_d0_w32 (ix2 r n))).setWidth 32) = _
  rw [iota_single_apply,
    broadcastTo_apply _ broadcasts_S1x8192_S256x8192 (ix2 r n) (ix2 (0 : Fin 1) n) (fun a => by
      match a with
      | ⟨0, _⟩ => rfl
      | ⟨1, _⟩ => rfl)]
  show FloatOps.sitofp .f32 ((IntOp.cmpi .eq
      (IntOp.andi (IntOp.shrsi .vector (shapeCast S1x8192 v shapeCasts_S1x8192_S1x8192 (ix2 (0 : Fin 1) n)) sh) 255#32)
      (BitVec.ofNat 32 r.val)).setWidth 32) = _
  rw [shapeCast_self, hs, byteWord_eq, onehot_word]
  rfl

/-- The table operand of a trip at (e, r): the loaded 1 × 32 × 256 table at (0, e, r). -/
theorem tab_apply (tabk : Vec Ideal S1x32x256 .bf16) (e : Fin 32) (r : Fin 256) :
    (shapeCast S32x256 tabk shapeCasts_S1x32x256_S32x256 : FVec Ideal S32x256 .bf16) (ix2 e r) = tabk (ix3 (0 : Fin 1) e r) :=
  shapeCast_apply tabk shapeCasts_S1x32x256_S32x256 (ix2 e r) (ix3 (0 : Fin 1) e r) (by
    rw [Shape.rowMajor_val_three, Shape.rowMajor_val_two]
    show (0 * 32 + e.val) * 256 + r.val = e.val * 256 + r.val
    omega)

/-- ONE TRIP of the first loop at (e, n): the accumulator there plus the loaded table's entry at feature e and the value of
    byte k of row n's word. -/
theorem pay2_apply (v : Vec Ideal S1x8192 .i32) (k : Fin k0_t1_loop.trips) (a : FVec Ideal S32x8192 .f32)
    (tabk : Vec Ideal S1x32x256 .bf16) (e : Fin 32) (n : Fin 8192) :
    k0_pay2 (F := Ideal) v k a tabk (ix2 e n)
      = a (ix2 e n) + tabk (ix3 (0 : Fin 1) e (Cert.Embed.byteOf (v (ix2 (0 : Fin 1) n)) (Fin.cast trips1 k))) := by
  simp only [k0_pay2]
  rw [addf_apply, tripDot_apply]
  refine congrArg (a (ix2 e n) + ·) ?_
  refine Eq.trans (Finset.sum_congr rfl fun r _ => ?_)
    (sum_onehot (fun r => tabk (ix3 (0 : Fin 1) e r)) (Cert.Embed.byteOf (v (ix2 (0 : Fin 1) n)) (Fin.cast trips1 k)))
  rw [tab_apply, onehot_apply v _ (Fin.cast trips1 k) (shift1 k)]

/-- ONE TRIP of the second loop at (e, n), likewise. -/
theorem pay4_apply (v : Vec Ideal S1x8192 .i32) (k : Fin k0_t2_loop.trips) (a : FVec Ideal S32x8192 .f32)
    (tabk : Vec Ideal S1x32x256 .bf16) (e : Fin 32) (n : Fin 8192) :
    k0_pay4 (F := Ideal) v k a tabk (ix2 e n)
      = a (ix2 e n) + tabk (ix3 (0 : Fin 1) e (Cert.Embed.byteOf (v (ix2 (0 : Fin 1) n)) (Fin.cast trips2 k))) := by
  simp only [k0_pay4]
  rw [addf_apply, tripDot_apply]
  refine congrArg (a (ix2 e n) + ·) ?_
  refine Eq.trans (Finset.sum_congr rfl fun r _ => ?_)
    (sum_onehot (fun r => tabk (ix3 (0 : Fin 1) e r)) (Cert.Embed.byteOf (v (ix2 (0 : Fin 1) n)) (Fin.cast trips2 k)))
  rw [tab_apply, onehot_apply v _ (Fin.cast trips2 k) (shift2 k)]

/-- The bias column broadcast along the 8192 rows, at (e, n): the column's entry at e. -/
theorem biasAlongRows_apply (b : FVec Ideal S32x1 .f32) (e : Fin 32) (n : Fin 8192) :
    (broadcastTo S32x8192 b broadcasts_S32x1_S32x8192 : FVec Ideal S32x8192 .f32) (ix2 e n) = b (ix2 e (0 : Fin 1)) :=
  broadcastTo_apply b broadcasts_S32x1_S32x8192 (ix2 e n) (ix2 e (0 : Fin 1)) (fun a => by
    match a with
    | ⟨0, _⟩ => rfl
    | ⟨1, _⟩ => rfl)

/-- One half of the stack at (e, n): the logistic function of the accumulator there plus the bias at e. -/
theorem half_apply (b : FVec Ideal S32x1 .f32) (a : FVec Ideal S32x8192 .f32) (e : Fin 32) (n : Fin 8192) :
    (logistic (addf a (broadcastTo S32x8192 (shapeCast S32x1 b shapeCasts_S32x1_S32x1) broadcasts_S32x1_S32x8192))
        : FVec Ideal S32x8192 .f32) (ix2 e n)
      = Ideal.logistic (a (ix2 e n) + b (ix2 e (0 : Fin 1))) := by
  show FloatOps.logistic (addf a (broadcastTo S32x8192 (shapeCast S32x1 b shapeCasts_S32x1_S32x1) broadcasts_S32x1_S32x8192) (ix2 e n)) = _
  rw [Ideal.logistic_def, addf_apply, shapeCast_self, biasAlongRows_apply]

/-- THE TAIL at (n, c): the transposed stack reads the stack at (c, n); its first 32 rows are the first half, the other 32 the
    second half at row c − 32. -/
theorem pay5_apply (b : Vec Ideal S32x1 .f32) (a1 a2 : FVec Ideal S32x8192 .f32) (n : Fin 8192) (c : Fin 64) :
    k0_pay5 (F := Ideal) b a1 a2 (ix2 n c)
      = if h : c.val < 32 then
          Ideal.logistic (a1 (ix2 (⟨c.val, h⟩ : Fin 32) n) + b (ix2 (⟨c.val, h⟩ : Fin 32) (0 : Fin 1)))
        else
          Ideal.logistic (a2 (ix2 (⟨c.val - 32, by have := c.isLt; omega⟩ : Fin 32) n)
            + b (ix2 (⟨c.val - 32, by have := c.isLt; omega⟩ : Fin 32) (0 : Fin 1))) := by
  simp only [k0_pay5]
  rw [transpose_apply [1, 0] _ transposes_S64x8192_p1_0_S8192x64 (ix2 n c) (ix2 c n) (fun b => by
    match b with
    | ⟨0, _⟩ => rfl
    | ⟨1, _⟩ => rfl)]
  by_cases h : c.val < 32
  · rw [dif_pos h, concatenate_pair_apply_left 0 _ _ concatenates_S32x8192_S32x8192_S64x8192_d0 (ix2 c n) rfl
      (ix2 (⟨c.val, h⟩ : Fin 32) n) (fun b => by
        match b with
        | ⟨0, _⟩ => rfl
        | ⟨1, _⟩ => rfl), half_apply]
  · rw [dif_neg h, concatenate_pair_apply_right 0 _ _ concatenates_S32x8192_S32x8192_S64x8192_d0 (ix2 c n) rfl rfl
      (ix2 (⟨c.val - 32, by have := c.isLt; omega⟩ : Fin 32) n) (fun b hb => by
        match b, hb with
        | ⟨0, _⟩, hb => exact absurd rfl hb
        | ⟨1, _⟩, _ => rfl) (by show (c.val - 32) + 32 = c.val; omega), half_apply]

/-- Table k of the first stack, loaded as a 1 × 32 × 256 block, at (0, e, r): the stack at (k, e, r). -/
theorem ldTab1_apply (x1 : Vec Ideal S4x32x256 .bf16) (k : Fin k0_t1_loop.trips) (e : Fin 32) (r : Fin 256) :
    View.ld x1 (rTab1 k) (ix3 (0 : Fin 1) e r) = x1 (ix3 (Fin.cast trips1 k) e r) := by
  refine congrArg x1 (funext fun a => Fin.ext ?_)
  show (k0_off1 k) a + 1 * ((ix3 (0 : Fin 1) e r) a).val = ((ix3 (Fin.cast trips1 k) e r) a).val
  rw [k0_off1_eq k]
  match a with
  | ⟨0, _⟩ => show k.val + 1 * 0 = k.val; omega
  | ⟨1, _⟩ => show 0 + 1 * e.val = e.val; omega
  | ⟨2, _⟩ => show 0 + 1 * r.val = r.val; omega

/-- Table k of the second stack likewise. -/
theorem ldTab2_apply (x2 : Vec Ideal S4x32x256 .bf16) (k : Fin k0_t2_loop.trips) (e : Fin 32) (r : Fin 256) :
    View.ld x2 (rTab2 k) (ix3 (0 : Fin 1) e r) = x2 (ix3 (Fin.cast trips2 k) e r) := by
  refine congrArg x2 (funext fun a => Fin.ext ?_)
  show (k0_off2 k) a + 1 * ((ix3 (0 : Fin 1) e r) a).val = ((ix3 (Fin.cast trips2 k) e r) a).val
  rw [k0_off2_eq k]
  match a with
  | ⟨0, _⟩ => show k.val + 1 * 0 = k.val; omega
  | ⟨1, _⟩ => show 0 + 1 * e.val = e.val; omega
  | ⟨2, _⟩ => show 0 + 1 * r.val = r.val; omega

/-- Before the first trip the accumulator is zero. -/
theorem acc1_zero_apply (v : Vec Ideal S1x8192 .i32) (x1 : Vec Ideal S4x32x256 .bf16) (e : Fin 32) (n : Fin 8192) :
    acc1 (F := Ideal) v x1 0 (ix2 e n) = 0 := by
  show Ideal.ofBits .f32 0x00000000#32 = 0
  exact Ideal.ofBits_zero_f32
theorem acc2_zero_apply (v : Vec Ideal S1x8192 .i32) (x2 : Vec Ideal S4x32x256 .bf16) (e : Fin 32) (n : Fin 8192) :
    acc2 (F := Ideal) v x2 0 (ix2 e n) = 0 := by
  show Ideal.ofBits .f32 0x00000000#32 = 0
  exact Ideal.ofBits_zero_f32

/-- Trip k adds table k's entry at feature e and byte k of row n's word. -/
theorem acc1_succ_apply (v : Vec Ideal S1x8192 .i32) (x1 : Vec Ideal S4x32x256 .bf16) (k : ℕ) (h : k < k0_t1_loop.trips)
    (e : Fin 32) (n : Fin 8192) :
    acc1 (F := Ideal) v x1 (k + 1) (ix2 e n)
      = acc1 (F := Ideal) v x1 k (ix2 e n)
        + x1 (ix3 (⟨k, trips1 ▸ h⟩ : Fin 4) e (Cert.Embed.byteOf (v (ix2 (0 : Fin 1) n)) (⟨k, trips1 ▸ h⟩ : Fin 4))) := by
  rw [acc1, dif_pos h, pay2_apply, ldTab1_apply]
  rfl
theorem acc2_succ_apply (v : Vec Ideal S1x8192 .i32) (x2 : Vec Ideal S4x32x256 .bf16) (k : ℕ) (h : k < k0_t2_loop.trips)
    (e : Fin 32) (n : Fin 8192) :
    acc2 (F := Ideal) v x2 (k + 1) (ix2 e n)
      = acc2 (F := Ideal) v x2 k (ix2 e n)
        + x2 (ix3 (⟨k, trips2 ▸ h⟩ : Fin 4) e (Cert.Embed.byteOf (v (ix2 (0 : Fin 1) n)) (⟨k, trips2 ▸ h⟩ : Fin 4))) := by
  rw [acc2, dif_pos h, pay4_apply, ldTab2_apply]
  rfl

/-- THE FOLD: after the four trips the accumulator at (e, n) is the sum over the four bytes of row n's word of the tables' entries. -/
theorem acc1_apply (v : Vec Ideal S1x8192 .i32) (x1 : Vec Ideal S4x32x256 .bf16) (e : Fin 32) (n : Fin 8192) :
    acc1 (F := Ideal) v x1 4 (ix2 e n) = ∑ j : Fin 4, x1 (ix3 j e (Cert.Embed.byteOf (v (ix2 (0 : Fin 1) n)) j)) := by
  have s1 := acc1_succ_apply v x1 0 (by decide) e n
  have s2 := acc1_succ_apply v x1 1 (by decide) e n
  have s3 := acc1_succ_apply v x1 2 (by decide) e n
  have s4 := acc1_succ_apply v x1 3 (by decide) e n
  rw [acc1_zero_apply, zero_add, zero_add] at s1
  rw [s1] at s2; rw [s2] at s3; rw [s3] at s4
  rw [Fin.sum_univ_four]
  exact s4
theorem acc2_apply (v : Vec Ideal S1x8192 .i32) (x2 : Vec Ideal S4x32x256 .bf16) (e : Fin 32) (n : Fin 8192) :
    acc2 (F := Ideal) v x2 4 (ix2 e n) = ∑ j : Fin 4, x2 (ix3 j e (Cert.Embed.byteOf (v (ix2 (0 : Fin 1) n)) j)) := by
  have s1 := acc2_succ_apply v x2 0 (by decide) e n
  have s2 := acc2_succ_apply v x2 1 (by decide) e n
  have s3 := acc2_succ_apply v x2 2 (by decide) e n
  have s4 := acc2_succ_apply v x2 3 (by decide) e n
  rw [acc2_zero_apply, zero_add, zero_add] at s1
  rw [s1] at s2; rw [s2] at s3; rw [s3] at s4
  rw [Fin.sum_univ_four]
  exact s4

/-- The zero offsets of a whole-block rectangle. -/
theorem off00 : (![0, 0] : Fin 2 → ℕ) = fun _ => 0 := funext fun a => by
  match a with
  | ⟨0, _⟩ => rfl
  | ⟨1, _⟩ => rfl

/-- Row 0 of the packed block, loaded as 1 × 8192, at (0, n): the block at (0, n); row 1 likewise at (1, n). -/
theorem ldRow0_apply (x0 : Vec Ideal S2x8192 .i32) (n : Fin 8192) :
    View.ld x0 rRow0 (ix2 (0 : Fin 1) n) = x0 (ix2 (0 : Fin 2) n) := by
  refine congrArg x0 (funext fun a => Fin.ext ?_)
  match a with
  | ⟨0, _⟩ => show 0 + 1 * 0 = 0; omega
  | ⟨1, _⟩ => show 0 + 1 * n.val = n.val; omega
theorem ldRow1_apply (x0 : Vec Ideal S2x8192 .i32) (n : Fin 8192) :
    View.ld x0 rRow1 (ix2 (0 : Fin 1) n) = x0 (ix2 (1 : Fin 2) n) := by
  refine congrArg x0 (funext fun a => Fin.ext ?_)
  match a with
  | ⟨0, _⟩ => show 1 + 1 * 0 = 1; omega
  | ⟨1, _⟩ => show 0 + 1 * n.val = n.val; omega

/-- Row n, column c of the block a step writes: for c < 32 the logistic function of (the sum over the four bytes j of the first
    word of row n of table j's entry at feature c and that byte's value) plus the bias at c; for c ≥ 32 the same for the row's second word,
    the second stack and feature c − 32. -/
theorem out4_apply (x0 : Vec Ideal S2x8192 .i32) (x1 x2 : Vec Ideal S4x32x256 .bf16) (x3 : Vec Ideal S32x1 .f32) (n : Fin 8192) (c : Fin 64) :
    out4 (F := Ideal) x0 x1 x2 x3 (ix2 n c)
      = if h : c.val < 32 then
          Ideal.logistic ((∑ j : Fin 4, x1 (ix3 j (⟨c.val, h⟩ : Fin 32) (Cert.Embed.byteOf (x0 (ix2 (0 : Fin 2) n)) j))) + x3 (ix2 (⟨c.val, h⟩ : Fin 32) (0 : Fin 1)))
        else
          Ideal.logistic ((∑ j : Fin 4, x2 (ix3 j (⟨c.val - 32, by have := c.isLt; omega⟩ : Fin 32) (Cert.Embed.byteOf (x0 (ix2 (1 : Fin 2) n)) j))) + x3 (ix2 (⟨c.val - 32, by have := c.isLt; omega⟩ : Fin 32) (0 : Fin 1))) := by
  unfold out4
  rw [View.canon_unit_zero off00, View.ld_unit_zero off00, pay5_apply]
  by_cases h : c.val < 32
  · rw [dif_pos h, dif_pos h, congrArg (acc1 (F := Ideal) (View.ld x0 rRow0) x1) trips1, acc1_apply, ldRow0_apply]
  · rw [dif_neg h, dif_neg h, congrArg (acc2 (F := Ideal) (View.ld x0 rRow1) x2) trips2, acc2_apply, ldRow1_apply]

end Cert.KernelIdeal.Hand

end
-- ==== Proof.KernelRun.lean ====
/-
  The idealized kernel program's result, as the specification's function of the five arguments.

  Step `t` of the call reads columns 8192 t … 8192 t + 8191 of the packed words and writes rows 8192 t … 8192 t + 8191
  of the call's 262144 × 64 result; row N of that result is input row (N / 2048, N % 2048), because the host flattens
  the 128 × 2048 rows row-major before the call and the reshape after the call undoes it.  With the packed words, the
  pre-projected tables and the bias column read back to the arguments (the host prefix) and a step's block read at an
  index (the block value), every entry of the result is the specification's entry.
-/
import proofs.«410108_j44813688766883_3_alg».proof.Proof.FrameI
import proofs.«410108_j44813688766883_3_alg».proof.Proof.Spec
import proofs.«410108_j44813688766883_3_alg».proof.Proof.HostPrefix
import proofs.«410108_j44813688766883_3_alg».proof.Proof.BlockValue
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg) (c : Dev nD)

/-! ## The arrays the call reads, back to the arguments -/

/-- What the call finds in a buffer is the host prefix applied to the launch memory. -/
theorem V_eq_entry (b : Ref sig .tc) : V m c b = entry m c b := by
  show StableHlo.after (List.flatten [hostOps0]) (fun b => m (c, b)) (Proc.devRef .tc b) = StableHlo.after hostOps0 (fun b => m (c, b)) (Proc.devRef .tc b)
  rw [List.flatten_cons, List.flatten_nil, List.append_nil]

/-- The four input blocks of step `t`, each at its literal type. -/
abbrev blk0 (t : Fin cfg0.N) : Vec Ideal S2x8192 .i32 := iblk m c 0 t
abbrev blk1 (t : Fin cfg0.N) : Vec Ideal S4x32x256 .bf16 := iblk m c 1 t
abbrev blk2 (t : Fin cfg0.N) : Vec Ideal S4x32x256 .bf16 := iblk m c 2 t
abbrev blk3 (t : Fin cfg0.N) : Vec Ideal S32x1 .f32 := iblk m c 3 t

/-- The printed index maps over the grid: the packed words' block moves along its second axis with the step, the
    result's along its first, the tables and the bias stay. -/
theorem idx_facts : ∀ t : Fin cfg0.N, win0_0.index t (0 : Fin 2) = 0 ∧ win0_0.index t (1 : Fin 2) = t.val
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 ∧ t.val < 32 :=
  (by decide +kernel : ∀ t : Fin grid0.N, _)

/-- Word `r` of the step's row `n` is word `r` of input row 8192 t + n, rows counted row-major. -/
theorem blk0_apply (t : Fin cfg0.N) (r : Fin 2) (n : Fin 8192) :
    blk0 m c t (ix2 r n) = argX m c
      (ix3 (⟨(8192 * t.val + n.val) / 2048, by have := (idx_facts t).2.2.2.2.2.2.2.2.2.2.2.2; have := n.isLt; omega⟩ : Fin 128)
        (⟨(8192 * t.val + n.val) % 2048, Nat.mod_lt _ (by decide)⟩ : Fin 2048) r) := by
  obtain ⟨e0, e1, -⟩ := idx_facts t
  have ht : t.val < 32 := (idx_facts t).2.2.2.2.2.2.2.2.2.2.2.2
  have hn := n.isLt
  have hr := r.isLt
  show V m c main_v8 (((cfg0.win 0).blk t).view.emb (ix2 r n)) = _
  have he : ((cfg0.win 0).blk t).view.emb (ix2 r n) = ix2 r (⟨8192 * t.val + n.val, by omega⟩ : Fin 262144) := by
    funext a; apply Fin.ext
    match a with
    | ⟨0, _⟩ => show win0_0.index t (0 : Fin 2) * 2 + 1 * r.val = r.val; omega
    | ⟨1, _⟩ => show win0_0.index t (1 : Fin 2) * 8192 + 1 * n.val = 8192 * t.val + n.val; omega
  rw [he, V_eq_entry]
  exact pcaddr_apply m c r ⟨8192 * t.val + n.val, by omega⟩

/-- The first stack of tables is handed whole. -/
theorem blk1_apply (t : Fin cfg0.N) (j : Fin 4) (e : Fin 32) (r : Fin 256) :
    blk1 m c t (ix3 j e r) = ∑ d : Fin 32, argPc m c (ix3 j r d) * argW m c (ix2 e (Cert.Embed.col j d)) := by
  obtain ⟨-, -, e0, e1, e2, -⟩ := idx_facts t
  show V m c main_v38 (((cfg0.win 1).blk t).view.emb (ix3 j e r)) = _
  have he : ((cfg0.win 1).blk t).view.emb (ix3 j e r) = ix3 j e r := by
    funext a; apply Fin.ext
    match a with
    | ⟨0, _⟩ => show win0_1.index t (0 : Fin 3) * 4 + 1 * j.val = j.val; omega
    | ⟨1, _⟩ => show win0_1.index t (1 : Fin 3) * 32 + 1 * e.val = e.val; omega
    | ⟨2, _⟩ => show win0_1.index t (2 : Fin 3) * 256 + 1 * r.val = r.val; omega
  rw [he, V_eq_entry]
  exact tab1_apply m c j e r

/-- So is the second. -/
theorem blk2_apply (t : Fin cfg0.N) (j : Fin 4) (e : Fin 32) (r : Fin 256) :
    blk2 m c t (ix3 j e r) = ∑ d : Fin 32, argAd m c (ix3 j r d) * argW m c (ix2 e (Cert.Embed.col j d)) := by
  obtain ⟨-, -, -, -, -, e0, e1, e2, -⟩ := idx_facts t
  show V m c main_v68 (((cfg0.win 2).blk t).view.emb (ix3 j e r)) = _
  have he : ((cfg0.win 2).blk t).view.emb (ix3 j e r) = ix3 j e r := by
    funext a; apply Fin.ext
    match a with
    | ⟨0, _⟩ => show win0_2.index t (0 : Fin 3) * 4 + 1 * j.val = j.val; omega
    | ⟨1, _⟩ => show win0_2.index t (1 : Fin 3) * 32 + 1 * e.val = e.val; omega
    | ⟨2, _⟩ => show win0_2.index t (2 : Fin 3) * 256 + 1 * r.val = r.val; omega
  rw [he, V_eq_entry]
  exact tab2_apply m c j e r

/-- And the bias column. -/
theorem blk3_apply (t : Fin cfg0.N) (e : Fin 32) :
    blk3 m c t (ix2 e (0 : Fin 1)) = argB m c (ix1 e) := by
  obtain ⟨-, -, -, -, -, -, -, -, e0, e1, -⟩ := idx_facts t
  show V m c main_v69 (((cfg0.win 3).blk t).view.emb (ix2 e (0 : Fin 1))) = _
  have he : ((cfg0.win 3).blk t).view.emb (ix2 e (0 : Fin 1)) = ix2 e (0 : Fin 1) := by
    funext a; apply Fin.ext
    match a with
    | ⟨0, _⟩ => show win0_3.index t (0 : Fin 2) * 32 + 1 * e.val = e.val; omega
    | ⟨1, _⟩ => show win0_3.index t (1 : Fin 2) * 1 + 1 * 0 = 0; omega
  rw [he, V_eq_entry]
  exact bias_apply m c e

/-! ## The call's result array -/

/-- Row `N`, column `col` of the call's result: the specification's entry of input row (N / 2048, N % 2048). -/
def KGat (N : Fin 262144) (col : Fin 64) : EReal :=
  Cert.Embed.Gat (argX m c) (argPc m c) (argAd m c) (argW m c) (argB m c)
    (⟨N.val / 2048, by have := N.isLt; omega⟩ : Fin 128) (⟨N.val % 2048, Nat.mod_lt _ (by decide)⟩ : Fin 2048) col

/-- The call's result array. -/
def KG : FVec Ideal S262144x64 .f32 := fun i => KGat m c (i 0) (i 1)

/-- What step `t` writes back is block `t` of that array. -/
theorem flushed4_eq (t : Fin cfg0.N) :
    (dats m 0 c).flushed 4 t = ((cfg0.win 4).blk t).view.read (Elt Ideal) (KG m c) := by
  show (cfg0.win 4).cut (grid0.coords t) ((dats m 0 c).after 4 t) = _
  rw [after0_4]
  have ht : t.val < 32 := (idx_facts t).2.2.2.2.2.2.2.2.2.2.2.2
  obtain ⟨-, -, -, -, -, -, -, -, -, -, e0, e1, -⟩ := idx_facts t
  funext j
  obtain ⟨n, col, rfl⟩ : ∃ (n : Fin 8192) (col : Fin 64), j = ix2 n col := ⟨j 0, j 1, eq_ix2 j⟩
  have hn := n.isLt
  have hc := col.isLt
  show out4 (blk0 m c t) (blk1 m c t) (blk2 m c t) (blk3 m c t) (ix2 n col) = KG m c (((cfg0.win 4).blk t).view.emb (ix2 n col))
  have he : ((cfg0.win 4).blk t).view.emb (ix2 n col) = ix2 (⟨8192 * t.val + n.val, by omega⟩ : Fin 262144) col := by
    funext a; apply Fin.ext
    match a with
    | ⟨0, _⟩ => show win0_4.index t (0 : Fin 2) * 8192 + 1 * n.val = 8192 * t.val + n.val; omega
    | ⟨1, _⟩ => show win0_4.index t (1 : Fin 2) * 64 + 1 * col.val = col.val; omega
  rw [he]
  refine (out4_apply (blk0 m c t) (blk1 m c t) (blk2 m c t) (blk3 m c t) n col).trans ?_
  show _ = KGat m c (⟨8192 * t.val + n.val, by omega⟩ : Fin 262144) col
  unfold KGat Cert.Embed.Gat
  by_cases h : col.val < 32
  · rw [dif_pos h, dif_pos h]
    unfold Cert.Embed.enc Cert.Embed.pre
    simp only [blk0_apply, blk1_apply, blk3_apply]
  · rw [dif_neg h, dif_neg h]
    unfold Cert.Embed.enc Cert.Embed.pre
    simp only [blk0_apply, blk2_apply, blk3_apply]

/-- An index is in step `t`'s block iff each coordinate is in the block's range. -/
theorem mem_blk4 (t : Fin cfg0.N) (i : S262144x64.Idx) :
    i ∈ ((cfg0.win 4).blk t).view.set ↔ ∀ a : Fin 2, win0_4.index t a * S8192x64.size a ≤ (i a).val ∧ (i a).val < win0_4.index t a * S8192x64.size a + S8192x64.size a := by
  show i ∈ ((View.whole main_v70).slice (win0_4.rect t)).set ↔ _
  rw [View.set_slice_whole, Rect.mem_set_unit]
  exact Iff.rfl

/-- Every step's block index is some step's. -/
theorem idx_onto4 : ∀ q : Fin 32, ∃ t : Fin cfg0.N, win0_4.index t = ![q.val, 0] :=
  (by decide +kernel : ∀ q : Fin 32, ∃ t : Fin grid0.N, win0_4.index t = ![q.val, 0])

/-- The 32 blocks tile the result. -/
theorem cover4_arr (i : S262144x64.Idx) : ∃ t : Fin cfg0.N, (cfg0.win 4).flush t = true ∧ i ∈ ((cfg0.win 4).blk t).view.set := by
  have hi0 : (i 0).val < 262144 := (i 0).isLt
  have hi1 : (i 1).val < 64 := (i 1).isLt
  obtain ⟨t, ht⟩ := idx_onto4 ⟨(i 0).val / 8192, by omega⟩
  have q0 : win0_4.index t (0 : Fin 2) = (i 0).val / 8192 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 8192 ≤ (i 0).val ∧ (i 0).val < win0_4.index t (0 : Fin 2) * 8192 + 8192; omega
  | ⟨1, _⟩ => show win0_4.index t (1 : Fin 2) * 64 ≤ (i 1).val ∧ (i 1).val < win0_4.index t (1 : Fin 2) * 64 + 64; omega

/-- The call's result array after the run. -/
theorem final4 : (dats m 0 c).arrAt 4 cfg0.N = KG m c :=
  (dats m 0 c).arrAt_eq_of_cover 4 (KG m c) (fun t _ => flushed4_eq m c t) (cover4_arr)

/-! ## The reshape after the call, and the run -/

/-- Entry (r, s, col) of the program's result is entry (2048 r + s, col) of the call's. -/
theorem result_eq :
    Pipeline.afterTail₀ cfgs (dats m) 0 (V0 m) [hostOps1] c main_v71
      = Cert.Embed.G (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v71) = _
  after_results
  rw [(Pipeline.withArrays_arr spec0 launch0.win.arr_inj c _ _ 4).trans (final4 m c)]
  funext i
  obtain ⟨r, s, col, rfl⟩ : ∃ (r : Fin 128) (s : Fin 2048) (col : Fin 64), i = ix3 r s col := ⟨i 0, i 1, i 2, eq_ix3 i⟩
  have hr := r.isLt
  have hs := s.isLt
  rw [Cert.Embed.G_apply]
  show shapeCast S128x2048x64 (KG m c) shapeCasts_S262144x64_S128x2048x64 (ix3 r s col) = _
  rw [shapeCast_apply (KG m c) shapeCasts_S262144x64_S128x2048x64 (ix3 r s col) (ix2 (⟨2048 * r.val + s.val, by omega⟩ : Fin 262144) col) (by
    rw [Shape.rowMajor_val_two, Shape.rowMajor_val_three]
    show (2048 * r.val + s.val) * 64 + col.val = (r.val * 2048 + s.val) * 64 + col.val
    omega)]
  show KGat m c (⟨2048 * r.val + s.val, by omega⟩ : Fin 262144) col = _
  unfold KGat
  congr 1
  · apply Fin.ext; show (2048 * r.val + s.val) / 2048 = r.val; omega
  · apply Fin.ext; show (2048 * r.val + s.val) % 2048 = s.val; omega

/-- Every weakly fair execution of the idealized kernel program terminates with its result at the specification's
    function of the arguments and the arguments unchanged. -/
theorem run : θ_run (defs (F := Ideal)) (onTc (τ := τ) (main (F := Ideal))) ⟨m, fun _ => 0, ρ⟩ fun r => ∀ c : Dev nD,
      r.2.mem ((c.tc : Thread nD τ).loc main_v71)
          = Cert.Embed.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v71 (Pipeline.mem_restRefs_of main_v71 (by decide) (by decide))).trans (result_eq m c),
     ((h c).2 main_arg0 (Pipeline.mem_restRefs_of main_arg0 (by decide) (by decide))).trans (W_arg_of m (dats m) c main_arg0 hostOps0_keeps_arg0 (StableHlo.devRef_ne_of_ne (by decide)) (by decide)),
     ((h c).2 main_arg1 (Pipeline.mem_restRefs_of main_arg1 (by decide) (by decide))).trans (W_arg_of m (dats m) c main_arg1 hostOps0_keeps_arg1 (StableHlo.devRef_ne_of_ne (by decide)) (by decide)),
     ((h c).2 main_arg2 (Pipeline.mem_restRefs_of main_arg2 (by decide) (by decide))).trans (W_arg_of m (dats m) c main_arg2 hostOps0_keeps_arg2 (StableHlo.devRef_ne_of_ne (by decide)) (by decide)),
     ((h c).2 main_arg3 (Pipeline.mem_restRefs_of main_arg3 (by decide) (by decide))).trans (W_arg_of m (dats m) c main_arg3 hostOps0_keeps_arg3 (StableHlo.devRef_ne_of_ne (by decide)) (by decide)),
     ((h c).2 main_arg4 (Pipeline.mem_restRefs_of main_arg4 (by decide) (by decide))).trans (W_arg_of m (dats m) c main_arg4 hostOps0_keeps_arg4 (StableHlo.devRef_ne_of_ne (by decide)) (by decide))⟩)
    (run_main m ρ)

end Cert.KernelIdeal.Hand

end
-- ==== Proof.RefStages.lean ====
/-
  The reference program's intermediate arrays, as functions of its five arguments.

  The program flattens the 128 × 2048 rows into 262144 words (once per column of the input), cuts every word into its
  four bytes, reads row `byte` of table `j` for byte `j`, lays the four rows side by side (128 reals per word), applies
  the linear layer and the logistic function, and lays the two encodings of a row side by side.  Each function below
  is one of those arrays, written with the same array operations the program uses, for any float values.
-/
import proofs.«410108_j44813688766883_3_alg».proof.Proof.Gen.ReferenceIdeal

noncomputable section

namespace Cert.ReferenceIdeal.Hand

open Cert.ReferenceIdeal Cert.ReferenceIdeal.Gen Idealize.ShloMosaic

variable {F : FTy → Type} [FloatOps F]

/-- Column 0 of the input, flattened: one word per row, 262144 of them. -/
def words0 (x : IVec S128x2048x2 32) : IVec S262144 32 :=
  shapeCast S262144 (shapeCast S128x2048 (extractStridedSlice S128x2048x1 ![0, 0, 0] x slices_S128x2048x2_S128x2048x1_0_0_0)
    shapeCasts_S128x2048x1_S128x2048) shapeCasts_S128x2048_S262144

/-- Column 1 of the input, flattened. -/
def words1 (x : IVec S128x2048x2 32) : IVec S262144 32 :=
  shapeCast S262144 (shapeCast S128x2048 (extractStridedSlice S128x2048x1 ![0, 0, 1] x slices_S128x2048x2_S128x2048x1_0_0_1)
    shapeCasts_S128x2048x1_S128x2048) shapeCasts_S128x2048_S262144

/-- The four shift amounts 24, 16, 8, 0 (the program holds two copies of this table). -/
def shifts0 : IVec S4 32 := fun i => lit0 (S4.rowMajor i)
def shifts1 : IVec S4 32 := fun i => lit1 (S4.rowMajor i)

/-- Every word shifted right (arithmetically) by each of the four amounts and masked to eight bits. -/
def byteWords (sh : IVec S4 32) (w : IVec S262144 32) : IVec S262144x4 32 :=
  andi
    (Host.shrsi
      (broadcastInDim (s := S262144x1) S262144x4 ![0, 1] bcast_S262144x1_S262144x4_0_1
        (broadcastInDim (s := S262144) S262144x1 ![0] bcast_S262144_S262144x1_0 w))
      (broadcastInDim (s := S1x4) S262144x4 ![0, 1] bcast_S1x4_S262144x4_0_1
        (broadcastInDim (s := S4) S1x4 ![1] bcast_S4_S1x4_1 sh)))
    (broadcastInDim (s := S_) S262144x4 ![] bcast_S_S262144x4 (constantI S_ 32 255#32))

/-- The byte words as table row numbers: a negative one would have 256 added (none is). -/
def byteIdx (sh : IVec S4 32) (w : IVec S262144 32) : IVec S262144x4 32 :=
  select (cmpi .slt (byteWords sh w) (broadcastInDim (s := S_) S262144x4 ![] bcast_S_S262144x4 (constantI S_ 32 0#32)))
    (addi (byteWords sh w) (broadcastInDim (s := S_) S262144x4 ![] bcast_S_S262144x4 (constantI S_ 32 256#32)))
    (byteWords sh w)

/-- For every word, the four table rows its bytes select, side by side: 128 reals. -/
def gathered (tab : FVec F S4x256x32 .f32) (idx : IVec S262144x4 32) : FVec F S262144x128 .f32 :=
  shapeCast S262144x128
    (transpose S262144x4x32 [1, 0, 2]
      (Host.gather gather_S4x256x32_S4x262144x1_S4x262144x32_2_1_0_0_1_2_1132 tab
        (broadcastInDim (s := S4x262144) S4x262144x1 ![0, 1] bcast_S4x262144_S4x262144x1_0_1
          (transpose S4x262144 [1, 0] idx transposes_S262144x4_S4x262144_1_0)))
      transposes_S4x262144x32_S262144x4x32_1_0_2)
    shapeCasts_S262144x4x32_S262144x128

/-- One plus the exponential of minus the linear layer's output: the logistic function's denominator. -/
def denom (W : FVec F S32x128 .f32) (b : FVec F S32 .f32) (g : FVec F S262144x128 .f32) : FVec F S262144x32 .f32 :=
  addf (broadcastInDim (s := S_) S262144x32 ![] bcast_S_S262144x32 (constant S_ .f32 0x3F800000#32))
    (Host.exp (Host.negf
      (addf (Host.dotGeneral dot_S262144x128_S128x32_S262144x32_1_0_0_1_n_n none g (transpose S128x32 [1, 0] W transposes_S32x128_S128x32_1_0))
        (broadcastInDim (s := S1x32) S262144x32 ![0, 1] bcast_S1x32_S262144x32_0_1
          (broadcastInDim (s := S32) S1x32 ![1] bcast_S32_S1x32_1 b)))))

/-- The encoding of every word: one over that denominator. -/
def encoded (W : FVec F S32x128 .f32) (b : FVec F S32 .f32) (g : FVec F S262144x128 .f32) : FVec F S262144x32 .f32 :=
  Host.divf (broadcastInDim (s := S_) S262144x32 ![] bcast_S_S262144x32 (constant S_ .f32 0x3F800000#32)) (denom W b g)

/-- Two encodings side by side, and the 262144 rows folded back to 128 × 2048. -/
def joined (e0 e1 : FVec F S262144x32 .f32) : FVec F S128x2048x64 .f32 :=
  shapeCast S128x2048x64
    (concatenate S262144x64 1 [⟨S262144x32, e0⟩, ⟨S262144x32, e1⟩] concatenates_S262144x32_S262144x32_S262144x64_d1)
    shapeCasts_S262144x64_S128x2048x64

/-- The program's result as a function of its arguments. -/
def refOut (x : IVec S128x2048x2 32) (pc ad : FVec F S4x256x32 .f32) (W : FVec F S32x128 .f32) (b : FVec F S32 .f32) :
    FVec F S128x2048x64 .f32 :=
  joined (encoded W b (gathered pc (byteIdx shifts0 (words0 x)))) (encoded W b (gathered ad (byteIdx shifts1 (words1 x))))

end Cert.ReferenceIdeal.Hand

end
-- ==== Proof.RefOps.lean ====
/-
  The reference program's run.  Its 76 array operations are listed in nine consecutive stretches, one per intermediate
  array of interest; the program is that list run in order, and what each stretch leaves in the buffers is read off
  stretch by stretch: every buffer a later stretch reads holds the matching function of the launch arguments.
-/
import proofs.«410108_j44813688766883_3_alg».proof.Proof.RefStages
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- The two shift tables, and the two columns of the input flattened to 262144 words each. -/
abbrev opsA : List (HloOp τ sig (Elt F)) :=
  [ nullary main_c (fun i => lit0 (S4.rowMajor i)),
    nullary main_c_0 (fun i => lit1 (S4.rowMajor i)),
    unary main_arg0 main_v0 ((extractStridedSlice S128x2048x1 ![0, 0, 0] · slices_S128x2048x2_S128x2048x1_0_0_0) : (⟨S128x2048x2, .i32⟩ : BufTy).Contents (Elt F) → (⟨S128x2048x1, .i32⟩ : BufTy).Contents (Elt F)),
    reshape main_v0 main_v1 rfl shapeCasts_S128x2048x1_S128x2048,
    reshape main_v1 main_v2 rfl shapeCasts_S128x2048_S262144,
    unary main_arg0 main_v3 ((extractStridedSlice S128x2048x1 ![0, 0, 1] · slices_S128x2048x2_S128x2048x1_0_0_1) : (⟨S128x2048x2, .i32⟩ : BufTy).Contents (Elt F) → (⟨S128x2048x1, .i32⟩ : BufTy).Contents (Elt F)),
    reshape main_v3 main_v4 rfl shapeCasts_S128x2048x1_S128x2048,
    reshape main_v4 main_v5 rfl shapeCasts_S128x2048_S262144 ]

/-- The first column's words cut into bytes, as table row numbers. -/
abbrev opsB : List (HloOp τ sig (Elt F)) :=
  [ unary main_v2 main_v6 (broadcastInDim S262144x1 ![0] bcast_S262144_S262144x1_0 : (⟨S262144, .i32⟩ : BufTy).Contents (Elt F) → (⟨S262144x1, .i32⟩ : BufTy).Contents (Elt F)),
    unary main_c main_v7 (broadcastInDim S1x4 ![1] bcast_S4_S1x4_1 : (⟨S4, .i32⟩ : BufTy).Contents (Elt F) → (⟨S1x4, .i32⟩ : BufTy).Contents (Elt F)),
    unary main_v6 main_v8 (broadcastInDim S262144x4 ![0, 1] bcast_S262144x1_S262144x4_0_1 : (⟨S262144x1, .i32⟩ : BufTy).Contents (Elt F) → (⟨S262144x4, .i32⟩ : BufTy).Contents (Elt F)),
    unary main_v7 main_v9 (broadcastInDim S262144x4 ![0, 1] bcast_S1x4_S262144x4_0_1 : (⟨S1x4, .i32⟩ : BufTy).Contents (Elt F) → (⟨S262144x4, .i32⟩ : BufTy).Contents (Elt F)),
    binary main_v8 main_v9 main_v10 (Host.shrsi : (⟨S262144x4, .i32⟩ : BufTy).Contents (Elt F) → (⟨S262144x4, .i32⟩ : BufTy).Contents (Elt F) → (⟨S262144x4, .i32⟩ : BufTy).Contents (Elt F)),
    nullary main_c_1 (constantI S_ 32 255#32),
    unary main_c_1 main_v11 (broadcastInDim S262144x4 ![] bcast_S_S262144x4 : (⟨S_, .i32⟩ : BufTy).Contents (Elt F) → (⟨S262144x4, .i32⟩ : BufTy).Contents (Elt F)),
    binary main_v10 main_v11 main_v12 (andi : (⟨S262144x4, .i32⟩ : BufTy).Contents (Elt F) → (⟨S262144x4, .i32⟩ : BufTy).Contents (Elt F) → (⟨S262144x4, .i32⟩ : BufTy).Contents (Elt F)),
    nullary main_c_2 (constantI S_ 32 0#32),
    unary main_c_2 main_v13 (broadcastInDim S262144x4 ![] bcast_S_S262144x4 : (⟨S_, .i32⟩ : BufTy).Contents (Elt F) → (⟨S262144x4, .i32⟩ : BufTy).Contents (Elt F)),
    binary main_v12 main_v13 main_v14 (cmpi .slt : (⟨S262144x4, .i32⟩ : BufTy).Contents (Elt F) → (⟨S262144x4, .i32⟩ : BufTy).Contents (Elt F) → (⟨S262144x4, .i1⟩ : BufTy).Contents (Elt F)),
    nullary main_c_3 (constantI S_ 32 256#32),
    unary main_c_3 main_v15 (broadcastInDim S262144x4 ![] bcast_S_S262144x4 : (⟨S_, .i32⟩ : BufTy).Contents (Elt F) → (⟨S262144x4, .i32⟩ : BufTy).Contents (Elt F)),
    binary main_v12 main_v15 main_v16 (addi : (⟨S262144x4, .i32⟩ : BufTy).Contents (Elt F) → (⟨S262144x4, .i32⟩ : BufTy).Contents (Elt F) → (⟨S262144x4, .i32⟩ : BufTy).Contents (Elt F)),
    ternary main_v14 main_v16 main_v12 main_v17 (select : (⟨S262144x4, .i1⟩ : BufTy).Contents (Elt F) → (⟨S262144x4, .i32⟩ : BufTy).Contents (Elt F) → (⟨S262144x4, .i32⟩ : BufTy).Contents (Elt F) → (⟨S262144x4, .i32⟩ : BufTy).Contents (Elt F)) ]

/-- The first stack of tables read at those rows, four rows side by side per word. -/
abbrev opsC : List (HloOp τ sig (Elt F)) :=
  [ unary main_v17 main_v18 ((transpose S4x262144 [1, 0] · transposes_S262144x4_S4x262144_1_0) : (⟨S262144x4, .i32⟩ : BufTy).Contents (Elt F) → (⟨S4x262144, .i32⟩ : BufTy).Contents (Elt F)),
    unary main_v18 main_v19 (broadcastInDim S4x262144x1 ![0, 1] bcast_S4x262144_S4x262144x1_0_1 : (⟨S4x262144, .i32⟩ : BufTy).Contents (Elt F) → (⟨S4x262144x1, .i32⟩ : BufTy).Contents (Elt F)),
    binary main_arg1 main_v19 main_v20 ((fun x i => Host.gather gather_S4x256x32_S4x262144x1_S4x262144x32_2_1_0_0_1_2_1132 x i) : (⟨S4x256x32, .f32⟩ : BufTy).Contents (Elt F) → (⟨S4x262144x1, .i32⟩ : BufTy).Contents (Elt F) → (⟨S4x262144x32, .f32⟩ : BufTy).Contents (Elt F)),
    unary main_v20 main_v21 ((transpose S262144x4x32 [1, 0, 2] · transposes_S4x262144x32_S262144x4x32_1_0_2) : (⟨S4x262144x32, .f32⟩ : BufTy).Contents (Elt F) → (⟨S262144x4x32, .f32⟩ : BufTy).Contents (Elt F)),
    reshape main_v21 main_v22 rfl shapeCasts_S262144x4x32_S262144x128 ]

/-- The second column's words cut into bytes, as table row numbers. -/
abbrev opsD : List (HloOp τ sig (Elt F)) :=
  [ unary main_v5 main_v23 (broadcastInDim S262144x1 ![0] bcast_S262144_S262144x1_0 : (⟨S262144, .i32⟩ : BufTy).Contents (Elt F) → (⟨S262144x1, .i32⟩ : BufTy).Contents (Elt F)),
    unary main_c_0 main_v24 (broadcastInDim S1x4 ![1] bcast_S4_S1x4_1 : (⟨S4, .i32⟩ : BufTy).Contents (Elt F) → (⟨S1x4, .i32⟩ : BufTy).Contents (Elt F)),
    unary main_v23 main_v25 (broadcastInDim S262144x4 ![0, 1] bcast_S262144x1_S262144x4_0_1 : (⟨S262144x1, .i32⟩ : BufTy).Contents (Elt F) → (⟨S262144x4, .i32⟩ : BufTy).Contents (Elt F)),
    unary main_v24 main_v26 (broadcastInDim S262144x4 ![0, 1] bcast_S1x4_S262144x4_0_1 : (⟨S1x4, .i32⟩ : BufTy).Contents (Elt F) → (⟨S262144x4, .i32⟩ : BufTy).Contents (Elt F)),
    binary main_v25 main_v26 main_v27 (Host.shrsi : (⟨S262144x4, .i32⟩ : BufTy).Contents (Elt F) → (⟨S262144x4, .i32⟩ : BufTy).Contents (Elt F) → (⟨S262144x4, .i32⟩ : BufTy).Contents (Elt F)),
    nullary main_c_4 (constantI S_ 32 255#32),
    unary main_c_4 main_v28 (broadcastInDim S262144x4 ![] bcast_S_S262144x4 : (⟨S_, .i32⟩ : BufTy).Contents (Elt F) → (⟨S262144x4, .i32⟩ : BufTy).Contents (Elt F)),
    binary main_v27 main_v28 main_v29 (andi : (⟨S262144x4, .i32⟩ : BufTy).Contents (Elt F) → (⟨S262144x4, .i32⟩ : BufTy).Contents (Elt F) → (⟨S262144x4, .i32⟩ : BufTy).Contents (Elt F)),
    nullary main_c_5 (constantI S_ 32 0#32),
    unary main_c_5 main_v30 (broadcastInDim S262144x4 ![] bcast_S_S262144x4 : (⟨S_, .i32⟩ : BufTy).Contents (Elt F) → (⟨S262144x4, .i32⟩ : BufTy).Contents (Elt F)),
    binary main_v29 main_v30 main_v31 (cmpi .slt : (⟨S262144x4, .i32⟩ : BufTy).Contents (Elt F) → (⟨S262144x4, .i32⟩ : BufTy).Contents (Elt F) → (⟨S262144x4, .i1⟩ : BufTy).Contents (Elt F)),
    nullary main_c_6 (constantI S_ 32 256#32),
    unary main_c_6 main_v32 (broadcastInDim S262144x4 ![] bcast_S_S262144x4 : (⟨S_, .i32⟩ : BufTy).Contents (Elt F) → (⟨S262144x4, .i32⟩ : BufTy).Contents (Elt F)),
    binary main_v29 main_v32 main_v33 (addi : (⟨S262144x4, .i32⟩ : BufTy).Contents (Elt F) → (⟨S262144x4, .i32⟩ : BufTy).Contents (Elt F) → (⟨S262144x4, .i32⟩ : BufTy).Contents (Elt F)),
    ternary main_v31 main_v33 main_v29 main_v34 (select : (⟨S262144x4, .i1⟩ : BufTy).Contents (Elt F) → (⟨S262144x4, .i32⟩ : BufTy).Contents (Elt F) → (⟨S262144x4, .i32⟩ : BufTy).Contents (Elt F) → (⟨S262144x4, .i32⟩ : BufTy).Contents (Elt F)) ]

/-- The second stack of tables read at those rows. -/
abbrev opsE : List (HloOp τ sig (Elt F)) :=
  [ unary main_v34 main_v35 ((transpose S4x262144 [1, 0] · transposes_S262144x4_S4x262144_1_0) : (⟨S262144x4, .i32⟩ : BufTy).Contents (Elt F) → (⟨S4x262144, .i32⟩ : BufTy).Contents (Elt F)),
    unary main_v35 main_v36 (broadcastInDim S4x262144x1 ![0, 1] bcast_S4x262144_S4x262144x1_0_1 : (⟨S4x262144, .i32⟩ : BufTy).Contents (Elt F) → (⟨S4x262144x1, .i32⟩ : BufTy).Contents (Elt F)),
    binary main_arg2 main_v36 main_v37 ((fun x i => Host.gather gather_S4x256x32_S4x262144x1_S4x262144x32_2_1_0_0_1_2_1132 x i) : (⟨S4x256x32, .f32⟩ : BufTy).Contents (Elt F) → (⟨S4x262144x1, .i32⟩ : BufTy).Contents (Elt F) → (⟨S4x262144x32, .f32⟩ : BufTy).Contents (Elt F)),
    unary main_v37 main_v38 ((transpose S262144x4x32 [1, 0, 2] · transposes_S4x262144x32_S262144x4x32_1_0_2) : (⟨S4x262144x32, .f32⟩ : BufTy).Contents (Elt F) → (⟨S262144x4x32, .f32⟩ : BufTy).Contents (Elt F)),
    reshape main_v38 main_v39 rfl shapeCasts_S262144x4x32_S262144x128 ]

/-- The linear layer on the first column's rows, up to the logistic function's denominator. -/
abbrev opsF : List (HloOp τ sig (Elt F)) :=
  [ unary main_arg3 main_v40 ((transpose S128x32 [1, 0] · transposes_S32x128_S128x32_1_0) : (⟨S32x128, .f32⟩ : BufTy).Contents (Elt F) → (⟨S128x32, .f32⟩ : BufTy).Contents (Elt F)),
    binary main_v22 main_v40 main_v41 ((fun l r => Host.dotGeneral dot_S262144x128_S128x32_S262144x32_1_0_0_1_n_n none l r) : (⟨S262144x128, .f32⟩ : BufTy).Contents (Elt F) → (⟨S128x32, .f32⟩ : BufTy).Contents (Elt F) → (⟨S262144x32, .f32⟩ : BufTy).Contents (Elt F)),
    unary main_arg4 main_v42 (broadcastInDim S1x32 ![1] bcast_S32_S1x32_1 : (⟨S32, .f32⟩ : BufTy).Contents (Elt F) → (⟨S1x32, .f32⟩ : BufTy).Contents (Elt F)),
    unary main_v42 main_v43 (broadcastInDim S262144x32 ![0, 1] bcast_S1x32_S262144x32_0_1 : (⟨S1x32, .f32⟩ : BufTy).Contents (Elt F) → (⟨S262144x32, .f32⟩ : BufTy).Contents (Elt F)),
    binary main_v41 main_v43 main_v44 (addf : (⟨S262144x32, .f32⟩ : BufTy).Contents (Elt F) → (⟨S262144x32, .f32⟩ : BufTy).Contents (Elt F) → (⟨S262144x32, .f32⟩ : BufTy).Contents (Elt F)),
    unary main_v44 main_v45 (Host.negf : (⟨S262144x32, .f32⟩ : BufTy).Contents (Elt F) → (⟨S262144x32, .f32⟩ : BufTy).Contents (Elt F)),
    unary main_v45 main_v46 (Host.exp : (⟨S262144x32, .f32⟩ : BufTy).Contents (Elt F) → (⟨S262144x32, .f32⟩ : BufTy).Contents (Elt F)),
    nullary main_cst (constant S_ .f32 0x3F800000#32),
    unary main_cst main_v47 (broadcastInDim S262144x32 ![] bcast_S_S262144x32 : (⟨S_, .f32⟩ : BufTy).Contents (Elt F) → (⟨S262144x32, .f32⟩ : BufTy).Contents (Elt F)),
    binary main_v47 main_v46 main_v48 (addf : (⟨S262144x32, .f32⟩ : BufTy).Contents (Elt F) → (⟨S262144x32, .f32⟩ : BufTy).Contents (Elt F) → (⟨S262144x32, .f32⟩ : BufTy).Contents (Elt F)),
    nullary main_cst_7 (constant S_ .f32 0x3F800000#32),
    unary main_cst_7 main_v49 (broadcastInDim S262144x32 ![] bcast_S_S262144x32 : (⟨S_, .f32⟩ : BufTy).Contents (Elt F) → (⟨S262144x32, .f32⟩ : BufTy).Contents (Elt F)) ]

/-- The first column's encoding. -/
abbrev opsG : List (HloOp τ sig (Elt F)) :=
  [ binary main_v49 main_v48 main_v50 (Host.divf : (⟨S262144x32, .f32⟩ : BufTy).Contents (Elt F) → (⟨S262144x32, .f32⟩ : BufTy).Contents (Elt F) → (⟨S262144x32, .f32⟩ : BufTy).Contents (Elt F)) ]

/-- The linear layer and the logistic function on the second column's rows. -/
abbrev opsH : List (HloOp τ sig (Elt F)) :=
  [ unary main_arg3 main_v51 ((transpose S128x32 [1, 0] · transposes_S32x128_S128x32_1_0) : (⟨S32x128, .f32⟩ : BufTy).Contents (Elt F) → (⟨S128x32, .f32⟩ : BufTy).Contents (Elt F)),
    binary main_v39 main_v51 main_v52 ((fun l r => Host.dotGeneral dot_S262144x128_S128x32_S262144x32_1_0_0_1_n_n none l r) : (⟨S262144x128, .f32⟩ : BufTy).Contents (Elt F) → (⟨S128x32, .f32⟩ : BufTy).Contents (Elt F) → (⟨S262144x32, .f32⟩ : BufTy).Contents (Elt F)),
    unary main_arg4 main_v53 (broadcastInDim S1x32 ![1] bcast_S32_S1x32_1 : (⟨S32, .f32⟩ : BufTy).Contents (Elt F) → (⟨S1x32, .f32⟩ : BufTy).Contents (Elt F)),
    unary main_v53 main_v54 (broadcastInDim S262144x32 ![0, 1] bcast_S1x32_S262144x32_0_1 : (⟨S1x32, .f32⟩ : BufTy).Contents (Elt F) → (⟨S262144x32, .f32⟩ : BufTy).Contents (Elt F)),
    binary main_v52 main_v54 main_v55 (addf : (⟨S262144x32, .f32⟩ : BufTy).Contents (Elt F) → (⟨S262144x32, .f32⟩ : BufTy).Contents (Elt F) → (⟨S262144x32, .f32⟩ : BufTy).Contents (Elt F)),
    unary main_v55 main_v56 (Host.negf : (⟨S262144x32, .f32⟩ : BufTy).Contents (Elt F) → (⟨S262144x32, .f32⟩ : BufTy).Contents (Elt F)),
    unary main_v56 main_v57 (Host.exp : (⟨S262144x32, .f32⟩ : BufTy).Contents (Elt F) → (⟨S262144x32, .f32⟩ : BufTy).Contents (Elt F)),
    nullary main_cst_8 (constant S_ .f32 0x3F800000#32),
    unary main_cst_8 main_v58 (broadcastInDim S262144x32 ![] bcast_S_S262144x32 : (⟨S_, .f32⟩ : BufTy).Contents (Elt F) → (⟨S262144x32, .f32⟩ : BufTy).Contents (Elt F)),
    binary main_v58 main_v57 main_v59 (addf : (⟨S262144x32, .f32⟩ : BufTy).Contents (Elt F) → (⟨S262144x32, .f32⟩ : BufTy).Contents (Elt F) → (⟨S262144x32, .f32⟩ : BufTy).Contents (Elt F)),
    nullary main_cst_9 (constant S_ .f32 0x3F800000#32),
    unary main_cst_9 main_v60 (broadcastInDim S262144x32 ![] bcast_S_S262144x32 : (⟨S_, .f32⟩ : BufTy).Contents (Elt F) → (⟨S262144x32, .f32⟩ : BufTy).Contents (Elt F)),
    binary main_v60 main_v59 main_v61 (Host.divf : (⟨S262144x32, .f32⟩ : BufTy).Contents (Elt F) → (⟨S262144x32, .f32⟩ : BufTy).Contents (Elt F) → (⟨S262144x32, .f32⟩ : BufTy).Contents (Elt F)) ]

/-- The two encodings side by side, folded back to 128 × 2048 rows. -/
abbrev opsJ : List (HloOp τ sig (Elt F)) :=
  [ binary main_v50 main_v61 main_v62 ((fun a b => concatenate S262144x64 1 [⟨S262144x32, a⟩, ⟨S262144x32, b⟩] concatenates_S262144x32_S262144x32_S262144x64_d1) : (⟨S262144x32, .f32⟩ : BufTy).Contents (Elt F) → (⟨S262144x32, .f32⟩ : BufTy).Contents (Elt F) → (⟨S262144x64, .f32⟩ : BufTy).Contents (Elt F)),
    reshape main_v62 main_v63 rfl shapeCasts_S262144x64_S128x2048x64 ]

/-- The first window's 60 operations and the second's 16. -/
abbrev ops0 : List (HloOp τ sig (Elt F)) := opsA ++ (opsB ++ (opsC ++ (opsD ++ (opsE ++ opsF))))
abbrev ops1 : List (HloOp τ sig (Elt F)) := opsG ++ (opsH ++ opsJ)
abbrev ops : List (HloOp τ sig (Elt F)) := ops0 ++ ops1

set_option maxRecDepth 8192 in
theorem main_part0_eq (c : Dev nD) : main_part0 (F := F) c = seq ops0 := rfl
set_option maxRecDepth 8192 in
theorem main_part1_eq (c : Dev nD) : main_part1 (F := F) c = seq ops1 := rfl
theorem main_eq (c : Dev nD) : main (F := F) c = seq ops := by
  show (main_part0 (F := F) c >>= fun _ => main_part1 (F := F) c) = _
  rw [seq_append, main_part0_eq, main_part1_eq]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

theorem opsA_sub : (opsA : List (HloOp τ sig (Elt F))).Forall fun op => op.bufs ⊆ tcRefs τ sig :=
  ⟨nullary_bufs_sub .., nullary_bufs_sub .., unary_bufs_sub .., reshape_bufs_sub .., reshape_bufs_sub .., unary_bufs_sub .., reshape_bufs_sub .., reshape_bufs_sub ..⟩
theorem opsB_sub : (opsB : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub ..⟩
theorem opsC_sub : (opsC : List (HloOp τ sig (Elt F))).Forall fun op => op.bufs ⊆ tcRefs τ sig :=
  ⟨unary_bufs_sub .., unary_bufs_sub .., binary_bufs_sub .., unary_bufs_sub .., reshape_bufs_sub ..⟩
theorem opsD_sub : (opsD : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub ..⟩
theorem opsE_sub : (opsE : List (HloOp τ sig (Elt F))).Forall fun op => op.bufs ⊆ tcRefs τ sig :=
  ⟨unary_bufs_sub .., unary_bufs_sub .., binary_bufs_sub .., unary_bufs_sub .., reshape_bufs_sub ..⟩
theorem opsF_sub : (opsF : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub ..⟩
theorem opsG_sub : (opsG : List (HloOp τ sig (Elt F))).Forall fun op => op.bufs ⊆ tcRefs τ sig :=
  binary_bufs_sub ..
theorem opsH_sub : (opsH : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem opsJ_sub : (opsJ : List (HloOp τ sig (Elt F))).Forall fun op => op.bufs ⊆ tcRefs τ sig :=
  ⟨binary_bufs_sub .., reshape_bufs_sub ..⟩

theorem forall_append {P : HloOp τ sig (Elt F) → Prop} {l₁ l₂ : List (HloOp τ sig (Elt F))} (h₁ : l₁.Forall P) (h₂ : l₂.Forall P) :
    (l₁ ++ l₂).Forall P :=
  List.forall_iff_forall_mem.mpr fun op h => (List.mem_append.mp h).elim (List.forall_iff_forall_mem.mp h₁ op) (List.forall_iff_forall_mem.mp h₂ op)

theorem ops_sub : (ops : List (HloOp τ sig (Elt F))).Forall fun op => op.bufs ⊆ tcRefs τ sig :=
  forall_append (forall_append opsA_sub (forall_append opsB_sub (forall_append opsC_sub (forall_append opsD_sub (forall_append opsE_sub opsF_sub)))))
    (forall_append opsG_sub (forall_append opsH_sub opsJ_sub))

/-- No operation allocates: each determines its results. -/
theorem ops_fresh : ∀ op ∈ (ops : List (HloOp τ sig (Elt F))), op.fresh = ∅ := by
  intro op h
  simp only [ops, ops0, ops1, List.mem_append] at h
  rcases h with (h | h | h | h | h | h) | h | h | h <;>
    ((repeat (cases h with | head => rfl | tail _ h => ?_)); exact nomatch h)

/-- On every device, from any memory with zero counters: every weakly fair execution of the program terminates, and
    every buffer ends at what the operations, run in order, leave in it. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- An operation's one written buffer is in the stretch's list of written references. -/
local macro "writes_mem" : tactic =>
  `(tactic| (simp only [nullary_writes, unary_writes, binary_writes, ternary_writes, reshape_writes, Finset.singleton_subset_iff, List.mem_toFinset]
             exact List.mem_map_of_mem (by decide)))

/-! ## What each stretch leaves

`VA V` is the buffers after the first stretch from contents `V`, `VB V` after the second, and so on.  For each level:
which buffers it writes (so that every other buffer keeps its contents), and what the buffers a later stretch reads
hold, as a function of `V` at the five arguments. -/

def VA (V : Valuation τ sig (Elt F)) : Valuation τ sig (Elt F) := after opsA V
abbrev WA : List (Ref sig .tc) := [main_c, main_c_0, main_v0, main_v1, main_v2, main_v3, main_v4, main_v5]
theorem opsA_writes : (opsA : List (HloOp τ sig (Elt F))).Forall fun op => op.writes ⊆ (WA.map (Proc.devRef (τ := τ) .tc)).toFinset := by
  simp only [List.Forall]
  refine ⟨?_, ?_, ?_, ?_, ?_, ?_, ?_, ?_⟩ <;> writes_mem
theorem VA_keep (V : Valuation τ sig (Elt F)) (r : Ref sig .tc) (h : r ∉ WA) :
    VA V (Proc.devRef .tc r) = V (Proc.devRef .tc r) :=
  after_of_writes_sub opsA _ opsA_writes h

def VB (V : Valuation τ sig (Elt F)) : Valuation τ sig (Elt F) := after opsB (VA V)
abbrev WB : List (Ref sig .tc) := [main_v6, main_v7, main_v8, main_v9, main_v10, main_c_1, main_v11, main_v12, main_c_2, main_v13, main_v14, main_c_3, main_v15, main_v16, main_v17]
theorem opsB_writes : (opsB : List (HloOp τ sig (Elt F))).Forall fun op => op.writes ⊆ (WB.map (Proc.devRef (τ := τ) .tc)).toFinset := by
  simp only [List.Forall]
  refine ⟨?_, ?_, ?_, ?_, ?_, ?_, ?_, ?_, ?_, ?_, ?_, ?_, ?_, ?_, ?_⟩ <;> writes_mem
theorem VB_keep (V : Valuation τ sig (Elt F)) (r : Ref sig .tc) (h : r ∉ WB) :
    VB V (Proc.devRef .tc r) = VA V (Proc.devRef .tc r) :=
  after_of_writes_sub opsB _ opsB_writes h

def VC (V : Valuation τ sig (Elt F)) : Valuation τ sig (Elt F) := after opsC (VB V)
abbrev WC : List (Ref sig .tc) := [main_v18, main_v19, main_v20, main_v21, main_v22]
theorem opsC_writes : (opsC : List (HloOp τ sig (Elt F))).Forall fun op => op.writes ⊆ (WC.map (Proc.devRef (τ := τ) .tc)).toFinset := by
  simp only [List.Forall]
  refine ⟨?_, ?_, ?_, ?_, ?_⟩ <;> writes_mem
theorem VC_keep (V : Valuation τ sig (Elt F)) (r : Ref sig .tc) (h : r ∉ WC) :
    VC V (Proc.devRef .tc r) = VB V (Proc.devRef .tc r) :=
  after_of_writes_sub opsC _ opsC_writes h

def VD (V : Valuation τ sig (Elt F)) : Valuation τ sig (Elt F) := after opsD (VC V)
abbrev WD : List (Ref sig .tc) := [main_v23, main_v24, main_v25, main_v26, main_v27, main_c_4, main_v28, main_v29, main_c_5, main_v30, main_v31, main_c_6, main_v32, main_v33, main_v34]
theorem opsD_writes : (opsD : List (HloOp τ sig (Elt F))).Forall fun op => op.writes ⊆ (WD.map (Proc.devRef (τ := τ) .tc)).toFinset := by
  simp only [List.Forall]
  refine ⟨?_, ?_, ?_, ?_, ?_, ?_, ?_, ?_, ?_, ?_, ?_, ?_, ?_, ?_, ?_⟩ <;> writes_mem
theorem VD_keep (V : Valuation τ sig (Elt F)) (r : Ref sig .tc) (h : r ∉ WD) :
    VD V (Proc.devRef .tc r) = VC V (Proc.devRef .tc r) :=
  after_of_writes_sub opsD _ opsD_writes h

def VE (V : Valuation τ sig (Elt F)) : Valuation τ sig (Elt F) := after opsE (VD V)
abbrev WE : List (Ref sig .tc) := [main_v35, main_v36, main_v37, main_v38, main_v39]
theorem opsE_writes : (opsE : List (HloOp τ sig (Elt F))).Forall fun op => op.writes ⊆ (WE.map (Proc.devRef (τ := τ) .tc)).toFinset := by
  simp only [List.Forall]
  refine ⟨?_, ?_, ?_, ?_, ?_⟩ <;> writes_mem
theorem VE_keep (V : Valuation τ sig (Elt F)) (r : Ref sig .tc) (h : r ∉ WE) :
    VE V (Proc.devRef .tc r) = VD V (Proc.devRef .tc r) :=
  after_of_writes_sub opsE _ opsE_writes h

def VF (V : Valuation τ sig (Elt F)) : Valuation τ sig (Elt F) := after opsF (VE V)
abbrev WF : List (Ref sig .tc) := [main_v40, main_v41, main_v42, main_v43, main_v44, main_v45, main_v46, main_cst, main_v47, main_v48, main_cst_7, main_v49]
theorem opsF_writes : (opsF : List (HloOp τ sig (Elt F))).Forall fun op => op.writes ⊆ (WF.map (Proc.devRef (τ := τ) .tc)).toFinset := by
  simp only [List.Forall]
  refine ⟨?_, ?_, ?_, ?_, ?_, ?_, ?_, ?_, ?_, ?_, ?_, ?_⟩ <;> writes_mem
theorem VF_keep (V : Valuation τ sig (Elt F)) (r : Ref sig .tc) (h : r ∉ WF) :
    VF V (Proc.devRef .tc r) = VE V (Proc.devRef .tc r) :=
  after_of_writes_sub opsF _ opsF_writes h

def VG (V : Valuation τ sig (Elt F)) : Valuation τ sig (Elt F) := after opsG (VF V)
abbrev WG : List (Ref sig .tc) := [main_v50]
theorem opsG_writes : (opsG : List (HloOp τ sig (Elt F))).Forall fun op => op.writes ⊆ (WG.map (Proc.devRef (τ := τ) .tc)).toFinset := by
  simp only [List.Forall]
  writes_mem
theorem VG_keep (V : Valuation τ sig (Elt F)) (r : Ref sig .tc) (h : r ∉ WG) :
    VG V (Proc.devRef .tc r) = VF V (Proc.devRef .tc r) :=
  after_of_writes_sub opsG _ opsG_writes h

def VH (V : Valuation τ sig (Elt F)) : Valuation τ sig (Elt F) := after opsH (VG V)
abbrev WH : List (Ref sig .tc) := [main_v51, main_v52, main_v53, main_v54, main_v55, main_v56, main_v57, main_cst_8, main_v58, main_v59, main_cst_9, main_v60, main_v61]
theorem opsH_writes : (opsH : List (HloOp τ sig (Elt F))).Forall fun op => op.writes ⊆ (WH.map (Proc.devRef (τ := τ) .tc)).toFinset := by
  simp only [List.Forall]
  refine ⟨?_, ?_, ?_, ?_, ?_, ?_, ?_, ?_, ?_, ?_, ?_, ?_, ?_⟩ <;> writes_mem
theorem VH_keep (V : Valuation τ sig (Elt F)) (r : Ref sig .tc) (h : r ∉ WH) :
    VH V (Proc.devRef .tc r) = VG V (Proc.devRef .tc r) :=
  after_of_writes_sub opsH _ opsH_writes h

def VJ (V : Valuation τ sig (Elt F)) : Valuation τ sig (Elt F) := after opsJ (VH V)
abbrev WJ : List (Ref sig .tc) := [main_v62, main_v63]
theorem opsJ_writes : (opsJ : List (HloOp τ sig (Elt F))).Forall fun op => op.writes ⊆ (WJ.map (Proc.devRef (τ := τ) .tc)).toFinset := by
  simp only [List.Forall]
  refine ⟨?_, ?_⟩ <;> writes_mem
theorem VJ_keep (V : Valuation τ sig (Elt F)) (r : Ref sig .tc) (h : r ∉ WJ) :
    VJ V (Proc.devRef .tc r) = VH V (Proc.devRef .tc r) :=
  after_of_writes_sub opsJ _ opsJ_writes h

/-! ### A buffer none of the first stretches writes still holds its launch contents -/

theorem VA_base (V : Valuation τ sig (Elt F)) (r : Ref sig .tc) (hA : r ∉ WA) :
    VA V (Proc.devRef .tc r) = V (Proc.devRef .tc r) :=
  VA_keep V r hA
theorem VB_base (V : Valuation τ sig (Elt F)) (r : Ref sig .tc) (hA : r ∉ WA) (hB : r ∉ WB) :
    VB V (Proc.devRef .tc r) = V (Proc.devRef .tc r) :=
  (VB_keep V r hB).trans (VA_base V r hA)
theorem VC_base (V : Valuation τ sig (Elt F)) (r : Ref sig .tc) (hA : r ∉ WA) (hB : r ∉ WB) (hC : r ∉ WC) :
    VC V (Proc.devRef .tc r) = V (Proc.devRef .tc r) :=
  (VC_keep V r hC).trans (VB_base V r hA hB)
theorem VD_base (V : Valuation τ sig (Elt F)) (r : Ref sig .tc) (hA : r ∉ WA) (hB : r ∉ WB) (hC : r ∉ WC) (hD : r ∉ WD) :
    VD V (Proc.devRef .tc r) = V (Proc.devRef .tc r) :=
  (VD_keep V r hD).trans (VC_base V r hA hB hC)
theorem VE_base (V : Valuation τ sig (Elt F)) (r : Ref sig .tc) (hA : r ∉ WA) (hB : r ∉ WB) (hC : r ∉ WC) (hD : r ∉ WD) (hE : r ∉ WE) :
    VE V (Proc.devRef .tc r) = V (Proc.devRef .tc r) :=
  (VE_keep V r hE).trans (VD_base V r hA hB hC hD)
theorem VF_base (V : Valuation τ sig (Elt F)) (r : Ref sig .tc) (hA : r ∉ WA) (hB : r ∉ WB) (hC : r ∉ WC) (hD : r ∉ WD) (hE : r ∉ WE) (hF : r ∉ WF) :
    VF V (Proc.devRef .tc r) = V (Proc.devRef .tc r) :=
  (VF_keep V r hF).trans (VE_base V r hA hB hC hD hE)
theorem VG_base (V : Valuation τ sig (Elt F)) (r : Ref sig .tc) (hA : r ∉ WA) (hB : r ∉ WB) (hC : r ∉ WC) (hD : r ∉ WD) (hE : r ∉ WE) (hF : r ∉ WF) (hG : r ∉ WG) :
    VG V (Proc.devRef .tc r) = V (Proc.devRef .tc r) :=
  (VG_keep V r hG).trans (VF_base V r hA hB hC hD hE hF)
theorem VH_base (V : Valuation τ sig (Elt F)) (r : Ref sig .tc) (hA : r ∉ WA) (hB : r ∉ WB) (hC : r ∉ WC) (hD : r ∉ WD) (hE : r ∉ WE) (hF : r ∉ WF) (hG : r ∉ WG) (hH : r ∉ WH) :
    VH V (Proc.devRef .tc r) = V (Proc.devRef .tc r) :=
  (VH_keep V r hH).trans (VG_base V r hA hB hC hD hE hF hG)
theorem VJ_base (V : Valuation τ sig (Elt F)) (r : Ref sig .tc) (hA : r ∉ WA) (hB : r ∉ WB) (hC : r ∉ WC) (hD : r ∉ WD) (hE : r ∉ WE) (hF : r ∉ WF) (hG : r ∉ WG) (hH : r ∉ WH) (hJ : r ∉ WJ) :
    VJ V (Proc.devRef .tc r) = V (Proc.devRef .tc r) :=
  (VJ_keep V r hJ).trans (VH_base V r hA hB hC hD hE hF hG hH)

/-! ### The stages -/

local macro "nw" : term => `(by decide)

theorem VA_c (V : Valuation τ sig (Elt F)) : VA V (Proc.devRef .tc main_c) = shifts0 := by
  unfold VA; simp only [opsA]; after_results <;> rfl
theorem VA_c_0 (V : Valuation τ sig (Elt F)) : VA V (Proc.devRef .tc main_c_0) = shifts1 := by
  unfold VA; simp only [opsA]; after_results <;> rfl
theorem VA_v2 (V : Valuation τ sig (Elt F)) : VA V (Proc.devRef .tc main_v2) = words0 (V (Proc.devRef .tc main_arg0)) := by
  unfold VA; simp only [opsA]; after_results <;> rfl
theorem VA_v5 (V : Valuation τ sig (Elt F)) : VA V (Proc.devRef .tc main_v5) = words1 (V (Proc.devRef .tc main_arg0)) := by
  unfold VA; simp only [opsA]; after_results <;> rfl

theorem VB_v17 (V : Valuation τ sig (Elt F)) :
    VB V (Proc.devRef .tc main_v17) = byteIdx shifts0 (words0 (V (Proc.devRef .tc main_arg0))) := by
  unfold VB; simp only [opsB]; after_results
  rw [VA_v2, VA_c]; rfl

theorem VC_v22 (V : Valuation τ sig (Elt F)) :
    VC V (Proc.devRef .tc main_v22)
      = gathered (V (Proc.devRef .tc main_arg1)) (byteIdx shifts0 (words0 (V (Proc.devRef .tc main_arg0)))) := by
  unfold VC; simp only [opsC]; after_results
  rw [VB_v17, VB_base V main_arg1 nw nw]; rfl

theorem VD_v34 (V : Valuation τ sig (Elt F)) :
    VD V (Proc.devRef .tc main_v34) = byteIdx shifts1 (words1 (V (Proc.devRef .tc main_arg0))) := by
  unfold VD; simp only [opsD]; after_results
  rw [VC_keep V main_v5 nw, VB_keep V main_v5 nw, VA_v5, VC_keep V main_c_0 nw, VB_keep V main_c_0 nw, VA_c_0]; rfl

theorem VE_v39 (V : Valuation τ sig (Elt F)) :
    VE V (Proc.devRef .tc main_v39)
      = gathered (V (Proc.devRef .tc main_arg2)) (byteIdx shifts1 (words1 (V (Proc.devRef .tc main_arg0)))) := by
  unfold VE; simp only [opsE]; after_results
  rw [VD_v34, VD_base V main_arg2 nw nw nw nw]; rfl

theorem VF_v49 (V : Valuation τ sig (Elt F)) :
    VF V (Proc.devRef .tc main_v49)
      = broadcastInDim (s := S_) S262144x32 ![] bcast_S_S262144x32 (constant (F := F) S_ .f32 0x3F800000#32) := by
  unfold VF; simp only [opsF]; after_results <;> rfl

theorem VF_v48 (V : Valuation τ sig (Elt F)) :
    VF V (Proc.devRef .tc main_v48)
      = denom (V (Proc.devRef .tc main_arg3)) (V (Proc.devRef .tc main_arg4))
          (gathered (V (Proc.devRef .tc main_arg1)) (byteIdx shifts0 (words0 (V (Proc.devRef .tc main_arg0))))) := by
  unfold VF; simp only [opsF]; after_results
  rw [VE_keep V main_v22 nw, VD_keep V main_v22 nw, VC_v22, VE_base V main_arg3 nw nw nw nw nw, VE_base V main_arg4 nw nw nw nw nw]; rfl

theorem VG_v50 (V : Valuation τ sig (Elt F)) :
    VG V (Proc.devRef .tc main_v50)
      = encoded (V (Proc.devRef .tc main_arg3)) (V (Proc.devRef .tc main_arg4))
          (gathered (V (Proc.devRef .tc main_arg1)) (byteIdx shifts0 (words0 (V (Proc.devRef .tc main_arg0))))) := by
  unfold VG; simp only [opsG]; after_results
  rw [VF_v49, VF_v48]; rfl

theorem VH_v61 (V : Valuation τ sig (Elt F)) :
    VH V (Proc.devRef .tc main_v61)
      = encoded (V (Proc.devRef .tc main_arg3)) (V (Proc.devRef .tc main_arg4))
          (gathered (V (Proc.devRef .tc main_arg2)) (byteIdx shifts1 (words1 (V (Proc.devRef .tc main_arg0))))) := by
  unfold VH; simp only [opsH]; after_results
  rw [VG_keep V main_v39 nw, VF_keep V main_v39 nw, VE_v39, VG_base V main_arg3 nw nw nw nw nw nw nw, VG_base V main_arg4 nw nw nw nw nw nw nw]; rfl

theorem VJ_v63 (V : Valuation τ sig (Elt F)) :
    VJ V (Proc.devRef .tc main_v63)
      = refOut (V (Proc.devRef .tc main_arg0)) (V (Proc.devRef .tc main_arg1)) (V (Proc.devRef .tc main_arg2))
          (V (Proc.devRef .tc main_arg3)) (V (Proc.devRef .tc main_arg4)) := by
  unfold VJ; simp only [opsJ]; after_results
  rw [VH_keep V main_v50 nw, VG_v50, VH_v61]; rfl

theorem VJ_arg (V : Valuation τ sig (Elt F)) (r : Ref sig .tc)
    (h : r ∉ WA ∧ r ∉ WB ∧ r ∉ WC ∧ r ∉ WD ∧ r ∉ WE ∧ r ∉ WF ∧ r ∉ WG ∧ r ∉ WH ∧ r ∉ WJ) :
    VJ V (Proc.devRef .tc r) = V (Proc.devRef .tc r) :=
  VJ_base V r h.1 h.2.1 h.2.2.1 h.2.2.2.1 h.2.2.2.2.1 h.2.2.2.2.2.1 h.2.2.2.2.2.2.1 h.2.2.2.2.2.2.2.1 h.2.2.2.2.2.2.2.2

/-- The whole list run from `V` is the last level. -/
theorem after_ops (V : Valuation τ sig (Elt F)) : after ops V = VJ V := by
  simp only [ops, ops0, ops1, after_append]
  rfl

/-- On every device, for any float values, from any memory with zero counters: every weakly fair execution of the
    program terminates with the result buffer at `refOut` of the arguments' launch contents, the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
          = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v63).trans (by rw [after_ops]; exact VJ_v63 (launchContents m c)),
       (h c main_arg0).trans (by rw [after_ops]; exact VJ_arg (launchContents m c) main_arg0 (by decide)),
       (h c main_arg1).trans (by rw [after_ops]; exact VJ_arg (launchContents m c) main_arg1 (by decide)),
       (h c main_arg2).trans (by rw [after_ops]; exact VJ_arg (launchContents m c) main_arg2 (by decide)),
       (h c main_arg3).trans (by rw [after_ops]; exact VJ_arg (launchContents m c) main_arg3 (by decide)),
       (h c main_arg4).trans (by rw [after_ops]; exact VJ_arg (launchContents m c) main_arg4 (by decide))⟩)
    (run_after m ρ)

end Cert.ReferenceIdeal.Hand

end
-- ==== Proof.RefValue.lean ====
/-
  The reference program's result, index by index, is the specification's function.

  Reading the program's composition of array operations at an explicit index, from the inside out: the flattened
  word of a row; its four bytes (an arithmetic shift by 24, 16, 8 or 0 and a mask to eight bits; a byte word is not
  negative, so the program's "add 256 if negative" leaves it alone); the table read (table `j`, row "byte `j`", the
  clamp to the table's 256 rows being the identity on a byte); the four rows side by side (input `32 j + d` of the
  linear layer is feature `d` of the row from table `j`); the matrix product as a sum over the 128 inputs, regrouped
  as a sum over four tables and 32 features; one over one plus the exponential of the negation, which is the logistic
  function; and the two encodings side by side, the rows folded back to 128 × 2048.  Sums over the extended reals are
  only reordered, never distributed.
-/
import proofs.«410108_j44813688766883_3_alg».proof.Proof.RefStages
import proofs.«410108_j44813688766883_3_alg».proof.Proof.Spec
import Idealize.ShloMosaic.Lib.Pipeline.Value
import Idealize.ShloMosaic.Lib.ValueLayout
import Idealize.ShloMosaic.Lib.IdealHost
import Idealize.ShloMosaic.Lib.StableHlo.Predicate
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

variable {F : FTy → Type} [FloatOps F]

/-! ## The words -/

/-- Row `r`, position `s` of the 128 × 2048 rows, as a position among the 262144 flattened ones. -/
def row (r : Fin 128) (s : Fin 2048) : Fin 262144 := ⟨2048 * r.val + s.val, by have := r.isLt; have := s.isLt; omega⟩

theorem words0_apply (x : IVec S128x2048x2 32) (r : Fin 128) (s : Fin 2048) :
    words0 x (ix1 (row r s)) = x (ix3 r s (0 : Fin 2)) := by
  unfold words0
  rw [shapeCast_apply _ _ (ix1 (row r s)) (ix2 r s) (by
        rw [Shape.rowMajor_val_two, Shape.rowMajor_val_one]
        show r.val * 2048 + s.val = 2048 * r.val + s.val; omega),
      shapeCast_apply _ _ (ix2 r s) (ix3 r s (0 : Fin 1)) (by
        rw [Shape.rowMajor_val_three, Shape.rowMajor_val_two]
        show (r.val * 2048 + s.val) * 1 + 0 = r.val * 2048 + s.val; omega)]
  exact extractStridedSlice_apply _ _ _ _ (ix3 r s (0 : Fin 2)) fun a => match a with
    | ⟨0, _⟩ => (Nat.zero_add _).symm | ⟨1, _⟩ => (Nat.zero_add _).symm | ⟨2, _⟩ => rfl

theorem words1_apply (x : IVec S128x2048x2 32) (r : Fin 128) (s : Fin 2048) :
    words1 x (ix1 (row r s)) = x (ix3 r s (1 : Fin 2)) := by
  unfold words1
  rw [shapeCast_apply _ _ (ix1 (row r s)) (ix2 r s) (by
        rw [Shape.rowMajor_val_two, Shape.rowMajor_val_one]
        show r.val * 2048 + s.val = 2048 * r.val + s.val; omega),
      shapeCast_apply _ _ (ix2 r s) (ix3 r s (0 : Fin 1)) (by
        rw [Shape.rowMajor_val_three, Shape.rowMajor_val_two]
        show (r.val * 2048 + s.val) * 1 + 0 = r.val * 2048 + s.val; omega)]
  exact extractStridedSlice_apply _ _ _ _ (ix3 r s (1 : Fin 2)) fun a => match a with
    | ⟨0, _⟩ => (Nat.zero_add _).symm | ⟨1, _⟩ => (Nat.zero_add _).symm | ⟨2, _⟩ => rfl

/-! ## The bytes -/

theorem shifts0_apply (j : Fin 4) : shifts0 (ix1 j) = Cert.Embed.shiftOf j := by fin_cases j <;> rfl
theorem shifts1_apply (j : Fin 4) : shifts1 (ix1 j) = Cert.Embed.shiftOf j := by fin_cases j <;> rfl

theorem shiftOf_lt (j : Fin 4) : (Cert.Embed.shiftOf j).toNat < 32 := by fin_cases j <;> decide

/-- A vector of 262144 words laid along the rows of a 262144 × 4 rectangle. -/
theorem bcastWord_apply (w : IVec S262144 32) (n : Fin 262144) (j : Fin 4) :
    broadcastInDim (s := S262144x1) S262144x4 ![0, 1] bcast_S262144x1_S262144x4_0_1
      (broadcastInDim (s := S262144) S262144x1 ![0] bcast_S262144_S262144x1_0 w) (ix2 n j) = w (ix1 n) := by
  rw [broadcastInDim_apply _ _ _ (ix2 n j) (ix2 n (0 : Fin 1)) (fun a => match a with | ⟨0, _⟩ => rfl | ⟨1, _⟩ => rfl),
      broadcastInDim_apply _ _ _ (ix2 n (0 : Fin 1)) (ix1 n) (fun a => match a with | ⟨0, _⟩ => rfl)]

/-- A vector of four words laid along the columns of a 262144 × 4 rectangle. -/
theorem bcastShift_apply (sh : IVec S4 32) (n : Fin 262144) (j : Fin 4) :
    broadcastInDim (s := S1x4) S262144x4 ![0, 1] bcast_S1x4_S262144x4_0_1
      (broadcastInDim (s := S4) S1x4 ![1] bcast_S4_S1x4_1 sh) (ix2 n j) = sh (ix1 j) := by
  rw [broadcastInDim_apply _ _ _ (ix2 n j) (ix2 (0 : Fin 1) j) (fun a => match a with | ⟨0, _⟩ => rfl | ⟨1, _⟩ => rfl),
      broadcastInDim_apply _ _ _ (ix2 (0 : Fin 1) j) (ix1 j) (fun a => match a with | ⟨0, _⟩ => rfl)]

/-- One word spread over the rectangle. -/
theorem bcastConst_apply (c : BitVec 32) (i : S262144x4.Idx) :
    broadcastInDim (s := S_) S262144x4 ![] bcast_S_S262144x4 (constantI S_ 32 c) i = c := by
  rw [broadcastInDim_scalar_apply]; rfl

theorem byteWords_apply (sh : IVec S4 32) (hsh : ∀ j, sh (ix1 j) = Cert.Embed.shiftOf j) (w : IVec S262144 32)
    (n : Fin 262144) (j : Fin 4) : byteWords sh w (ix2 n j) = Cert.Embed.byteWord (w (ix1 n)) j := by
  unfold byteWords
  show IntOp.andi (IntOp.shrsi .host _ _) _ = _
  rw [bcastWord_apply, bcastShift_apply, bcastConst_apply, hsh]
  have hs : IntOp.shrsi .host (w (ix1 n)) (Cert.Embed.shiftOf j) = (w (ix1 n)).sshiftRight' (Cert.Embed.shiftOf j) :=
    if_pos (shiftOf_lt j)
  rw [hs]
  rfl

/-- A byte word is not negative, so the row number is the byte word itself. -/
theorem byteIdx_apply (sh : IVec S4 32) (hsh : ∀ j, sh (ix1 j) = Cert.Embed.shiftOf j) (w : IVec S262144 32)
    (n : Fin 262144) (j : Fin 4) : byteIdx sh w (ix2 n j) = Cert.Embed.byteWord (w (ix1 n)) j := by
  unfold byteIdx
  show Scalar.select (IntOp.cmpi .slt _ _) _ _ = _
  rw [bcastConst_apply, byteWords_apply sh hsh]
  have hlt := Cert.Embed.byteWord_lt (w (ix1 n)) j
  have hc : IntOp.cmpi .slt (Cert.Embed.byteWord (w (ix1 n)) j) 0#32 ≠ 1#1 := by
    rw [Ne, StableHlo.Predicate.slt_iff_toNat (by omega) (by decide)]
    simp
  exact if_neg hc

/-! ## The table read -/

/-- The dimension numbers of the program's two table reads. -/
abbrev GD := gather_S4x256x32_S4x262144x1_S4x262144x32_2_1_0_0_1_2_1132

theorem GD_siIdx (j : Fin 4) (n : Fin 262144) (d : Fin 32) (c : Fin GD.startIndexMap.length) :
    GD.siIdx (ix3 j n d) c = ix3 j n (0 : Fin 1) := by
  funext b
  match b with
  | ⟨0, _⟩ => rfl
  | ⟨1, _⟩ => rfl
  | ⟨2, _⟩ =>
    apply Fin.ext
    show c.val = 0
    have hc : c.val < 1 := c.isLt
    omega

theorem GD_start0 (idx : IVec S4x262144x1 32) (j : Fin 4) (n : Fin 262144) (d : Fin 32) :
    GD.start (ix3 j n d) idx ⟨0, by decide⟩ = 0 := rfl
theorem GD_start2 (idx : IVec S4x262144x1 32) (j : Fin 4) (n : Fin 262144) (d : Fin 32) :
    GD.start (ix3 j n d) idx ⟨2, by decide⟩ = 0 := rfl
theorem GD_start1 (idx : IVec S4x262144x1 32) (j : Fin 4) (n : Fin 262144) (d : Fin 32) :
    GD.start (ix3 j n d) idx ⟨1, by decide⟩ = min (idx (ix3 j n (0 : Fin 1))).toInt.toNat 255 := by
  unfold GatherDims.start
  rw [dif_pos (by decide), GD_siIdx]
  rfl
theorem GD_batch0 (j : Fin 4) (n : Fin 262144) (d : Fin 32) : GD.batchCoord (ix3 j n d) ⟨0, by decide⟩ = j.val := rfl
theorem GD_batch1 (j : Fin 4) (n : Fin 262144) (d : Fin 32) : GD.batchCoord (ix3 j n d) ⟨1, by decide⟩ = 0 := rfl
theorem GD_batch2 (j : Fin 4) (n : Fin 262144) (d : Fin 32) : GD.batchCoord (ix3 j n d) ⟨2, by decide⟩ = 0 := rfl
theorem GD_off0 (j : Fin 4) (n : Fin 262144) (d : Fin 32) : GD.offCoord (ix3 j n d) ⟨0, by decide⟩ = 0 := rfl
theorem GD_off1 (j : Fin 4) (n : Fin 262144) (d : Fin 32) : GD.offCoord (ix3 j n d) ⟨1, by decide⟩ = 0 := rfl
theorem GD_off2 (j : Fin 4) (n : Fin 262144) (d : Fin 32) : GD.offCoord (ix3 j n d) ⟨2, by decide⟩ = d.val := rfl

/-- The read at (table `j`, word `n`, feature `d`): row "start index of (j, n)" of table `j`, feature `d`, the start index
    read as a signed number; a start index already between 0 and 255 is not moved by the clamp. -/
theorem gather_apply {α : Type} (tab : S4x256x32.Idx → α) (idx : IVec S4x262144x1 32) (j : Fin 4) (n : Fin 262144) (d : Fin 32)
    (b : Fin 256) (hb : (idx (ix3 j n (0 : Fin 1))).toInt.toNat = b.val) :
    Host.gather GD tab idx (ix3 j n d) = tab (ix3 j b d) := by
  unfold Host.gather
  congr 1
  funext a
  apply Fin.ext
  match a with
  | ⟨0, _⟩ =>
    show GD.start (ix3 j n d) idx ⟨0, _⟩ + GD.batchCoord (ix3 j n d) ⟨0, _⟩ + GD.offCoord (ix3 j n d) ⟨0, _⟩ = j.val
    rw [GD_start0, GD_batch0, GD_off0]
    omega
  | ⟨1, _⟩ =>
    show GD.start (ix3 j n d) idx ⟨1, _⟩ + GD.batchCoord (ix3 j n d) ⟨1, _⟩ + GD.offCoord (ix3 j n d) ⟨1, _⟩ = b.val
    rw [GD_start1, GD_batch1, GD_off1, hb]
    have := b.isLt
    omega
  | ⟨2, _⟩ =>
    show GD.start (ix3 j n d) idx ⟨2, _⟩ + GD.batchCoord (ix3 j n d) ⟨2, _⟩ + GD.offCoord (ix3 j n d) ⟨2, _⟩ = d.val
    rw [GD_start2, GD_batch2, GD_off2]
    omega

/-- A byte word read as a signed number is the byte it holds. -/
theorem byteWord_toInt (v : BitVec 32) (j : Fin 4) : (Cert.Embed.byteWord v j).toInt.toNat = (Cert.Embed.byteOf v j).val := by
  have hlt := Cert.Embed.byteWord_lt v j
  rw [StableHlo.Predicate.toInt_eq_toNat_of_lt (by omega), Int.toNat_natCast]
  rfl

/-- Entry `32 j + d` of word `n`'s 128 reals: feature `d` of row "start index (n, j)" of table `j`. -/
theorem gathered_apply (tab : FVec F S4x256x32 .f32) (idx : IVec S262144x4 32) (n : Fin 262144) (j : Fin 4) (d : Fin 32)
    (b : Fin 256) (hb : (idx (ix2 n j)).toInt.toNat = b.val) :
    gathered tab idx (ix2 n (Cert.Embed.col j d)) = tab (ix3 j b d) := by
  unfold gathered
  rw [shapeCast_apply _ _ (ix2 n (Cert.Embed.col j d)) (ix3 n j d) (by
        rw [Shape.rowMajor_val_three, Shape.rowMajor_val_two]
        show (n.val * 4 + j.val) * 32 + d.val = n.val * 128 + (32 * j.val + d.val); omega),
      transpose_apply _ _ _ (ix3 n j d) (ix3 j n d) (fun c => match c with | ⟨0, _⟩ => rfl | ⟨1, _⟩ => rfl | ⟨2, _⟩ => rfl)]
  refine gather_apply _ _ j n d b ?_
  rw [broadcastInDim_apply _ _ _ (ix3 j n (0 : Fin 1)) (ix2 j n) (fun a => match a with | ⟨0, _⟩ => rfl | ⟨1, _⟩ => rfl),
      transpose_ix2_apply]
  exact hb

/-! ## The linear layer -/

/-- The dimension numbers of the program's two matrix products: rows of 128 reals against a 128 × 32 matrix. -/
abbrev DD := dot_S262144x128_S128x32_S262144x32_1_0_0_1_n_n

theorem DD_lhs0 (i : S262144x32.Idx) (k : DD.contr.Idx) : (DD.lhsIdx i k ⟨0, by decide⟩).val = (i 0).val := rfl
theorem DD_lhs1 (i : S262144x32.Idx) (k : DD.contr.Idx) : (DD.lhsIdx i k ⟨1, by decide⟩).val = (k ⟨0, by decide⟩).val :=
  DD.lhsIdx_val_of_single (cl := ⟨1, by decide⟩) rfl i k
theorem DD_rhs0 (i : S262144x32.Idx) (k : DD.contr.Idx) : (DD.rhsIdx i k ⟨0, by decide⟩).val = (k ⟨0, by decide⟩).val :=
  DD.rhsIdx_val_of_single (cr := ⟨0, by decide⟩) rfl i k
theorem DD_rhs1 (i : S262144x32.Idx) (k : DD.contr.Idx) : (DD.rhsIdx i k ⟨1, by decide⟩).val = (i 1).val := rfl

/-- The product at (word `n`, output `e`): the sum over the 128 inputs. -/
theorem dot_apply (g : FVec Ideal S262144x128 .f32) (Wt : FVec Ideal S128x32 .f32) (n : Fin 262144) (e : Fin 32) :
    Host.dotGeneral DD none g Wt (ix2 n e) = ∑ k : Fin 128, g (ix2 n k) * Wt (ix2 k e) := by
  simp only [Host.dotGeneral]
  rw [Ideal.dotGeneral_apply, ← Equiv.sum_comp (contrEquiv1 DD 128 rfl rfl).symm]
  refine Finset.sum_congr rfl fun k _ => ?_
  have hl : DD.lhsIdx (ix2 n e) ((contrEquiv1 DD 128 rfl rfl).symm k) = ix2 n k := by
    funext a
    match a with
    | ⟨0, _⟩ => exact Fin.ext (DD_lhs0 _ _)
    | ⟨1, _⟩ => exact Fin.ext ((DD_lhs1 _ _).trans (contrEquiv1_symm_val DD 128 rfl rfl k))
  have hr : DD.rhsIdx (ix2 n e) ((contrEquiv1 DD 128 rfl rfl).symm k) = ix2 k e := by
    funext a
    match a with
    | ⟨0, _⟩ => exact Fin.ext ((DD_rhs0 _ _).trans (contrEquiv1_symm_val DD 128 rfl rfl k))
    | ⟨1, _⟩ => exact Fin.ext (DD_rhs1 _ _)
  rw [hl, hr]

/-- The 128 inputs are four groups of 32: input `32 j + d` is feature `d` of group `j`. -/
theorem sum_col {M : Type} [AddCommMonoid M] (f : Fin 128 → M) :
    ∑ k : Fin 128, f k = ∑ j : Fin 4, ∑ d : Fin 32, f (Cert.Embed.col j d) := by
  rw [← Fintype.sum_prod_type' (f := fun j d => f (Cert.Embed.col j d))]
  refine (Fintype.sum_equiv (finProdFinEquiv (m := 4) (n := 32)) _ _ fun p => ?_).symm
  congr 1
  apply Fin.ext
  show 32 * p.1.val + p.2.val = p.2.val + 32 * p.1.val
  omega

/-- One real spread over the 262144 × 32 rectangle. -/
theorem bcastOne_apply (i : S262144x32.Idx) :
    broadcastInDim (s := S_) S262144x32 ![] bcast_S_S262144x32 (constant (F := Ideal) S_ .f32 0x3F800000#32) i = (1 : EReal) := by
  rw [broadcastInDim_scalar_apply]
  exact Ideal.ofBits_one_f32

/-- The bias laid along the rows. -/
theorem bcastBias_apply {α : Type} (b : S32.Idx → α) (n : Fin 262144) (e : Fin 32) :
    broadcastInDim (s := S1x32) S262144x32 ![0, 1] bcast_S1x32_S262144x32_0_1
      (broadcastInDim (s := S32) S1x32 ![1] bcast_S32_S1x32_1 b) (ix2 n e) = b (ix1 e) := by
  rw [broadcastInDim_apply _ _ _ (ix2 n e) (ix2 (0 : Fin 1) e) (fun a => match a with | ⟨0, _⟩ => rfl | ⟨1, _⟩ => rfl),
      broadcastInDim_apply _ _ _ (ix2 (0 : Fin 1) e) (ix1 e) (fun a => match a with | ⟨0, _⟩ => rfl)]

/-- The encoding at (word `n`, output `e`): the logistic function of the row's product with the matrix plus the bias.
    One over one plus the exponential of the negation is the logistic function by definition. -/
theorem encoded_apply (W : FVec Ideal S32x128 .f32) (b : FVec Ideal S32 .f32) (g : FVec Ideal S262144x128 .f32)
    (n : Fin 262144) (e : Fin 32) :
    encoded W b g (ix2 n e) = Ideal.logistic ((∑ k : Fin 128, g (ix2 n k) * W (ix2 e k)) + b (ix1 e)) := by
  unfold encoded denom
  show FloatOps.hostDivf _ (FloatOps.addf _ (FloatOps.hostUnary .exp (FloatOps.hostNegf (FloatOps.addf _ _)))) = _
  rw [bcastOne_apply, bcastBias_apply, dot_apply]
  have ht : ∀ k : Fin 128, transpose S128x32 [1, 0] W transposes_S32x128_S128x32_1_0 (ix2 k e) = W (ix2 e k) :=
    fun k => transpose_ix2_apply _ _ _ _
  simp only [ht]
  rfl

/-- The encoding of word `n` through a stack of tables is the specification's. -/
theorem encoded_gathered (tab : FVec Ideal S4x256x32 .f32) (W : FVec Ideal S32x128 .f32) (b : FVec Ideal S32 .f32)
    (sh : IVec S4 32) (hsh : ∀ j, sh (ix1 j) = Cert.Embed.shiftOf j) (w : IVec S262144 32) (n : Fin 262144) (e : Fin 32) :
    encoded W b (gathered tab (byteIdx sh w)) (ix2 n e) = Cert.Embed.enc tab W b (w (ix1 n)) e := by
  rw [encoded_apply, sum_col]
  delta Cert.Embed.enc Cert.Embed.pre
  congr 2
  refine Finset.sum_congr rfl fun j _ => Finset.sum_congr rfl fun d _ => ?_
  rw [gathered_apply tab _ n j d (Cert.Embed.byteOf (w (ix1 n)) j) (by rw [byteIdx_apply sh hsh]; exact byteWord_toInt _ _)]

/-! ## The result -/

theorem joined_apply_left (e0 e1 : FVec F S262144x32 .f32) (r : Fin 128) (s : Fin 2048) (c : Fin 64) (h : c.val < 32) :
    joined e0 e1 (ix3 r s c) = e0 (ix2 (row r s) ⟨c.val, h⟩) := by
  unfold joined
  rw [shapeCast_apply _ _ (ix3 r s c) (ix2 (row r s) c) (by
        rw [Shape.rowMajor_val_three, Shape.rowMajor_val_two]
        show (2048 * r.val + s.val) * 64 + c.val = (r.val * 2048 + s.val) * 64 + c.val; omega)]
  exact concatenate_pair_apply_left (t := S262144x64) (s₁ := S262144x32) (s₂ := S262144x32) 1 e0 e1
    concatenates_S262144x32_S262144x32_S262144x64_d1 (ix2 (row r s) c) rfl (ix2 (row r s) ⟨c.val, h⟩)
    fun a => match a with | ⟨0, _⟩ => rfl | ⟨1, _⟩ => rfl

theorem joined_apply_right (e0 e1 : FVec F S262144x32 .f32) (r : Fin 128) (s : Fin 2048) (c : Fin 64) (h : ¬ c.val < 32) :
    joined e0 e1 (ix3 r s c) = e1 (ix2 (row r s) ⟨c.val - 32, by have := c.isLt; omega⟩) := by
  unfold joined
  rw [shapeCast_apply _ _ (ix3 r s c) (ix2 (row r s) c) (by
        rw [Shape.rowMajor_val_three, Shape.rowMajor_val_two]
        show (2048 * r.val + s.val) * 64 + c.val = (r.val * 2048 + s.val) * 64 + c.val; omega)]
  refine concatenate_pair_apply_right (t := S262144x64) (s₁ := S262144x32) (s₂ := S262144x32) 1 e0 e1
    concatenates_S262144x32_S262144x32_S262144x64_d1 (ix2 (row r s) c) rfl rfl
    (ix2 (row r s) (⟨c.val - 32, by have := c.isLt; omega⟩ : Fin 32))
    (fun a => match a with | ⟨0, _⟩ => fun _ => rfl | ⟨1, _⟩ => fun hne => absurd rfl hne) ?_
  show c.val - 32 + 32 = c.val
  omega

/-- The program's result is the specification's array. -/
theorem refOut_eq (x : IVec S128x2048x2 32) (pc ad : FVec Ideal S4x256x32 .f32) (W : FVec Ideal S32x128 .f32)
    (b : FVec Ideal S32 .f32) : refOut x pc ad W b = Cert.Embed.G x pc ad W b := by
  funext i
  obtain ⟨r, s, c, rfl⟩ : ∃ (r : Fin 128) (s : Fin 2048) (c : Fin 64), i = ix3 r s c := ⟨i 0, i 1, i 2, eq_ix3 i⟩
  rw [Cert.Embed.G_apply]
  delta Cert.Embed.Gat
  unfold refOut
  split
  · rename_i h
    rw [joined_apply_left _ _ r s c h, encoded_gathered _ _ _ _ shifts0_apply, words0_apply]
  · rename_i h
    rw [joined_apply_right _ _ r s c h, encoded_gathered _ _ _ _ shifts1_apply, words1_apply]

end Cert.ReferenceIdeal.Hand

end
-- ==== Proof.RefRun.lean ====
/-
  The reference program's run, read against the specification: every weakly fair execution terminates with the result
  buffer holding the specification's array of the five arguments' launch contents, the arguments unchanged.  The run
  leaves the program's own composition of array operations there; index by index that composition is the
  specification's function.
-/
import proofs.«410108_j44813688766883_3_alg».proof.Proof.RefOps
import proofs.«410108_j44813688766883_3_alg».proof.Proof.RefValue

noncomputable section

namespace Cert.ReferenceIdeal.Hand

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v63)
          = Cert.Embed.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).1.trans (refOut_eq _ _ _ _ _), (h c).2⟩)
    (run_stages (F := Ideal) m ρ)

end Cert.ReferenceIdeal.Hand

end
-- ==== Proof.lean ====
/-
  The certificate: the packed-byte embedding kernel against its plain reference, over the extended reals.

  Both programs take 128 × 2048 rows of two 32-bit words, two stacks of four 256 × 32 byte tables, a 32 × 128 matrix and a
  bias.  The reference cuts each word into its four bytes, gathers one table row per byte, lays the four rows side by
  side and applies the linear layer and the logistic function.  The kernel program folds the matrix into the tables on
  the host (a gathered row times a matrix block is a row of the table times that block), selects the folded rows inside
  the call by multiplying with zero-one matrices, one byte per trip of a four-trip loop, and adds the bias and applies
  the logistic function there.  Both are the specification's function (Proof/Spec.lean): the kernel side by
  Proof/KernelRun.lean over the frame run, the host prefix and the block value; the reference side by Proof/RefRun.lean.
  Selecting a row by a zero-one product and regrouping the 128-term sum by byte need only that the extended reals are a
  commutative monoid under addition and that multiplying by zero or one is what it is for every extended real, so the
  precondition (finite inputs) is never opened.

  The three frames: the two kernel programs' by their frame runs (Proof/FrameB.lean, Proof/FrameI.lean: the same text at
  the two float instances), the reference's by its run with the result dropped.  The idealization rewrote nothing.
-/
import proofs.«410108_j44813688766883_3_alg».proof.Defs
import proofs.«410108_j44813688766883_3_alg».proof.Proof.Gen.Kernel
import proofs.«410108_j44813688766883_3_alg».proof.Proof.Gen.KernelIdeal
import proofs.«410108_j44813688766883_3_alg».proof.Proof.Gen.ReferenceIdeal
import proofs.«410108_j44813688766883_3_alg».proof.Proof.Gen.Pre_finite_inputs
import proofs.«410108_j44813688766883_3_alg».proof.Proof.FrameB
import proofs.«410108_j44813688766883_3_alg».proof.Proof.KernelRun
import proofs.«410108_j44813688766883_3_alg».proof.Proof.RefRun
import Idealize.ShloMosaic.Adequacy
import Idealize.ShloMosaic.Init

noncomputable section

namespace Cert.Proof

open Idealize.ShloMosaic Idealize.SL.Sem

/-- The bit-level kernel program runs and keeps its arguments. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- From memories agreeing on the arguments both programs end with the specification's array of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
